-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S10000x768 : Shape := ⟨2, ![10000, 768]⟩
abbrev S1000000 : Shape := ⟨1, ![1000000]⟩
abbrev S512x64 : Shape := ⟨2, ![512, 64]⟩
abbrev S64 : Shape := ⟨1, ![64]⟩
abbrev S768x64 : Shape := ⟨2, ![768, 64]⟩
abbrev S100000x64 : Shape := ⟨2, ![100000, 64]⟩
abbrev S10000x64 : Shape := ⟨2, ![10000, 64]⟩
abbrev S64x64 : Shape := ⟨2, ![64, 64]⟩
abbrev S100000 : Shape := ⟨1, ![100000]⟩
abbrev S10000 : Shape := ⟨1, ![10000]⟩
abbrev S2x1600000 : Shape := ⟨2, ![2, 1600000]⟩
abbrev S2x1000000 : Shape := ⟨2, ![2, 1000000]⟩
abbrev S_ : Shape := ⟨0, ![]⟩
abbrev S1x1600000 : Shape := ⟨2, ![1, 1600000]⟩
abbrev S1600000 : Shape := ⟨1, ![1600000]⟩
abbrev S1x1000000 : Shape := ⟨2, ![1, 1000000]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S10000x768 : S_.BroadcastsInDim S10000x768 (![] : Fin 0 → Fin S10000x768.rank)
  reducesTo_S10000x768_S_d0_1 : S10000x768.ReducesTo [0, 1] S_
  bcast_S_S1000000 : S_.BroadcastsInDim S1000000 (![] : Fin 0 → Fin S1000000.rank)
  reducesTo_S1000000_S_d0 : S1000000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S768x64 : S_.BroadcastsInDim S768x64 (![] : Fin 0 → Fin S768x64.rank)
  reducesTo_S768x64_S_d0_1 : S768x64.ReducesTo [0, 1] S_
  bcast_S_S100000x64 : S_.BroadcastsInDim S100000x64 (![] : Fin 0 → Fin S100000x64.rank)
  reducesTo_S100000x64_S_d0_1 : S100000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S64x64 : S_.BroadcastsInDim S64x64 (![] : Fin 0 → Fin S64x64.rank)
  reducesTo_S64x64_S_d0_1 : S64x64.ReducesTo [0, 1] S_
  bcast_S_S100000 : S_.BroadcastsInDim S100000 (![] : Fin 0 → Fin S100000.rank)
  reducesTo_S100000_S_d0 : S100000.ReducesTo [0] S_
  bcast_S_S10000 : S_.BroadcastsInDim S10000 (![] : Fin 0 → Fin S10000.rank)
  reducesTo_S10000_S_d0 : S10000.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  slices_S2x1600000_S1x1600000_1_0 : S2x1600000.Slices ![1, 0] S1x1600000
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000

variable [Facts]

def fn_part9 {F : FTy → Type} [FloatOps F] (main_v150 : IVec S_ 1) (main_v154 : IVec S1000000 1) (main_v156 : IVec S1000000 32) (main_c_56 : IVec S_ 32) : IVec S_ 1 :=
  let main_v157 : IVec S1000000 32 := broadcastInDim S1000000 ![] bcast_S_S1000000 main_c_56
  let main_v158 : IVec S1000000 1 := cmpi .slt main_v156 main_v157
  let main_v159 : IVec S1000000 1 := andi main_v154 main_v158
  let main_c_57 : IVec S_ 1 := constantI S_ 1 1#1
  let main_v160 : IVec S_ 1 := (fun x v => Host.reduce IntOp.andi x v reducesTo_S1000000_S_d0 h_S_) main_v159 main_c_57
  let main_v161 : IVec S_ 1 := andi main_v150 main_v160
  main_v161

def fn_part8 {F : FTy → Type} [FloatOps F] (main_arg24 : IVec S2x1000000 32) (main_v128 : IVec S_ 1) (main_v137 : IVec S1600000 1) (main_c_51 : IVec S_ 1) : IVec S_ 1 :=
  let main_v138 : IVec S_ 1 := (fun x v => Host.reduce IntOp.andi x v reducesTo_S1600000_S_d0 h_S_) main_v137 main_c_51
  let main_v139 : IVec S_ 1 := andi main_v128 main_v138
  let main_v140 : IVec S1x1000000 32 := (extractStridedSlice S1x1000000 ![0, 0] · slices_S2x1000000_S1x1000000_0_0) main_arg24
  let main_v141 : IVec S1000000 32 := shapeCast S1000000 main_v140 shapeCasts_S1x1000000_S1000000
  let main_c_52 : IVec S_ 32 := constantI S_ 32 0#32
  let main_v142 : IVec S1000000 32 := broadcastInDim S1000000 ![] bcast_S_S1000000 main_c_52
  let main_v143 : IVec S1000000 1 := cmpi .sge main_v141 main_v142
  let main_v144 : IVec S1x1000000 32 := (extractStridedSlice S1x1000000 ![0, 0] · slices_S2x1000000_S1x1000000_0_0) main_arg24
  let main_v145 : IVec S1000000 32 := shapeCast S1000000 main_v144 shapeCasts_S1x1000000_S1000000
  let main_c_53 : IVec S_ 32 := constantI S_ 32 100000#32
  let main_v146 : IVec S1000000 32 := broadcastInDim S1000000 ![] bcast_S_S1000000 main_c_53
  let main_v147 : IVec S1000000 1 := cmpi .slt main_v145 main_v146
  let main_v148 : IVec S1000000 1 := andi main_v143 main_v147
  let main_c_54 : IVec S_ 1 := constantI S_ 1 1#1
  let main_v149 : IVec S_ 1 := (fun x v => Host.reduce IntOp.andi x v reducesTo_S1000000_S_d0 h_S_) main_v148 main_c_54
  let main_v150 : IVec S_ 1 := andi main_v139 main_v149
  let main_v151 : IVec S1x1000000 32 := (extractStridedSlice S1x1000000 ![1, 0] · slices_S2x1000000_S1x1000000_1_0) main_arg24
  let main_v152 : IVec S1000000 32 := shapeCast S1000000 main_v151 shapeCasts_S1x1000000_S1000000
  let main_c_55 : IVec S_ 32 := constantI S_ 32 0#32
  let main_v153 : IVec S1000000 32 := broadcastInDim S1000000 ![] bcast_S_S1000000 main_c_55
  let main_v154 : IVec S1000000 1 := cmpi .sge main_v152 main_v153
  let main_v155 : IVec S1x1000000 32 := (extractStridedSlice S1x1000000 ![1, 0] · slices_S2x1000000_S1x1000000_1_0) main_arg24
  let main_v156 : IVec S1000000 32 := shapeCast S1000000 main_v155 shapeCasts_S1x1000000_S1000000
  let main_c_56 : IVec S_ 32 := constantI S_ 32 10000#32
  fn_part9 (F := F) main_v150 main_v154 main_v156 main_c_56

def fn_part7 {F : FTy → Type} [FloatOps F] (main_arg23 : IVec S2x1600000 32) (main_arg24 : IVec S2x1000000 32) (main_v117 : IVec S_ 1) (main_v119 : IVec S1600000 32) : IVec S_ 1 :=
  let main_c_46 : IVec S_ 32 := constantI S_ 32 0#32
  let main_v120 : IVec S1600000 32 := broadcastInDim S1600000 ![] bcast_S_S1600000 main_c_46
  let main_v121 : IVec S1600000 1 := cmpi .sge main_v119 main_v120
  let main_v122 : IVec S1x1600000 32 := (extractStridedSlice S1x1600000 ![0, 0] · slices_S2x1600000_S1x1600000_0_0) main_arg23
  let main_v123 : IVec S1600000 32 := shapeCast S1600000 main_v122 shapeCasts_S1x1600000_S1600000
  let main_c_47 : IVec S_ 32 := constantI S_ 32 100000#32
  let main_v124 : IVec S1600000 32 := broadcastInDim S1600000 ![] bcast_S_S1600000 main_c_47
  let main_v125 : IVec S1600000 1 := cmpi .slt main_v123 main_v124
  let main_v126 : IVec S1600000 1 := andi main_v121 main_v125
  let main_c_48 : IVec S_ 1 := constantI S_ 1 1#1
  let main_v127 : IVec S_ 1 := (fun x v => Host.reduce IntOp.andi x v reducesTo_S1600000_S_d0 h_S_) main_v126 main_c_48
  let main_v128 : IVec S_ 1 := andi main_v117 main_v127
  let main_v129 : IVec S1x1600000 32 := (extractStridedSlice S1x1600000 ![1, 0] · slices_S2x1600000_S1x1600000_1_0) main_arg23
  let main_v130 : IVec S1600000 32 := shapeCast S1600000 main_v129 shapeCasts_S1x1600000_S1600000
  let main_c_49 : IVec S_ 32 := constantI S_ 32 0#32
  let main_v131 : IVec S1600000 32 := broadcastInDim S1600000 ![] bcast_S_S1600000 main_c_49
  let main_v132 : IVec S1600000 1 := cmpi .sge main_v130 main_v131
  let main_v133 : IVec S1x1600000 32 := (extractStridedSlice S1x1600000 ![1, 0] · slices_S2x1600000_S1x1600000_1_0) main_arg23
  let main_v134 : IVec S1600000 32 := shapeCast S1600000 main_v133 shapeCasts_S1x1600000_S1600000
  let main_c_50 : IVec S_ 32 := constantI S_ 32 10000#32
  let main_v135 : IVec S1600000 32 := broadcastInDim S1600000 ![] bcast_S_S1600000 main_c_50
  let main_v136 : IVec S1600000 1 := cmpi .slt main_v134 main_v135
  let main_v137 : IVec S1600000 1 := andi main_v132 main_v136
  let main_c_51 : IVec S_ 1 := constantI S_ 1 1#1
  fn_part8 (F := F) main_arg24 main_v128 main_v137 main_c_51

def fn_part6 {F : FTy → Type} [FloatOps F] (main_arg21 : IVec S100000 32) (main_arg22 : IVec S10000 32) (main_arg23 : IVec S2x1600000 32) (main_arg24 : IVec S2x1000000 32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_c_40 : IVec S_ 32 := constantI S_ 32 0#32
  let main_v104 : IVec S100000 32 := broadcastInDim S100000 ![] bcast_S_S100000 main_c_40
  let main_v105 : IVec S100000 1 := cmpi .sge main_arg21 main_v104
  let main_c_41 : IVec S_ 32 := constantI S_ 32 100000#32
  let main_v106 : IVec S100000 32 := broadcastInDim S100000 ![] bcast_S_S100000 main_c_41
  let main_v107 : IVec S100000 1 := cmpi .slt main_arg21 main_v106
  let main_v108 : IVec S100000 1 := andi main_v105 main_v107
  let main_c_42 : IVec S_ 1 := constantI S_ 1 1#1
  let main_v109 : IVec S_ 1 := (fun x v => Host.reduce IntOp.andi x v reducesTo_S100000_S_d0 h_S_) main_v108 main_c_42
  let main_v110 : IVec S_ 1 := andi main_v103 main_v109
  let main_c_43 : IVec S_ 32 := constantI S_ 32 0#32
  let main_v111 : IVec S10000 32 := broadcastInDim S10000 ![] bcast_S_S10000 main_c_43
  let main_v112 : IVec S10000 1 := cmpi .sge main_arg22 main_v111
  let main_c_44 : IVec S_ 32 := constantI S_ 32 10000#32
  let main_v113 : IVec S10000 32 := broadcastInDim S10000 ![] bcast_S_S10000 main_c_44
  let main_v114 : IVec S10000 1 := cmpi .slt main_arg22 main_v113
  let main_v115 : IVec S10000 1 := andi main_v112 main_v114
  let main_c_45 : IVec S_ 1 := constantI S_ 1 1#1
  let main_v116 : IVec S_ 1 := (fun x v => Host.reduce IntOp.andi x v reducesTo_S10000_S_d0 h_S_) main_v115 main_c_45
  let main_v117 : IVec S_ 1 := andi main_v110 main_v116
  let main_v118 : IVec S1x1600000 32 := (extractStridedSlice S1x1600000 ![0, 0] · slices_S2x1600000_S1x1600000_0_0) main_arg23
  let main_v119 : IVec S1600000 32 := shapeCast S1600000 main_v118 shapeCasts_S1x1600000_S1600000
  fn_part7 (F := F) main_arg23 main_arg24 main_v117 main_v119

def fn_part5 {F : FTy → Type} [FloatOps F] (main_arg18 : FVec F S64x64 .f32) (main_arg19 : FVec F S64 .f32) (main_arg20 : FVec F S64x64 .f32) (main_arg21 : IVec S100000 32) (main_arg22 : IVec S10000 32) (main_arg23 : IVec S2x1600000 32) (main_arg24 : IVec S2x1000000 32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg20
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : IVec S100000 32) (main_arg22 : IVec S10000 32) (main_arg23 : IVec S2x1600000 32) (main_arg24 : IVec S2x1000000 32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : IVec S100000 32) (main_arg22 : IVec S10000 32) (main_arg23 : IVec S2x1600000 32) (main_arg24 : IVec S2x1000000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S100000x64 .f32) (main_arg8 : FVec F S10000x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : IVec S100000 32) (main_arg22 : IVec S10000 32) (main_arg23 : IVec S2x1600000 32) (main_arg24 : IVec S2x1000000 32) (main_v33 : IVec S_ 1) : IVec S_ 1 :=
  let main_v34 : FVec F S100000x64 .f32 := Host.absf main_arg7
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  let main_v39 : FVec F S10000x64 .f32 := Host.absf main_arg8
  let main_cst_14 : FVec F S_ .f32 := constant S_ .f32 0x7F800000#32
  let main_v40 : FVec F S10000x64 .f32 := broadcastInDim S10000x64 ![] bcast_S_S10000x64 main_cst_14
  let main_v41 : IVec S10000x64 1 := cmpf .olt main_v39 main_v40
  let main_c_15 : IVec S_ 1 := constantI S_ 1 1#1
  let main_v42 : IVec S_ 1 := (fun x v => Host.reduce IntOp.andi x v reducesTo_S10000x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S64 .f32) (main_arg5 : FVec F S768x64 .f32) (main_arg6 : FVec F S64 .f32) (main_arg7 : FVec F S100000x64 .f32) (main_arg8 : FVec F S10000x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : IVec S100000 32) (main_arg22 : IVec S10000 32) (main_arg23 : IVec S2x1600000 32) (main_arg24 : IVec S2x1000000 32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x512 .f32) (main_arg1 : FVec F S10000x768 .f32) (main_arg2 : FVec F S1000000 .f32) (main_arg3 : FVec F S512x64 .f32) (main_arg4 : FVec F S64 .f32) (main_arg5 : FVec F S768x64 .f32) (main_arg6 : FVec F S64 .f32) (main_arg7 : FVec F S100000x64 .f32) (main_arg8 : FVec F S10000x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : IVec S100000 32) (main_arg22 : IVec S10000 32) (main_arg23 : IVec S2x1600000 32) (main_arg24 : IVec S2x1000000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S10000x768 .f32 := Host.absf main_arg1
  let main_cst_0 : FVec F S_ .f32 := constant S_ .f32 0x7F800000#32
  let main_v5 : FVec F S10000x768 .f32 := broadcastInDim S10000x768 ![] bcast_S_S10000x768 main_cst_0
  let main_v6 : IVec S10000x768 1 := cmpf .olt main_v4 main_v5
  let main_c_1 : IVec S_ 1 := constantI S_ 1 1#1
  let main_v7 : IVec S_ 1 := (fun x v => Host.reduce IntOp.andi x v reducesTo_S10000x768_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x512 : Shape := ⟨2, ![100000, 512]⟩
abbrev S10000x768 : Shape := ⟨2, ![10000, 768]⟩
abbrev S1000000 : Shape := ⟨1, ![1000000]⟩
abbrev S512x64 : Shape := ⟨2, ![512, 64]⟩
abbrev S64 : Shape := ⟨1, ![64]⟩
abbrev S768x64 : Shape := ⟨2, ![768, 64]⟩
abbrev S100000x64 : Shape := ⟨2, ![100000, 64]⟩
abbrev S10000x64 : Shape := ⟨2, ![10000, 64]⟩
abbrev S64x64 : Shape := ⟨2, ![64, 64]⟩
abbrev S100000 : Shape := ⟨1, ![100000]⟩
abbrev S10000 : Shape := ⟨1, ![10000]⟩
abbrev S2x1600000 : Shape := ⟨2, ![2, 1600000]⟩
abbrev S2x1000000 : Shape := ⟨2, ![2, 1000000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S10000x1 : Shape := ⟨2, ![10000, 1]⟩
abbrev S1x64 : Shape := ⟨2, ![1, 64]⟩
abbrev S5000x512 : Shape := ⟨2, ![5000, 512]⟩
abbrev S5000x64 : Shape := ⟨2, ![5000, 64]⟩
abbrev S2000x768 : Shape := ⟨2, ![2000, 768]⟩
abbrev S2000x64 : Shape := ⟨2, ![2000, 64]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x1000000 : Shape := ⟨2, ![1, 1000000]⟩
abbrev S1000000x1 : Shape := ⟨2, ![1000000, 1]⟩
abbrev S1000000x64 : Shape := ⟨2, ![1000000, 64]⟩
abbrev S1003520x64 : Shape := ⟨2, ![1003520, 64]⟩
abbrev S1003520 : Shape := ⟨1, ![1003520]⟩
abbrev S4096x64 : Shape := ⟨2, ![4096, 64]⟩
abbrev S4096 : Shape := ⟨1, ![4096]⟩

abbrev nBuf : Space → Nat
  | .hbm => 305
  | .vmem => 58
  | .smem => 0
  | _ => 0

abbrev hbmTy0_0 (i : Nat) : BufTy := match i % 128 with
  | 0 => ⟨S100000x512, .f32⟩
  | 1 => ⟨S10000x768, .f32⟩
  | 2 => ⟨S1000000, .f32⟩
  | 3 => ⟨S512x64, .f32⟩
  | 4 => ⟨S64, .f32⟩
  | 5 => ⟨S768x64, .f32⟩
  | 6 => ⟨S64, .f32⟩
  | 7 => ⟨S100000x64, .f32⟩
  | 8 => ⟨S10000x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S100000, .i32⟩
  | 22 => ⟨S10000, .i32⟩
  | 23 => ⟨S2x1600000, .i32⟩
  | 24 => ⟨S2x1000000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S1, .i32⟩
  | 34 => ⟨S_, .i32⟩
  | 35 => ⟨S100000x1, .i32⟩
  | 36 => ⟨S100000x1, .i1⟩
  | 37 => ⟨S1x1, .i32⟩
  | 38 => ⟨S100000x1, .i32⟩
  | 39 => ⟨S100000x1, .i1⟩
  | 40 => ⟨S100000x1, .i1⟩
  | 41 => ⟨S_, .i1⟩
  | 42 => ⟨S100000, .i1⟩
  | 43 => ⟨S100000x64, .f32⟩
  | 44 => ⟨S100000x64, .i1⟩
  | 45 => ⟨S_, .f32⟩
  | 46 => ⟨S100000x64, .f32⟩
  | 47 => ⟨S100000x64, .f32⟩
  | 48 => ⟨S_, .i32⟩
  | 49 => ⟨S10000, .i32⟩
  | 50 => ⟨S10000, .i1⟩
  | 51 => ⟨S_, .i32⟩
  | 52 => ⟨S10000, .i32⟩
  | 53 => ⟨S10000, .i32⟩
  | 54 => ⟨S10000, .i32⟩
  | 55 => ⟨S10000x1, .i32⟩
  | 56 => ⟨S1, .i32⟩
  | 57 => ⟨S_, .i32⟩
  | 58 => ⟨S10000x1, .i32⟩
  | 59 => ⟨S10000x1, .i1⟩
  | 60 => ⟨S1x1, .i32⟩
  | 61 => ⟨S10000x1, .i32⟩
  | 62 => ⟨S10000x1, .i1⟩
  | 63 => ⟨S10000x1, .i1⟩
  | 64 => ⟨S_, .i1⟩
  | 65 => ⟨S10000, .i1⟩
  | 66 => ⟨S10000x64, .f32⟩
  | 67 => ⟨S10000x64, .i1⟩
  | 68 => ⟨S_, .f32⟩
  | 69 => ⟨S10000x64, .f32⟩
  | 70 => ⟨S10000x64, .f32⟩
  | 71 => ⟨S1x64, .f32⟩
  | 72 => ⟨S100000x64, .f32⟩
  | 73 => ⟨S1x64, .f32⟩
  | 74 => ⟨S10000x64, .f32⟩
  | 75 => ⟨S1x1600000, .i32⟩
  | 76 => ⟨S1600000, .i32⟩
  | 77 => ⟨S1x1600000, .i32⟩
  | 78 => ⟨S1600000, .i32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1, .i32⟩
  | 88 => ⟨S_, .i32⟩
  | 89 => ⟨S1600000x1, .i32⟩
  | 90 => ⟨S1600000x1, .i1⟩
  | 91 => ⟨S1x1, .i32⟩
  | 92 => ⟨S1600000x1, .i32⟩
  | 93 => ⟨S1600000x1, .i1⟩
  | 94 => ⟨S1600000x1, .i1⟩
  | 95 => ⟨S_, .i1⟩
  | 96 => ⟨S1600000, .i1⟩
  | 97 => ⟨S1600000x64, .f32⟩
  | 98 => ⟨S1600000x64, .i1⟩
  | 99 => ⟨S_, .f32⟩
  | 100 => ⟨S1600000x64, .f32⟩
  | 101 => ⟨S1600000x64, .f32⟩
  | 102 => ⟨S_, .f32⟩
  | 103 => ⟨S10000x64, .f32⟩
  | 104 => ⟨S1600000x1, .i32⟩
  | 105 => ⟨S10000x64, .f32⟩
  | 106 => ⟨S_, .f32⟩
  | 107 => ⟨S1600000, .f32⟩
  | 108 => ⟨S_, .f32⟩
  | 109 => ⟨S10000, .f32⟩
  | 110 => ⟨S1600000x1, .i32⟩
  | 111 => ⟨S10000, .f32⟩
  | 112 => ⟨S_, .f32⟩
  | 113 => ⟨S_, .f32⟩
  | 114 => ⟨S10000, .f32⟩
  | 115 => ⟨S10000, .f32⟩
  | 116 => ⟨S10000x1, .f32⟩
  | 117 => ⟨S10000x64, .f32⟩
  | 118 => ⟨S10000x64, .f32⟩
  | 119 => ⟨S1x64, .f32⟩
  | 120 => ⟨S10000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x512, .f32⟩

abbrev hbmTy0_1 (i : Nat) : BufTy := match i % 128 with
  | 0 => ⟨S1600000x1, .i32⟩
  | 1 => ⟨S1, .i32⟩
  | 2 => ⟨S_, .i32⟩
  | 3 => ⟨S1600000x1, .i32⟩
  | 4 => ⟨S1600000x1, .i1⟩
  | 5 => ⟨S1x1, .i32⟩
  | 6 => ⟨S1600000x1, .i32⟩
  | 7 => ⟨S1600000x1, .i1⟩
  | 8 => ⟨S1600000x1, .i1⟩
  | 9 => ⟨S_, .i1⟩
  | 10 => ⟨S1600000, .i1⟩
  | 11 => ⟨S1600000x64, .f32⟩
  | 12 => ⟨S1600000x64, .i1⟩
  | 13 => ⟨S_, .f32⟩
  | 14 => ⟨S1600000x64, .f32⟩
  | 15 => ⟨S1600000x64, .f32⟩
  | 16 => ⟨S_, .f32⟩
  | 17 => ⟨S100000x64, .f32⟩
  | 18 => ⟨S1600000x1, .i32⟩
  | 19 => ⟨S100000x64, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S100000x1, .f32⟩
  | 31 => ⟨S100000x64, .f32⟩
  | 32 => ⟨S100000x64, .f32⟩
  | 33 => ⟨S1x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1, .i32⟩
  | 44 => ⟨S_, .i32⟩
  | 45 => ⟨S1600000x1, .i32⟩
  | 46 => ⟨S1600000x1, .i1⟩
  | 47 => ⟨S1x1, .i32⟩
  | 48 => ⟨S1600000x1, .i32⟩
  | 49 => ⟨S1600000x1, .i1⟩
  | 50 => ⟨S1600000x1, .i1⟩
  | 51 => ⟨S_, .i1⟩
  | 52 => ⟨S1600000, .i1⟩
  | 53 => ⟨S1600000x64, .f32⟩
  | 54 => ⟨S1600000x64, .i1⟩
  | 55 => ⟨S_, .f32⟩
  | 56 => ⟨S1600000x64, .f32⟩
  | 57 => ⟨S1600000x64, .f32⟩
  | 58 => ⟨S_, .f32⟩
  | 59 => ⟨S10000x64, .f32⟩
  | 60 => ⟨S1600000x1, .i32⟩
  | 61 => ⟨S10000x64, .f32⟩
  | 62 => ⟨S_, .f32⟩
  | 63 => ⟨S1600000, .f32⟩
  | 64 => ⟨S_, .f32⟩
  | 65 => ⟨S10000, .f32⟩
  | 66 => ⟨S1600000x1, .i32⟩
  | 67 => ⟨S10000, .f32⟩
  | 68 => ⟨S_, .f32⟩
  | 69 => ⟨S_, .f32⟩
  | 70 => ⟨S10000, .f32⟩
  | 71 => ⟨S10000, .f32⟩
  | 72 => ⟨S10000x1, .f32⟩
  | 73 => ⟨S10000x64, .f32⟩
  | 74 => ⟨S10000x64, .f32⟩
  | 75 => ⟨S1x64, .f32⟩
  | 76 => ⟨S10000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1, .i32⟩
  | 86 => ⟨S_, .i32⟩
  | 87 => ⟨S1600000x1, .i32⟩
  | 88 => ⟨S1600000x1, .i1⟩
  | 89 => ⟨S1x1, .i32⟩
  | 90 => ⟨S1600000x1, .i32⟩
  | 91 => ⟨S1600000x1, .i1⟩
  | 92 => ⟨S1600000x1, .i1⟩
  | 93 => ⟨S_, .i1⟩
  | 94 => ⟨S1600000, .i1⟩
  | 95 => ⟨S1600000x64, .f32⟩
  | 96 => ⟨S1600000x64, .i1⟩
  | 97 => ⟨S_, .f32⟩
  | 98 => ⟨S1600000x64, .f32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S_, .f32⟩
  | 105 => ⟨S1600000, .f32⟩
  | 106 => ⟨S_, .f32⟩
  | 107 => ⟨S100000, .f32⟩
  | 108 => ⟨S1600000x1, .i32⟩
  | 109 => ⟨S100000, .f32⟩
  | 110 => ⟨S_, .f32⟩
  | 111 => ⟨S_, .f32⟩
  | 112 => ⟨S100000, .f32⟩
  | 113 => ⟨S100000, .f32⟩
  | 114 => ⟨S100000x1, .f32⟩
  | 115 => ⟨S100000x64, .f32⟩
  | 116 => ⟨S100000x64, .f32⟩
  | 117 => ⟨S1x64, .f32⟩
  | 118 => ⟨S100000x64, .f32⟩
  | 119 => ⟨S1x1000000, .i32⟩
  | 120 => ⟨S1000000, .i32⟩
  | 121 => ⟨S1x1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S100000x512, .f32⟩

abbrev hbmTy0_2 (i : Nat) : BufTy := match i % 128 with
  | 0 => ⟨S1000000, .i32⟩
  | 1 => ⟨S1000000, .i32⟩
  | 2 => ⟨S1000000x1, .i32⟩
  | 3 => ⟨S1, .i32⟩
  | 4 => ⟨S_, .i32⟩
  | 5 => ⟨S1000000x1, .i32⟩
  | 6 => ⟨S1000000x1, .i1⟩
  | 7 => ⟨S1x1, .i32⟩
  | 8 => ⟨S1000000x1, .i32⟩
  | 9 => ⟨S1000000x1, .i1⟩
  | 10 => ⟨S1000000x1, .i1⟩
  | 11 => ⟨S_, .i1⟩
  | 12 => ⟨S1000000, .i1⟩
  | 13 => ⟨S1000000x64, .f32⟩
  | 14 => ⟨S1000000x64, .i1⟩
  | 15 => ⟨S_, .f32⟩
  | 16 => ⟨S1000000x64, .f32⟩
  | 17 => ⟨S1000000x64, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1, .i32⟩
  | 27 => ⟨S_, .i32⟩
  | 28 => ⟨S1000000x1, .i32⟩
  | 29 => ⟨S1000000x1, .i1⟩
  | 30 => ⟨S1x1, .i32⟩
  | 31 => ⟨S1000000x1, .i32⟩
  | 32 => ⟨S1000000x1, .i1⟩
  | 33 => ⟨S1000000x1, .i1⟩
  | 34 => ⟨S_, .i1⟩
  | 35 => ⟨S1000000, .i1⟩
  | 36 => ⟨S1000000x64, .f32⟩
  | 37 => ⟨S1000000x64, .i1⟩
  | 38 => ⟨S_, .f32⟩
  | 39 => ⟨S1000000x64, .f32⟩
  | 40 => ⟨S1000000x64, .f32⟩
  | 41 => ⟨S_, .i32⟩
  | 42 => ⟨S_, .f32⟩
  | 43 => ⟨S1003520x64, .f32⟩
  | 44 => ⟨S_, .i32⟩
  | 45 => ⟨S_, .f32⟩
  | 46 => ⟨S1003520x64, .f32⟩
  | 47 => ⟨S1003520, .f32⟩
  | 48 => ⟨S1000000, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S2000x768, .f32⟩
  | .local _ .vmem, ⟨9, _⟩ => ⟨S2000x768, .f32⟩
  | .local _ .vmem, ⟨10, _⟩ => ⟨S768x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S2000x64, .f32⟩
  | .local _ .vmem, ⟨24, _⟩ => ⟨S2000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S5000x64, .f32⟩
  | .local _ .vmem, ⟨33, _⟩ => ⟨S5000x64, .f32⟩
  | .local _ .vmem, ⟨34, _⟩ => ⟨S2000x64, .f32⟩
  | .local _ .vmem, ⟨35, _⟩ => ⟨S2000x64, .f32⟩
  | .local _ .vmem, ⟨36, _⟩ => ⟨S64x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S64x64, .f32⟩
  | .local _ .vmem, ⟨41, _⟩ => ⟨S2000x64, .f32⟩
  | .local _ .vmem, ⟨42, _⟩ => ⟨S2000x64, .f32⟩
  | .local _ .vmem, ⟨43, _⟩ => ⟨S5000x64, .f32⟩
  | .local _ .vmem, ⟨44, _⟩ => ⟨S5000x64, .f32⟩
  | .local _ .vmem, ⟨45, _⟩ => ⟨S64x64, .f32⟩
  | .local _ .vmem, ⟨46, _⟩ => ⟨S1x64, .f32⟩
  | .local _ .vmem, ⟨47, _⟩ => ⟨S5000x64, .f32⟩
  | .local _ .vmem, ⟨48, _⟩ => ⟨S5000x64, .f32⟩
  | .local _ .vmem, ⟨49, _⟩ => ⟨S64x64, .f32⟩
  | .local _ .vmem, ⟨50, _⟩ => ⟨S5000x64, .f32⟩
  | .local _ .vmem, ⟨51, _⟩ => ⟨S5000x64, .f32⟩
  | .local _ .vmem, ⟨52, _⟩ => ⟨S4096x64, .f32⟩
  | .local _ .vmem, ⟨53, _⟩ => ⟨S4096x64, .f32⟩
  | .local _ .vmem, ⟨54, _⟩ => ⟨S4096x64, .f32⟩
  | .local _ .vmem, ⟨55, _⟩ => ⟨S4096x64, .f32⟩
  | .local _ .vmem, ⟨56, _⟩ => ⟨S4096, .f32⟩
  | .local _ .vmem, ⟨57, _⟩ => ⟨S4096, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v0 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v1 : Ref sig .tc := ⟨.hbm, 70, rfl⟩
abbrev main_v2 : Ref sig .tc := ⟨.hbm, 71, rfl⟩
abbrev main_v3 : Ref sig .tc := ⟨.hbm, 72, rfl⟩
abbrev main_v4 : Ref sig .tc := ⟨.hbm, 73, rfl⟩
abbrev main_v5 : Ref sig .tc := ⟨.hbm, 74, rfl⟩
abbrev main_v6 : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v10 : Ref sig .tc := ⟨.hbm, 101, rfl⟩
abbrev main_cst : Ref sig .tc := ⟨.hbm, 102, rfl⟩
abbrev main_v11 : Ref sig .tc := ⟨.hbm, 103, rfl⟩
abbrev main_v12 : Ref sig .tc := ⟨.hbm, 104, rfl⟩
abbrev main_v13 : Ref sig .tc := ⟨.hbm, 105, rfl⟩
abbrev main_cst_0 : Ref sig .tc := ⟨.hbm, 106, rfl⟩
abbrev main_v14 : Ref sig .tc := ⟨.hbm, 107, rfl⟩
abbrev main_cst_1 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_cst_2 : Ref sig .tc := ⟨.hbm, 112, rfl⟩
abbrev main_call3_v0 : Ref sig .tc := ⟨.hbm, 113, rfl⟩
abbrev main_call3_v1 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_v14 : Ref sig .tc := ⟨.hbm, 140, rfl⟩
abbrev main_call4_cst : Ref sig .tc := ⟨.hbm, 141, rfl⟩
abbrev main_call4_v15 : Ref sig .tc := ⟨.hbm, 142, rfl⟩
abbrev main_v24 : Ref sig .tc := ⟨.hbm, 143, rfl⟩
abbrev main_cst_3 : Ref sig .tc := ⟨.hbm, 144, rfl⟩
abbrev main_v25 : Ref sig .tc := ⟨.hbm, 145, rfl⟩
abbrev main_v26 : Ref sig .tc := ⟨.hbm, 146, rfl⟩
abbrev main_v27 : Ref sig .tc := ⟨.hbm, 147, rfl⟩
abbrev main_cst_4 : Ref sig .tc := ⟨.hbm, 148, rfl⟩
abbrev main_v28 : Ref sig .tc := ⟨.hbm, 149, rfl⟩
abbrev main_cst_5 : Ref sig .tc := ⟨.hbm, 150, rfl⟩
abbrev main_v29 : Ref sig .tc := ⟨.hbm, 151, rfl⟩
abbrev main_v30 : Ref sig .tc := ⟨.hbm, 152, rfl⟩
abbrev main_v31 : Ref sig .tc := ⟨.hbm, 153, rfl⟩
abbrev main_cst_6 : Ref sig .tc := ⟨.hbm, 154, rfl⟩
abbrev main_call5_v0 : Ref sig .tc := ⟨.hbm, 155, rfl⟩
abbrev main_call5_v1 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v38 : Ref sig .tc := ⟨.hbm, 185, rfl⟩
abbrev main_cst_7 : Ref sig .tc := ⟨.hbm, 186, rfl⟩
abbrev main_v39 : Ref sig .tc := ⟨.hbm, 187, rfl⟩
abbrev main_v40 : Ref sig .tc := ⟨.hbm, 188, rfl⟩
abbrev main_v41 : Ref sig .tc := ⟨.hbm, 189, rfl⟩
abbrev main_cst_8 : Ref sig .tc := ⟨.hbm, 190, rfl⟩
abbrev main_v42 : Ref sig .tc := ⟨.hbm, 191, rfl⟩
abbrev main_cst_9 : Ref sig .tc := ⟨.hbm, 192, rfl⟩
abbrev main_v43 : Ref sig .tc := ⟨.hbm, 193, rfl⟩
abbrev main_v44 : Ref sig .tc := ⟨.hbm, 194, rfl⟩
abbrev main_v45 : Ref sig .tc := ⟨.hbm, 195, rfl⟩
abbrev main_cst_10 : Ref sig .tc := ⟨.hbm, 196, rfl⟩
abbrev main_call7_v0 : Ref sig .tc := ⟨.hbm, 197, rfl⟩
abbrev main_call7_v1 : Ref sig .tc := ⟨.hbm, 198, rfl⟩
abbrev main_v46 : Ref sig .tc := ⟨.hbm, 199, rfl⟩
abbrev main_v47 : Ref sig .tc := ⟨.hbm, 200, rfl⟩
abbrev main_v48 : Ref sig .tc := ⟨.hbm, 201, rfl⟩
abbrev main_v49 : Ref sig .tc := ⟨.hbm, 202, rfl⟩
abbrev main_v50 : Ref sig .tc := ⟨.hbm, 203, rfl⟩
abbrev main_v51 : Ref sig .tc := ⟨.hbm, 204, rfl⟩
abbrev main_call8_c : Ref sig .tc := ⟨.hbm, 205, rfl⟩
abbrev main_call8_v0 : Ref sig .tc := ⟨.hbm, 206, rfl⟩
abbrev main_call8_v1 : Ref sig .tc := ⟨.hbm, 207, rfl⟩
abbrev main_call8_c_0 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_call8_v5 : Ref sig .tc := ⟨.hbm, 212, rfl⟩
abbrev main_call8_c_1 : Ref sig .tc := ⟨.hbm, 213, rfl⟩
abbrev main_call8_c_2 : Ref sig .tc := ⟨.hbm, 214, rfl⟩
abbrev main_call8_v6 : Ref sig .tc := ⟨.hbm, 215, rfl⟩
abbrev main_call8_v7 : Ref sig .tc := ⟨.hbm, 216, rfl⟩
abbrev main_call8_v8 : Ref sig .tc := ⟨.hbm, 217, rfl⟩
abbrev main_call8_v9 : Ref sig .tc := ⟨.hbm, 218, rfl⟩
abbrev main_call8_v10 : Ref sig .tc := ⟨.hbm, 219, rfl⟩
abbrev main_call8_v11 : Ref sig .tc := ⟨.hbm, 220, rfl⟩
abbrev main_call8_c_3 : Ref sig .tc := ⟨.hbm, 221, rfl⟩
abbrev main_call8_v12 : Ref sig .tc := ⟨.hbm, 222, rfl⟩
abbrev main_call8_v13 : Ref sig .tc := ⟨.hbm, 223, rfl⟩
abbrev main_call8_v14 : Ref sig .tc := ⟨.hbm, 224, rfl⟩
abbrev main_call8_cst : Ref sig .tc := ⟨.hbm, 225, rfl⟩
abbrev main_call8_v15 : Ref sig .tc := ⟨.hbm, 226, rfl⟩
abbrev main_v52 : Ref sig .tc := ⟨.hbm, 227, rfl⟩
abbrev main_cst_11 : Ref sig .tc := ⟨.hbm, 228, rfl⟩
abbrev main_v53 : Ref sig .tc := ⟨.hbm, 229, rfl⟩
abbrev main_v54 : Ref sig .tc := ⟨.hbm, 230, rfl⟩
abbrev main_v55 : Ref sig .tc := ⟨.hbm, 231, rfl⟩
abbrev main_cst_12 : Ref sig .tc := ⟨.hbm, 232, rfl⟩
abbrev main_v56 : Ref sig .tc := ⟨.hbm, 233, rfl⟩
abbrev main_cst_13 : Ref sig .tc := ⟨.hbm, 234, rfl⟩
abbrev main_v57 : Ref sig .tc := ⟨.hbm, 235, rfl⟩
abbrev main_v58 : Ref sig .tc := ⟨.hbm, 236, rfl⟩
abbrev main_v59 : Ref sig .tc := ⟨.hbm, 237, rfl⟩
abbrev main_cst_14 : Ref sig .tc := ⟨.hbm, 238, rfl⟩
abbrev main_call9_v0 : Ref sig .tc := ⟨.hbm, 239, rfl⟩
abbrev main_call9_v1 : Ref sig .tc := ⟨.hbm, 240, rfl⟩
abbrev main_v60 : Ref sig .tc := ⟨.hbm, 241, rfl⟩
abbrev main_v61 : Ref sig .tc := ⟨.hbm, 242, rfl⟩
abbrev main_v62 : Ref sig .tc := ⟨.hbm, 243, rfl⟩
abbrev main_v63 : Ref sig .tc := ⟨.hbm, 244, rfl⟩
abbrev main_v64 : Ref sig .tc := ⟨.hbm, 245, rfl⟩
abbrev main_v65 : Ref sig .tc := ⟨.hbm, 246, rfl⟩
abbrev main_v66 : Ref sig .tc := ⟨.hbm, 247, rfl⟩
abbrev main_v67 : Ref sig .tc := ⟨.hbm, 248, rfl⟩
abbrev main_v68 : Ref sig .tc := ⟨.hbm, 249, rfl⟩
abbrev main_v69 : Ref sig .tc := ⟨.hbm, 250, rfl⟩
abbrev main_call10_c : Ref sig .tc := ⟨.hbm, 251, rfl⟩
abbrev main_call10_v0 : Ref sig .tc := ⟨.hbm, 252, rfl⟩
abbrev main_call10_v1 : Ref sig .tc := ⟨.hbm, 253, rfl⟩
abbrev main_call10_c_0 : Ref sig .tc := ⟨.hbm, 254, rfl⟩
abbrev main_call10_v2 : Ref sig .tc := ⟨.hbm, 255, rfl⟩
abbrev main_call10_v3 : Ref sig .tc := ⟨.hbm, 256, rfl⟩
abbrev main_call10_v4 : Ref sig .tc := ⟨.hbm, 257, rfl⟩
abbrev main_call10_v5 : Ref sig .tc := ⟨.hbm, 258, rfl⟩
abbrev main_call10_c_1 : Ref sig .tc := ⟨.hbm, 259, rfl⟩
abbrev main_call10_c_2 : Ref sig .tc := ⟨.hbm, 260, rfl⟩
abbrev main_call10_v6 : Ref sig .tc := ⟨.hbm, 261, rfl⟩
abbrev main_call10_v7 : Ref sig .tc := ⟨.hbm, 262, rfl⟩
abbrev main_call10_v8 : Ref sig .tc := ⟨.hbm, 263, rfl⟩
abbrev main_call10_v9 : Ref sig .tc := ⟨.hbm, 264, rfl⟩
abbrev main_call10_v10 : Ref sig .tc := ⟨.hbm, 265, rfl⟩
abbrev main_call10_v11 : Ref sig .tc := ⟨.hbm, 266, rfl⟩
abbrev main_call10_c_3 : Ref sig .tc := ⟨.hbm, 267, rfl⟩
abbrev main_call10_v12 : Ref sig .tc := ⟨.hbm, 268, rfl⟩
abbrev main_call10_v13 : Ref sig .tc := ⟨.hbm, 269, rfl⟩
abbrev main_call10_v14 : Ref sig .tc := ⟨.hbm, 270, rfl⟩
abbrev main_call10_cst : Ref sig .tc := ⟨.hbm, 271, rfl⟩
abbrev main_call10_v15 : Ref sig .tc := ⟨.hbm, 272, rfl⟩
abbrev main_v70 : Ref sig .tc := ⟨.hbm, 273, rfl⟩
abbrev main_call11_c : Ref sig .tc := ⟨.hbm, 274, rfl⟩
abbrev main_call11_v0 : Ref sig .tc := ⟨.hbm, 275, rfl⟩
abbrev main_call11_v1 : Ref sig .tc := ⟨.hbm, 276, rfl⟩
abbrev main_call11_c_0 : Ref sig .tc := ⟨.hbm, 277, rfl⟩
abbrev main_call11_v2 : Ref sig .tc := ⟨.hbm, 278, rfl⟩
abbrev main_call11_v3 : Ref sig .tc := ⟨.hbm, 279, rfl⟩
abbrev main_call11_v4 : Ref sig .tc := ⟨.hbm, 280, rfl⟩
abbrev main_call11_v5 : Ref sig .tc := ⟨.hbm, 281, rfl⟩
abbrev main_call11_c_1 : Ref sig .tc := ⟨.hbm, 282, rfl⟩
abbrev main_call11_c_2 : Ref sig .tc := ⟨.hbm, 283, rfl⟩
abbrev main_call11_v6 : Ref sig .tc := ⟨.hbm, 284, rfl⟩
abbrev main_call11_v7 : Ref sig .tc := ⟨.hbm, 285, rfl⟩
abbrev main_call11_v8 : Ref sig .tc := ⟨.hbm, 286, rfl⟩
abbrev main_call11_v9 : Ref sig .tc := ⟨.hbm, 287, rfl⟩
abbrev main_call11_v10 : Ref sig .tc := ⟨.hbm, 288, rfl⟩
abbrev main_call11_v11 : Ref sig .tc := ⟨.hbm, 289, rfl⟩
abbrev main_call11_c_3 : Ref sig .tc := ⟨.hbm, 290, rfl⟩
abbrev main_call11_v12 : Ref sig .tc := ⟨.hbm, 291, rfl⟩
abbrev main_call11_v13 : Ref sig .tc := ⟨.hbm, 292, rfl⟩
abbrev main_call11_v14 : Ref sig .tc := ⟨.hbm, 293, rfl⟩
abbrev main_call11_cst : Ref sig .tc := ⟨.hbm, 294, rfl⟩
abbrev main_call11_v15 : Ref sig .tc := ⟨.hbm, 295, rfl⟩
abbrev main_v71 : Ref sig .tc := ⟨.hbm, 296, rfl⟩
abbrev main_c : Ref sig .tc := ⟨.hbm, 297, rfl⟩
abbrev main_call12_v0 : Ref sig .tc := ⟨.hbm, 298, rfl⟩
abbrev main_v72 : Ref sig .tc := ⟨.hbm, 299, rfl⟩
abbrev main_c_15 : Ref sig .tc := ⟨.hbm, 300, rfl⟩
abbrev main_call13_v0 : Ref sig .tc := ⟨.hbm, 301, rfl⟩
abbrev main_v73 : Ref sig .tc := ⟨.hbm, 302, rfl⟩
abbrev main_v74 : Ref sig .tc := ⟨.hbm, 303, rfl⟩
abbrev main_v75 : Ref sig .tc := ⟨.hbm, 304, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg3_1 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem3_1 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![245], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  ![arg0.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1x1_S10000x1_0_1 : S1x1.BroadcastsInDim S10000x1 (![0, 1] : Fin 2 → Fin S10000x1.rank)
  reducesTo_S10000x1_S10000_d1 : S10000x1.ReducesTo [1] S10000
  bcast_S10000_S10000x64_0 : S10000.BroadcastsInDim S10000x64 (![0] : Fin 1 → Fin S10000x64.rank)
  bcast_S_S10000x64 : S_.BroadcastsInDim S10000x64 (![] : Fin 0 → Fin S10000x64.rank)
  shapeCasts_S64_S1x64 : S64.ShapeCasts S1x64
  inb_S5000x512_S5000x512_0_0 : ∀ a, (![0, 0] : Fin 2 → Nat) a + S5000x512.size a ≤ S5000x512.size a
  h_S5000x512 : 0 < S5000x512.numel
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S2000x768_S2000x768_0_0 : ∀ a, (![0, 0] : Fin 2 → Nat) a + S2000x768.size a ≤ S2000x768.size a
  h_S2000x768 : 0 < S2000x768.numel
  inb_S768x64_S768x64_0_0 : ∀ a, (![0, 0] : Fin 2 → Nat) a + S768x64.size a ≤ S768x64.size a
  h_S768x64 : 0 < S768x64.numel
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S10000x1_S10000x64_0_1 : S10000x1.BroadcastsInDim S10000x64 (![0, 1] : Fin 2 → Fin S10000x64.rank)
  inb_S64x64_S64x64_0_0 : ∀ a, (![0, 0] : Fin 2 → Nat) a + S64x64.size a ≤ S64x64.size a
  h_S64x64 : 0 < S64x64.numel
  bcast_S100000x1_S100000x64_0_1 : S100000x1.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  pads_S1000000x64_S1003520x64_035200_000 : S1000000x64.Pads (![0, 0] : Fin 2 → Nat) ![3520, 0] ![0, 0] S1003520x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  slices_S1003520_S1000000_0 : S1003520.Slices ![0] S1000000
  gather_S100000x64_S100000x1_S100000x64_1_0_n_n_0_1_164_wf : GatherDims.WF S100000x64 S100000x1 S100000x64 [1] [0] [] [0] [] 1 ![1, 64]
  gather_S10000x64_S10000x1_S10000x64_1_0_n_n_0_1_164_wf : GatherDims.WF S10000x64 S10000x1 S10000x64 [1] [0] [] [0] [] 1 ![1, 64]
  dot_S5000x512_S512x64_S5000x64_1_0_0_1_n_n_wf : DotDims.WF S5000x512 S512x64 S5000x64 [1] [0] [0] [1] [] []
  dot_S2000x768_S768x64_S2000x64_1_0_0_1_n_n_wf : DotDims.WF S2000x768 S768x64 S2000x64 [1] [0] [0] [1] [] []
  gather_S100000x64_S1600000x1_S1600000x64_1_0_n_n_0_1_164_wf : GatherDims.WF S100000x64 S1600000x1 S1600000x64 [1] [0] [] [0] [] 1 ![1, 64]
  scatter_S10000x64_S1600000x1_S1600000x64_1_0_0_1_wf : ScatterDims.WF S10000x64 S1600000x1 S1600000x64 [1] [0] [0] 1
  scatter_S10000_S1600000x1_S1600000_n_0_0_1_wf : ScatterDims.WF S10000 S1600000x1 S1600000 [] [0] [0] 1
  dot_S2000x64_S64x64_S2000x64_1_0_0_1_n_n_wf : DotDims.WF S2000x64 S64x64 S2000x64 [1] [0] [0] [1] [] []
  gather_S10000x64_S1600000x1_S1600000x64_1_0_n_n_0_1_164_wf : GatherDims.WF S10000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  gather_S10000x64_S1000000x1_S1000000x64_1_0_n_n_0_1_164_wf : GatherDims.WF S10000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S10000x768.size a
  hwx1_0 : ∀ i : grid1.Coords, EltTy.bits .f32 = 32 ∨ (Rect.block (s := S10000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x64.size a ≤ S768x64.size a
  hwx1_1 : ∀ i : grid1.Coords, EltTy.bits .f32 = 32 ∨ (Rect.block (s := S768x64) S768x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S10000x64.size a
  hwx1_3 : ∀ i : grid1.Coords, EltTy.bits .f32 = 32 ∨ (Rect.block (s := S10000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S10000x64.size a
  hwx1_4 : ∀ i : grid1.Coords, EltTy.bits .f32 = 32 ∨ (Rect.block (s := S10000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S10000x64.size a
  hwx2_0 : ∀ i : grid2.Coords, EltTy.bits .f32 = 32 ∨ (Rect.block (s := S10000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S10000x64.size a
  hwx2_3 : ∀ i : grid2.Coords, EltTy.bits .f32 = 32 ∨ (Rect.block (s := S10000x64) S2000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S10000x64.size a
  hwx2_5 : ∀ i : grid2.Coords, EltTy.bits .f32 = 32 ∨ (Rect.block (s := S10000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S10000x64.size a
  hwx4_0 : ∀ i : grid4.Coords, EltTy.bits .f32 = 32 ∨ (Rect.block (s := S10000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S10000x64.size a
  hwx4_3 : ∀ i : grid4.Coords, EltTy.bits .f32 = 32 ∨ (Rect.block (s := S10000x64) S2000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S10000x64.size a
  hwx4_5 : ∀ i : grid4.Coords, EltTy.bits .f32 = 32 ∨ (Rect.block (s := S10000x64) S2000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S1003520x64.size a
  hwx6_0 : ∀ i : grid6.Coords, EltTy.bits .f32 = 32 ∨ (Rect.block (s := S1003520x64) S4096x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x64.size a ≤ S1003520x64.size a
  hwx6_1 : ∀ i : grid6.Coords, EltTy.bits .f32 = 32 ∨ (Rect.block (s := S1003520x64) S4096x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096.size a ≤ S1003520.size a
  hwx6_2 : ∀ i : grid6.Coords, EltTy.bits .f32 = 32 ∨ (Rect.block (s := S1003520) S4096.size (cc6_transform_2 i) (hinb6_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S10000x64_S10000x1_S10000x64_1_0_n_n_0_1_164 : GatherDims S10000x64 S10000x1 S10000x64 where
  offsetDims := [1]
  collapsedSliceDims := [0]
  operandBatchingDims := []
  startIndicesBatchingDims := []
  startIndexMap := [0]
  indexVectorDim := 1
  sliceSizes := ![1, 64]
  wf := gather_S10000x64_S10000x1_S10000x64_1_0_n_n_0_1_164_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S10000x64_S1600000x1_S1600000x64_1_0_0_1 : ScatterDims S10000x64 S1600000x1 S1600000x64 where
  updateWindowDims := [1]
  insertedWindowDims := [0]
  scatterDimsToOperandDims := [0]
  indexVectorDim := 1
  wf := scatter_S10000x64_S1600000x1_S1600000x64_1_0_0_1_wf
def scatter_S10000_S1600000x1_S1600000_n_0_0_1 : ScatterDims S10000 S1600000x1 S1600000 where
  updateWindowDims := []
  insertedWindowDims := [0]
  scatterDimsToOperandDims := [0]
  indexVectorDim := 1
  wf := scatter_S10000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S10000x64_S1600000x1_S1600000x64_1_0_n_n_0_1_164 : GatherDims S10000x64 S1600000x1 S1600000x64 where
  offsetDims := [1]
  collapsedSliceDims := [0]
  operandBatchingDims := []
  startIndicesBatchingDims := []
  startIndexMap := [0]
  indexVectorDim := 1
  sliceSizes := ![1, 64]
  wf := gather_S10000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S10000x64_S1000000x1_S1000000x64_1_0_n_n_0_1_164 : GatherDims S10000x64 S1000000x1 S1000000x64 where
  offsetDims := [1]
  collapsedSliceDims := [0]
  operandBatchingDims := []
  startIndicesBatchingDims := []
  startIndexMap := [0]
  indexVectorDim := 1
  sliceSizes := ![1, 64]
  wf := gather_S10000x64_S1000000x1_S1000000x64_1_0_n_n_0_1_164_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S768x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S2000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v63) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v72) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S4096x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S4096.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x512 : Shape := ⟨2, ![100000, 512]⟩
abbrev S10000x768 : Shape := ⟨2, ![10000, 768]⟩
abbrev S1000000 : Shape := ⟨1, ![1000000]⟩
abbrev S512x64 : Shape := ⟨2, ![512, 64]⟩
abbrev S64 : Shape := ⟨1, ![64]⟩
abbrev S768x64 : Shape := ⟨2, ![768, 64]⟩
abbrev S100000x64 : Shape := ⟨2, ![100000, 64]⟩
abbrev S10000x64 : Shape := ⟨2, ![10000, 64]⟩
abbrev S64x64 : Shape := ⟨2, ![64, 64]⟩
abbrev S100000 : Shape := ⟨1, ![100000]⟩
abbrev S10000 : Shape := ⟨1, ![10000]⟩
abbrev S2x1600000 : Shape := ⟨2, ![2, 1600000]⟩
abbrev S2x1000000 : Shape := ⟨2, ![2, 1000000]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S100000x1 : Shape := ⟨2, ![100000, 1]⟩
abbrev S10000x1 : Shape := ⟨2, ![10000, 1]⟩
abbrev S1600000x1 : Shape := ⟨2, ![1600000, 1]⟩
abbrev S1600000x64 : Shape := ⟨2, ![1600000, 64]⟩
abbrev S1x1000000 : Shape := ⟨2, ![1, 1000000]⟩
abbrev S1000000x1 : Shape := ⟨2, ![1000000, 1]⟩
abbrev S1000000x64 : Shape := ⟨2, ![1000000, 64]⟩

abbrev nBuf : Space → Nat
  | .hbm => 216
  | .vmem => 0
  | .smem => 0
  | _ => 0

abbrev hbmTy0_0 (i : Nat) : BufTy := match i % 128 with
  | 0 => ⟨S100000x512, .f32⟩
  | 1 => ⟨S10000x768, .f32⟩
  | 2 => ⟨S1000000, .f32⟩
  | 3 => ⟨S512x64, .f32⟩
  | 4 => ⟨S64, .f32⟩
  | 5 => ⟨S768x64, .f32⟩
  | 6 => ⟨S64, .f32⟩
  | 7 => ⟨S100000x64, .f32⟩
  | 8 => ⟨S10000x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S100000, .i32⟩
  | 22 => ⟨S10000, .i32⟩
  | 23 => ⟨S2x1600000, .i32⟩
  | 24 => ⟨S2x1000000, .i32⟩
  | 25 => ⟨S1x1600000, .i32⟩
  | 26 => ⟨S1600000, .i32⟩
  | 27 => ⟨S1x1600000, .i32⟩
  | 28 => ⟨S1600000, .i32⟩
  | 29 => ⟨S100000x64, .f32⟩
  | 30 => ⟨S1x64, .f32⟩
  | 31 => ⟨S100000x64, .f32⟩
  | 32 => ⟨S100000x64, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x64, .f32⟩
  | 42 => ⟨S100000x64, .f32⟩
  | 43 => ⟨S10000x64, .f32⟩
  | 44 => ⟨S1x64, .f32⟩
  | 45 => ⟨S10000x64, .f32⟩
  | 46 => ⟨S10000x64, .f32⟩
  | 47 => ⟨S_, .i32⟩
  | 48 => ⟨S10000, .i32⟩
  | 49 => ⟨S10000, .i1⟩
  | 50 => ⟨S_, .i32⟩
  | 51 => ⟨S10000, .i32⟩
  | 52 => ⟨S10000, .i32⟩
  | 53 => ⟨S10000, .i32⟩
  | 54 => ⟨S10000x1, .i32⟩
  | 55 => ⟨S10000x64, .f32⟩
  | 56 => ⟨S10000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S_, .f32⟩
  | 67 => ⟨S10000x64, .f32⟩
  | 68 => ⟨S1600000x1, .i32⟩
  | 69 => ⟨S10000x64, .f32⟩
  | 70 => ⟨S_, .f32⟩
  | 71 => ⟨S1600000, .f32⟩
  | 72 => ⟨S_, .f32⟩
  | 73 => ⟨S10000, .f32⟩
  | 74 => ⟨S1600000x1, .i32⟩
  | 75 => ⟨S10000, .f32⟩
  | 76 => ⟨S_, .f32⟩
  | 77 => ⟨S_, .f32⟩
  | 78 => ⟨S10000, .f32⟩
  | 79 => ⟨S10000, .f32⟩
  | 80 => ⟨S10000x1, .f32⟩
  | 81 => ⟨S10000x64, .f32⟩
  | 82 => ⟨S10000x64, .f32⟩
  | 83 => ⟨S10000x64, .f32⟩
  | 84 => ⟨S1x64, .f32⟩
  | 85 => ⟨S10000x64, .f32⟩
  | 86 => ⟨S10000x64, .f32⟩
  | 87 => ⟨S10000x64, .f32⟩
  | 88 => ⟨S10000x64, .f32⟩
  | 89 => ⟨S_, .f32⟩
  | 90 => ⟨S10000x64, .f32⟩
  | 91 => ⟨S10000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S_, .f32⟩
  | 106 => ⟨S1600000, .f32⟩
  | 107 => ⟨S_, .f32⟩
  | 108 => ⟨S100000, .f32⟩
  | 109 => ⟨S1600000x1, .i32⟩
  | 110 => ⟨S100000, .f32⟩
  | 111 => ⟨S_, .f32⟩
  | 112 => ⟨S_, .f32⟩
  | 113 => ⟨S100000, .f32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .i32⟩
  | _ => ⟨S100000x512, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S_, .f32⟩
  | 9 => ⟨S10000x64, .f32⟩
  | 10 => ⟨S1600000x1, .i32⟩
  | 11 => ⟨S10000x64, .f32⟩
  | 12 => ⟨S_, .f32⟩
  | 13 => ⟨S1600000, .f32⟩
  | 14 => ⟨S_, .f32⟩
  | 15 => ⟨S10000, .f32⟩
  | 16 => ⟨S1600000x1, .i32⟩
  | 17 => ⟨S10000, .f32⟩
  | 18 => ⟨S_, .f32⟩
  | 19 => ⟨S_, .f32⟩
  | 20 => ⟨S10000, .f32⟩
  | 21 => ⟨S10000, .f32⟩
  | 22 => ⟨S10000x1, .f32⟩
  | 23 => ⟨S10000x64, .f32⟩
  | 24 => ⟨S10000x64, .f32⟩
  | 25 => ⟨S10000x64, .f32⟩
  | 26 => ⟨S1x64, .f32⟩
  | 27 => ⟨S10000x64, .f32⟩
  | 28 => ⟨S10000x64, .f32⟩
  | 29 => ⟨S10000x64, .f32⟩
  | 30 => ⟨S10000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S_, .f32⟩
  | 52 => ⟨S100000, .f32⟩
  | 53 => ⟨S100000, .f32⟩
  | 54 => ⟨S100000x1, .f32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x64, .f32⟩
  | 62 => ⟨S100000x64, .f32⟩
  | 63 => ⟨S1x1000000, .i32⟩
  | 64 => ⟨S1000000, .i32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S1x1000000, .i32⟩
  | 75 => ⟨S1000000, .i32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x64, .f32⟩
  | 85 => ⟨S1000000x64, .f32⟩
  | 86 => ⟨S_, .f32⟩
  | 87 => ⟨S1000000, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_1 : Ref sig .tc := ⟨.hbm, 47, rfl⟩
abbrev main_v20 : Ref sig .tc := ⟨.hbm, 48, rfl⟩
abbrev main_v21 : Ref sig .tc := ⟨.hbm, 49, rfl⟩
abbrev main_c_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_5 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_7 : Ref sig .tc := ⟨.hbm, 76, rfl⟩
abbrev main_call0_v0 : Ref sig .tc := ⟨.hbm, 77, rfl⟩
abbrev main_call0_v1 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call1_cst : Ref sig .tc := ⟨.hbm, 89, rfl⟩
abbrev main_call1_v0 : Ref sig .tc := ⟨.hbm, 90, rfl⟩
abbrev main_v52 : Ref sig .tc := ⟨.hbm, 91, rfl⟩
abbrev main_c_8 : Ref sig .tc := ⟨.hbm, 92, rfl⟩
abbrev main_v53 : Ref sig .tc := ⟨.hbm, 93, rfl⟩
abbrev main_v54 : Ref sig .tc := ⟨.hbm, 94, rfl⟩
abbrev main_c_9 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_10 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_11 : Ref sig .tc := ⟨.hbm, 105, rfl⟩
abbrev main_v63 : Ref sig .tc := ⟨.hbm, 106, rfl⟩
abbrev main_cst_12 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_13 : Ref sig .tc := ⟨.hbm, 111, rfl⟩
abbrev main_call2_v0 : Ref sig .tc := ⟨.hbm, 112, rfl⟩
abbrev main_call2_v1 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call3_cst : Ref sig .tc := ⟨.hbm, 124, rfl⟩
abbrev main_call3_v0 : Ref sig .tc := ⟨.hbm, 125, rfl⟩
abbrev main_v77 : Ref sig .tc := ⟨.hbm, 126, rfl⟩
abbrev main_c_14 : Ref sig .tc := ⟨.hbm, 127, rfl⟩
abbrev main_v78 : Ref sig .tc := ⟨.hbm, 128, rfl⟩
abbrev main_v79 : Ref sig .tc := ⟨.hbm, 129, rfl⟩
abbrev main_c_15 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_16 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_17 : Ref sig .tc := ⟨.hbm, 140, rfl⟩
abbrev main_v88 : Ref sig .tc := ⟨.hbm, 141, rfl⟩
abbrev main_cst_18 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_19 : Ref sig .tc := ⟨.hbm, 146, rfl⟩
abbrev main_call4_v0 : Ref sig .tc := ⟨.hbm, 147, rfl⟩
abbrev main_call4_v1 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_c_20 : Ref sig .tc := ⟨.hbm, 159, rfl⟩
abbrev main_v102 : Ref sig .tc := ⟨.hbm, 160, rfl⟩
abbrev main_v103 : Ref sig .tc := ⟨.hbm, 161, rfl⟩
abbrev main_c_21 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_22 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_cst_23 : Ref sig .tc := ⟨.hbm, 172, rfl⟩
abbrev main_v112 : Ref sig .tc := ⟨.hbm, 173, rfl⟩
abbrev main_cst_24 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_25 : Ref sig .tc := ⟨.hbm, 178, rfl⟩
abbrev main_call5_v0 : Ref sig .tc := ⟨.hbm, 179, rfl⟩
abbrev main_call5_v1 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_c_26 : Ref sig .tc := ⟨.hbm, 193, rfl⟩
abbrev main_v128 : Ref sig .tc := ⟨.hbm, 194, rfl⟩
abbrev main_v129 : Ref sig .tc := ⟨.hbm, 195, rfl⟩
abbrev main_c_27 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_c_28 : Ref sig .tc := ⟨.hbm, 204, rfl⟩
abbrev main_v137 : Ref sig .tc := ⟨.hbm, 205, rfl⟩
abbrev main_v138 : Ref sig .tc := ⟨.hbm, 206, rfl⟩
abbrev main_c_29 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_30 : Ref sig .tc := ⟨.hbm, 214, rfl⟩
abbrev main_v145 : Ref sig .tc := ⟨.hbm, 215, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S1x64_S10000x64_0_1 : S1x64.BroadcastsInDim S10000x64 (![0, 1] : Fin 2 → Fin S10000x64.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  dot_S100000x512_S512x64_S100000x64_1_0_0_1_n_n_wf : DotDims.WF S100000x512 S512x64 S100000x64 [1] [0] [0] [1] [] []
  gather_S100000x64_S100000x1_S100000x64_1_0_n_n_0_1_164_wf : GatherDims.WF S100000x64 S100000x1 S100000x64 [1] [0] [] [0] [] 1 ![1, 64]
  dot_S10000x768_S768x64_S10000x64_1_0_0_1_n_n_wf : DotDims.WF S10000x768 S768x64 S10000x64 [1] [0] [0] [1] [] []
  gather_S10000x64_S10000x1_S10000x64_1_0_n_n_0_1_164_wf : GatherDims.WF S10000x64 S10000x1 S10000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S10000x64_S1600000x1_S1600000x64_1_0_0_1_wf : ScatterDims.WF S10000x64 S1600000x1 S1600000x64 [1] [0] [0] 1
  scatter_S10000_S1600000x1_S1600000_n_0_0_1_wf : ScatterDims.WF S10000 S1600000x1 S1600000 [] [0] [0] 1
  dot_S10000x64_S64x64_S10000x64_1_0_0_1_n_n_wf : DotDims.WF S10000x64 S64x64 S10000x64 [1] [0] [0] [1] [] []
  gather_S10000x64_S1600000x1_S1600000x64_1_0_n_n_0_1_164_wf : GatherDims.WF S10000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  gather_S10000x64_S1000000x1_S1000000x64_1_0_n_n_0_1_164_wf : GatherDims.WF S10000x64 S1000000x1 S1000000x64 [1] [0] [] [0] [] 1 ![1, 64]

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S10000x768_S768x64_S10000x64_1_0_0_1_n_n : DotDims S10000x768 S768x64 S10000x64 where
  lhsContracting := [1]
  rhsContracting := [0]
  lhsNonContracting := [0]
  rhsNonContracting := [1]
  lhsBatch := []
  rhsBatch := []
  wf := dot_S10000x768_S768x64_S10000x64_1_0_0_1_n_n_wf
def gather_S10000x64_S10000x1_S10000x64_1_0_n_n_0_1_164 : GatherDims S10000x64 S10000x1 S10000x64 where
  offsetDims := [1]
  collapsedSliceDims := [0]
  operandBatchingDims := []
  startIndicesBatchingDims := []
  startIndexMap := [0]
  indexVectorDim := 1
  sliceSizes := ![1, 64]
  wf := gather_S10000x64_S10000x1_S10000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S10000x64_S1600000x1_S1600000x64_1_0_0_1 : ScatterDims S10000x64 S1600000x1 S1600000x64 where
  updateWindowDims := [1]
  insertedWindowDims := [0]
  scatterDimsToOperandDims := [0]
  indexVectorDim := 1
  wf := scatter_S10000x64_S1600000x1_S1600000x64_1_0_0_1_wf
def scatter_S10000_S1600000x1_S1600000_n_0_0_1 : ScatterDims S10000 S1600000x1 S1600000 where
  updateWindowDims := []
  insertedWindowDims := [0]
  scatterDimsToOperandDims := [0]
  indexVectorDim := 1
  wf := scatter_S10000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S1600000x1_S1600000x64_1_0_n_n_0_1_164 : GatherDims S10000x64 S1600000x1 S1600000x64 where
  offsetDims := [1]
  collapsedSliceDims := [0]
  operandBatchingDims := []
  startIndicesBatchingDims := []
  startIndexMap := [0]
  indexVectorDim := 1
  sliceSizes := ![1, 64]
  wf := gather_S10000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S10000x64_S1000000x1_S1000000x64_1_0_n_n_0_1_164 : GatherDims S10000x64 S1000000x1 S1000000x64 where
  offsetDims := [1]
  collapsedSliceDims := [0]
  operandBatchingDims := []
  startIndicesBatchingDims := []
  startIndexMap := [0]
  indexVectorDim := 1
  sliceSizes := ![1, 64]
  wf := gather_S10000x64_S1000000x1_S1000000x64_1_0_n_n_0_1_164_wf

class Facts : Prop extends Facts₀ where

variable [Facts]
-- ==== Proof.Prelude.lean ====
/-
  Shared vocabulary for reading the idealized kernel's run: the argument arrays as launched, the hypothesis that every
  index array is in range of the axis it indexes, and two tactics that walk a buffer's contents back through the
  boundaries of @main that do not write it.
-/
import proofs.«420035_j53996328845374_1_alg».proof.Proof.Gen.KernelIdeal.Frame
import proofs.«420035_j53996328845374_1_alg».proof.Proof.Gen.ReferenceIdeal.Read
import Idealize.ShloMosaic.Lib.StableHlo.Run
import Idealize.ShloMosaic.PureOps.Ideal

noncomputable section

namespace Cert.KernelIdeal.Sim

open Cert.KernelIdeal Cert.KernelIdeal.Gen Idealize.ShloMosaic Idealize.ShloMosaic.TcCoe Idealize.SL.Sem

variable (m : (ℓ : Loc nD τ sig) → Buf (Elt Ideal) ℓ) (c : Dev nD)

/-- Argument 0 of @main as launched. -/
abbrev A0 := m ((c.tc : Thread nD τ).loc main_arg0)
/-- Argument 1 of @main as launched. -/
abbrev A1 := m ((c.tc : Thread nD τ).loc main_arg1)
/-- Argument 2 of @main as launched. -/
abbrev A2 := m ((c.tc : Thread nD τ).loc main_arg2)
/-- Argument 3 of @main as launched. -/
abbrev A3 := m ((c.tc : Thread nD τ).loc main_arg3)
/-- Argument 4 of @main as launched. -/
abbrev A4 := m ((c.tc : Thread nD τ).loc main_arg4)
/-- Argument 5 of @main as launched. -/
abbrev A5 := m ((c.tc : Thread nD τ).loc main_arg5)
/-- Argument 6 of @main as launched. -/
abbrev A6 := m ((c.tc : Thread nD τ).loc main_arg6)
/-- Argument 7 of @main as launched. -/
abbrev A7 := m ((c.tc : Thread nD τ).loc main_arg7)
/-- Argument 8 of @main as launched. -/
abbrev A8 := m ((c.tc : Thread nD τ).loc main_arg8)
/-- Argument 9 of @main as launched. -/
abbrev A9 := m ((c.tc : Thread nD τ).loc main_arg9)
/-- Argument 10 of @main as launched. -/
abbrev A10 := m ((c.tc : Thread nD τ).loc main_arg10)
/-- Argument 11 of @main as launched. -/
abbrev A11 := m ((c.tc : Thread nD τ).loc main_arg11)
/-- Argument 12 of @main as launched. -/
abbrev A12 := m ((c.tc : Thread nD τ).loc main_arg12)
/-- Argument 13 of @main as launched. -/
abbrev A13 := m ((c.tc : Thread nD τ).loc main_arg13)
/-- Argument 14 of @main as launched. -/
abbrev A14 := m ((c.tc : Thread nD τ).loc main_arg14)
/-- Argument 15 of @main as launched. -/
abbrev A15 := m ((c.tc : Thread nD τ).loc main_arg15)
/-- Argument 16 of @main as launched. -/
abbrev A16 := m ((c.tc : Thread nD τ).loc main_arg16)
/-- Argument 17 of @main as launched. -/
abbrev A17 := m ((c.tc : Thread nD τ).loc main_arg17)
/-- Argument 18 of @main as launched. -/
abbrev A18 := m ((c.tc : Thread nD τ).loc main_arg18)
/-- Argument 19 of @main as launched. -/
abbrev A19 := m ((c.tc : Thread nD τ).loc main_arg19)
/-- Argument 20 of @main as launched. -/
abbrev A20 := m ((c.tc : Thread nD τ).loc main_arg20)
/-- Argument 21 of @main as launched. -/
abbrev A21 := m ((c.tc : Thread nD τ).loc main_arg21)
/-- Argument 22 of @main as launched. -/
abbrev A22 := m ((c.tc : Thread nD τ).loc main_arg22)
/-- Argument 23 of @main as launched. -/
abbrev A23 := m ((c.tc : Thread nD τ).loc main_arg23)
/-- Argument 24 of @main as launched. -/
abbrev A24 := m ((c.tc : Thread nD τ).loc main_arg24)

/-- The message-passing edges' endpoints and the labelled edges' endpoints, as both programs slice them out of the two
    index tables. -/
abbrev srcIdx := Cert.ReferenceIdeal.Read.val_main_v1 (F := Ideal) (A23 m c)
abbrev dstIdx := Cert.ReferenceIdeal.Read.val_main_v3 (F := Ideal) (A23 m c)
abbrev eli0Idx := Cert.ReferenceIdeal.Read.val_main_v127 (F := Ideal) (A24 m c)
abbrev eli1Idx := Cert.ReferenceIdeal.Read.val_main_v136 (F := Ideal) (A24 m c)

/-- Every index array is in range of the axis it indexes: node ids into the two embedding tables, edge endpoints into
    the two node sets. -/
structure InRange : Prop where
  nid_pd : ∀ i, 0 ≤ (A21 m c i).toInt ∧ (A21 m c i).toInt < 100000
  nid_se : ∀ i, 0 ≤ (A22 m c i).toInt ∧ (A22 m c i).toInt < 10000
  src : ∀ i, 0 ≤ (srcIdx m c i).toInt ∧ (srcIdx m c i).toInt < 100000
  dst : ∀ i, 0 ≤ (dstIdx m c i).toInt ∧ (dstIdx m c i).toInt < 10000
  eli0 : ∀ i, 0 ≤ (eli0Idx m c i).toInt ∧ (eli0Idx m c i).toInt < 100000
  eli1 : ∀ i, 0 ≤ (eli1Idx m c i).toInt ∧ (eli1Idx m c i).toInt < 10000

end Cert.KernelIdeal.Sim

open Idealize.ShloMosaic Cert.KernelIdeal Cert.KernelIdeal.Gen in
/-- One step back through @main for a goal `W_{k+1} m ρ c (Proc.devRef .tc b) = _` with `b` a literal buffer the segment
    between the two boundaries does not write: a host stretch none of whose operations writes `b`, or a kernel region
    none of whose windows' arrays is `b`. Leaves `W_k m ρ c (Proc.devRef .tc b) = _`; fails if the segment writes `b`. -/
macro "keep_step" : tactic => `(tactic| first
  | (guard_target =~ StableHlo.after _ _ _ = _
     refine Eq.trans (StableHlo.after_of_forall_not_mem _ _ (List.forall_iff_forall_mem.mp ?_)) ?_
     · (simp only [hostOps0, hostOps0_1, hostOps0_2, hostOps1, hostOps2, hostOps2_1, hostOps2_2, hostOps2_3, hostOps2_4, hostOps3, hostOps3_1, hostOps3_2, hostOps3_3, hostOps4, hostOps4_1, hostOps4_2, hostOps4_3, hostOps5, hostOps5_1, hostOps5_2, hostOps5_3, hostOps6, hostOps6_1, hostOps6_2, hostOps6_3, hostOps6_4, hostOps6_5, hostOps6_6, hostOps7, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  | (guard_target =~ W4 _ _ _ _ = _
     refine Eq.trans (W4_of_ne _ _ _ _ ?_) ?_
     · decide)
  | (guard_target =~ W6 _ _ _ _ = _
     refine Eq.trans (W6_of_ne _ _ _ _ ?_) ?_
     · decide)
  | (guard_target =~ W12 _ _ _ _ = _
     refine Eq.trans (W12_of_ne _ _ _ _ ?_) ?_
     · decide)
  | (guard_target =~ W17 _ _ _ _ = _
     refine Eq.trans (W17_of_ne _ _ _ _ ?_) ?_
     · decide)
  | (guard_target =~ W22 _ _ _ _ = _
     refine Eq.trans (W22_of_ne _ _ _ _ ?_) ?_
     · decide)
  | (guard_target =~ W27 _ _ _ _ = _
     refine Eq.trans (W27_of_ne _ _ _ _ ?_) ?_
     · decide)
  | (guard_target =~ W35 _ _ _ _ = _
     refine Eq.trans (W35_of_ne _ _ _ _ ?_) ?_
     · decide))

/-- `keep_step` as often as it applies: stops at the boundary right after the segment that writes the buffer (or at the
    launch, for a buffer nothing writes). -/
macro "walk_back" : tactic => `(tactic| repeat keep_step)

end
-- ==== Proof.PreFacts.lean ====
/-
  The precondition read as facts about the index arrays: every index is in range of the axis it indexes.

  The printed predicate is one chain of conjunctions, nested to the left: twenty-one finiteness tests of the float
  arguments, then six range tests, each `all((x ≥ 0) ∧ (x < n))` printed as a reduction by `and` of two signed
  comparisons against broadcast literals. The six sit in the chain's tail, so only the tail is opened: it is split at
  each `and`, every `all` is read back as a fact about each element, and each comparison as an inequality between
  the signed readings of its words.
-/
import proofs.«420035_j53996328845374_1_alg».proof.Proof.Prelude
import proofs.«420035_j53996328845374_1_alg».proof.Defs
import proofs.«420035_j53996328845374_1_alg».proof.Proof.Gen.Pre_finite_inputs
import Idealize.ShloMosaic.Lib.ReduceAll
import Idealize.ShloMosaic.Lib.ValueIdx

noncomputable section

/-! ## The predicate's tail, decoded -/

namespace Cert.Pre_finite_inputs.Decode

open Idealize.ShloMosaic Cert.Pre_finite_inputs Cert.Pre_finite_inputs.Facts

/-- The shape with no axes has a single index. -/
instance subsingleton_scalarIdx : Subsingleton (⟨0, ![]⟩ : Shape).Idx := ⟨fun a b => funext fun d => d.elim0⟩

/-- The three literals the range tests compare against, read signed. -/
theorem toInt_lit0 : (0#32 : BitVec 32).toInt = 0 := by decide
theorem toInt_lit10000 : (10000#32 : BitVec 32).toInt = 10000 := by decide
theorem toInt_lit100000 : (100000#32 : BitVec 32).toInt = 100000 := by decide

/-- `all((x ≥ lo) ∧ (x' < hi))` over every axis of an array, as a reduction by `and` of the two signed comparisons against
    the broadcast literals: if it is 1 then every element of `x` is at least `lo` and every element of `x'` is below `hi`,
    read signed. A broadcast literal reads the literal at every index, by unfolding. -/
theorem range_of_all {s : Shape} {axes : List (Fin s.rank)} (x x' : IVec s 32) (lo hi : BitVec 32)
    (bc : (⟨0, ![]⟩ : Shape).BroadcastsInDim s (![] : Fin 0 → Fin s.rank)) (init : IVec ⟨0, ![]⟩ 1)
    (red : s.ReducesTo axes ⟨0, ![]⟩) (hS : 0 < (⟨0, ![]⟩ : Shape).numel)
    (e : Host.reduce IntOp.andi
          (andi (cmpi .sge x (broadcastInDim s ![] bc (constantI ⟨0, ![]⟩ 32 lo)))
                (cmpi .slt x' (broadcastInDim s ![] bc (constantI ⟨0, ![]⟩ 32 hi))))
          init red hS ValueIdx.ix0 = 1#1) (i : s.Idx) :
    lo.toInt ≤ (x i).toInt ∧ (x' i).toInt < hi.toInt := by
  have e1 := Host.reduce_andi_all _ init red hS ValueIdx.ix0 e i
  obtain ⟨a, b⟩ := IntOp.andi_eq_one.1 e1
  exact ⟨IntOp.cmpi_sge.1 a, IntOp.cmpi_slt.1 b⟩

variable [Cert.Pre_finite_inputs.Facts]

/-- Row 0 and row 1 of the [2, 1600000] and of the [2, 1000000] index table as the predicate slices them out: the
    one-row block, flattened. -/
abbrev row0E (t : IVec S2x1600000 32) : IVec S1600000 32 :=
  shapeCast S1600000 (extractStridedSlice S1x1600000 ![0, 0] t slices_S2x1600000_S1x1600000_0_0) shapeCasts_S1x1600000_S1600000
abbrev row1E (t : IVec S2x1600000 32) : IVec S1600000 32 :=
  shapeCast S1600000 (extractStridedSlice S1x1600000 ![1, 0] t slices_S2x1600000_S1x1600000_1_0) shapeCasts_S1x1600000_S1600000
abbrev row0L (t : IVec S2x1000000 32) : IVec S1000000 32 :=
  shapeCast S1000000 (extractStridedSlice S1x1000000 ![0, 0] t slices_S2x1000000_S1x1000000_0_0) shapeCasts_S1x1000000_S1000000
abbrev row1L (t : IVec S2x1000000 32) : IVec S1000000 32 :=
  shapeCast S1000000 (extractStridedSlice S1x1000000 ![1, 0] t slices_S2x1000000_S1x1000000_1_0) shapeCasts_S1x1000000_S1000000

/-- The predicate's tail, from its 145th operation on, is the conjunction of what came before with the six range tests,
    nested to the left. When it is 1 each of the six `all`s is 1, so each index array lies in `[0, n)`. -/
theorem six_of_tail {F : FTy → Type} [FloatOps F] (a21 : IVec S100000 32) (a22 : IVec S10000 32) (a23 : IVec S2x1600000 32)
    (a24 : IVec S2x1000000 32) (v98 : IVec S_ 1) (v101 : IVec S64x64 1) (c39 : IVec S_ 1)
    (h : fn_part6 (F := F) a21 a22 a23 a24 v98 v101 c39 ValueIdx.ix0 = 1#1) :
    (∀ i, 0 ≤ (a21 i).toInt ∧ (a21 i).toInt < 100000) ∧ (∀ i, 0 ≤ (a22 i).toInt ∧ (a22 i).toInt < 10000)
    ∧ (∀ i, 0 ≤ (row0E a23 i).toInt ∧ (row0E a23 i).toInt < 100000) ∧ (∀ i, 0 ≤ (row1E a23 i).toInt ∧ (row1E a23 i).toInt < 10000)
    ∧ (∀ i, 0 ≤ (row0L a24 i).toInt ∧ (row0L a24 i).toInt < 100000) ∧ (∀ i, 0 ≤ (row1L a24 i).toInt ∧ (row1L a24 i).toInt < 10000) := by
  dsimp only [fn_part6, fn_part7, fn_part8, fn_part9] at h
  obtain ⟨h5, e6⟩ := IntOp.andi_eq_one.1 h
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨-, e1⟩ := IntOp.andi_eq_one.1 h1
  refine ⟨fun i => ?_, fun i => ?_, fun i => ?_, fun i => ?_, fun i => ?_, fun i => ?_⟩
  · have r := range_of_all _ _ _ _ _ _ _ _ e1 i; rwa [toInt_lit0, toInt_lit100000] at r
  · have r := range_of_all _ _ _ _ _ _ _ _ e2 i; rwa [toInt_lit0, toInt_lit10000] at r
  · have r := range_of_all _ _ _ _ _ _ _ _ e3 i; rwa [toInt_lit0, toInt_lit100000] at r
  · have r := range_of_all _ _ _ _ _ _ _ _ e4 i; rwa [toInt_lit0, toInt_lit10000] at r
  · have r := range_of_all _ _ _ _ _ _ _ _ e5 i; rwa [toInt_lit0, toInt_lit100000] at r
  · have r := range_of_all _ _ _ _ _ _ _ _ e6 i; rwa [toInt_lit0, toInt_lit10000] at r

end Cert.Pre_finite_inputs.Decode

namespace Cert.KernelIdeal.Sim

open Cert.KernelIdeal Cert.KernelIdeal.Gen Idealize.ShloMosaic Idealize.ShloMosaic.TcCoe Idealize.SL.Sem

/-- The precondition's six range conjuncts, decoded: node ids and edge endpoints lie in `[0, n)` for the axis of extent `n` they index. -/
theorem inRange_of_pre [hPre : Cert.Pre_finite_inputs.Facts] (m : (ℓ : Loc nD τ sig) → Buf (Elt Ideal) ℓ)
    (h : Cert.Pre_KernelIdeal m) (c : Dev nD) : InRange m c := by
  have h0 := congrFun (h c) ValueIdx.ix0
  -- the head of the chain (the finiteness tests) is only unfolded far enough to expose the tail
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  obtain ⟨r1, r2, r3, r4, r5, r6⟩ := Cert.Pre_finite_inputs.Decode.six_of_tail _ _ _ _ _ _ _ h0
  -- the reference slices the same rows out of the same two tables by the same two operations
  exact ⟨r1, r2, r3, r4, r5, r6⟩

end Cert.KernelIdeal.Sim

end
-- ==== Proof.Carry.lean ====
/-
  Buffers carried unchanged between boundaries of the kernel's run: the arguments each region reads, and the arrays an earlier step wrote that a later region reads.
-/
import proofs.«420035_j53996328845374_1_alg».proof.Proof.Prelude

noncomputable section

namespace Cert.KernelIdeal.Sim

open Cert.KernelIdeal Cert.KernelIdeal.Gen Idealize.ShloMosaic Idealize.ShloMosaic.TcCoe Idealize.SL.Sem

set_option maxHeartbeats 2000000 in
/-- Argument 0 is untouched up to boundary 3. -/
theorem W3_arg0 (m : (ℓ : Loc nD τ sig) → Buf (Elt Ideal) ℓ) (ρ : Dev nD → PrngReg) (c : Dev nD) :
    W3 m ρ c (Proc.devRef .tc main_arg0) = A0 m c := by
  walk_back; rfl

set_option maxHeartbeats 2000000 in
/-- Argument 3 is untouched up to boundary 3. -/
theorem W3_arg3 (m : (ℓ : Loc nD τ sig) → Buf (Elt Ideal) ℓ) (ρ : Dev nD → PrngReg) (c : Dev nD) :
    W3 m ρ c (Proc.devRef .tc main_arg3) = A3 m c := by
  walk_back; rfl

set_option maxHeartbeats 2000000 in
/-- Argument 1 is untouched up to boundary 5. -/
theorem W5_arg1 (m : (ℓ : Loc nD τ sig) → Buf (Elt Ideal) ℓ) (ρ : Dev nD → PrngReg) (c : Dev nD) :
    W5 m ρ c (Proc.devRef .tc main_arg1) = A1 m c := by
  walk_back; rfl

set_option maxHeartbeats 2000000 in
/-- Argument 5 is untouched up to boundary 5. -/
theorem W5_arg5 (m : (ℓ : Loc nD τ sig) → Buf (Elt Ideal) ℓ) (ρ : Dev nD → PrngReg) (c : Dev nD) :
    W5 m ρ c (Proc.devRef .tc main_arg5) = A5 m c := by
  walk_back; rfl

set_option maxHeartbeats 2000000 in
/-- Argument 9 is untouched up to boundary 11. -/
theorem W11_arg9 (m : (ℓ : Loc nD τ sig) → Buf (Elt Ideal) ℓ) (ρ : Dev nD → PrngReg) (c : Dev nD) :
    W11 m ρ c (Proc.devRef .tc main_arg9) = A9 m c := by
  walk_back; rfl

set_option maxHeartbeats 2000000 in
/-- Argument 11 is untouched up to boundary 11. -/
theorem W11_arg11 (m : (ℓ : Loc nD τ sig) → Buf (Elt Ideal) ℓ) (ρ : Dev nD → PrngReg) (c : Dev nD) :
    W11 m ρ c (Proc.devRef .tc main_arg11) = A11 m c := by
  walk_back; rfl

set_option maxHeartbeats 2000000 in
/-- Argument 12 is untouched up to boundary 16. -/
theorem W16_arg12 (m : (ℓ : Loc nD τ sig) → Buf (Elt Ideal) ℓ) (ρ : Dev nD → PrngReg) (c : Dev nD) :
    W16 m ρ c (Proc.devRef .tc main_arg12) = A12 m c := by
  walk_back; rfl

set_option maxHeartbeats 2000000 in
/-- Argument 14 is untouched up to boundary 16. -/
theorem W16_arg14 (m : (ℓ : Loc nD τ sig) → Buf (Elt Ideal) ℓ) (ρ : Dev nD → PrngReg) (c : Dev nD) :
    W16 m ρ c (Proc.devRef .tc main_arg14) = A14 m c := by
  walk_back; rfl

set_option maxHeartbeats 2000000 in
/-- Argument 15 is untouched up to boundary 21. -/
theorem W21_arg15 (m : (ℓ : Loc nD τ sig) → Buf (Elt Ideal) ℓ) (ρ : Dev nD → PrngReg) (c : Dev nD) :
    W21 m ρ c (Proc.devRef .tc main_arg15) = A15 m c := by
  walk_back; rfl

set_option maxHeartbeats 2000000 in
/-- Argument 17 is untouched up to boundary 21. -/
theorem W21_arg17 (m : (ℓ : Loc nD τ sig) → Buf (Elt Ideal) ℓ) (ρ : Dev nD → PrngReg) (c : Dev nD) :
    W21 m ρ c (Proc.devRef .tc main_arg17) = A17 m c := by
  walk_back; rfl

set_option maxHeartbeats 2000000 in
/-- Argument 18 is untouched up to boundary 26. -/
theorem W26_arg18 (m : (ℓ : Loc nD τ sig) → Buf (Elt Ideal) ℓ) (ρ : Dev nD → PrngReg) (c : Dev nD) :
    W26 m ρ c (Proc.devRef .tc main_arg18) = A18 m c := by
  walk_back; rfl

set_option maxHeartbeats 2000000 in
/-- Argument 20 is untouched up to boundary 26. -/
theorem W26_arg20 (m : (ℓ : Loc nD τ sig) → Buf (Elt Ideal) ℓ) (ρ : Dev nD → PrngReg) (c : Dev nD) :
    W26 m ρ c (Proc.devRef .tc main_arg20) = A20 m c := by
  walk_back; rfl

set_option maxHeartbeats 2000000 in
/-- Nothing between boundaries 1 and 3 writes `main_v0`. -/
theorem W3_v0_of (m : (ℓ : Loc nD τ sig) → Buf (Elt Ideal) ℓ) (ρ : Dev nD → PrngReg) (c : Dev nD) (X : Buf (Elt Ideal) ((c : Thread nD τ).loc main_v0))
    (h : W1 m ρ c (Proc.devRef .tc main_v0) = X) : W3 m ρ c (Proc.devRef .tc main_v0) = X := by
  walk_back; exact h

set_option maxHeartbeats 2000000 in
/-- Nothing between boundaries 2 and 5 writes `main_v1`. -/
theorem W5_v1_of (m : (ℓ : Loc nD τ sig) → Buf (Elt Ideal) ℓ) (ρ : Dev nD → PrngReg) (c : Dev nD) (X : Buf (Elt Ideal) ((c : Thread nD τ).loc main_v1))
    (h : W2 m ρ c (Proc.devRef .tc main_v1) = X) : W5 m ρ c (Proc.devRef .tc main_v1) = X := by
  walk_back; exact h

set_option maxHeartbeats 2000000 in
/-- Nothing between boundaries 6 and 11 writes `main_v5`. -/
theorem W11_v5_of (m : (ℓ : Loc nD τ sig) → Buf (Elt Ideal) ℓ) (ρ : Dev nD → PrngReg) (c : Dev nD) (X : Buf (Elt Ideal) ((c : Thread nD τ).loc main_v5))
    (h : W6 m ρ c (Proc.devRef .tc main_v5) = X) : W11 m ρ c (Proc.devRef .tc main_v5) = X := by
  walk_back; exact h

set_option maxHeartbeats 2000000 in
/-- Nothing between boundaries 4 and 16 writes `main_v3`. -/
theorem W16_v3_of (m : (ℓ : Loc nD τ sig) → Buf (Elt Ideal) ℓ) (ρ : Dev nD → PrngReg) (c : Dev nD) (X : Buf (Elt Ideal) ((c : Thread nD τ).loc main_v3))
    (h : W4 m ρ c (Proc.devRef .tc main_v3) = X) : W16 m ρ c (Proc.devRef .tc main_v3) = X := by
  walk_back; exact h

set_option maxHeartbeats 2000000 in
/-- Nothing between boundaries 12 and 21 writes `main_v23`. -/
theorem W21_v23_of (m : (ℓ : Loc nD τ sig) → Buf (Elt Ideal) ℓ) (ρ : Dev nD → PrngReg) (c : Dev nD) (X : Buf (Elt Ideal) ((c : Thread nD τ).loc main_v23))
    (h : W12 m ρ c (Proc.devRef .tc main_v23) = X) : W21 m ρ c (Proc.devRef .tc main_v23) = X := by
  walk_back; exact h

set_option maxHeartbeats 2000000 in
/-- Nothing between boundaries 17 and 26 writes `main_v37`. -/
theorem W26_v37_of (m : (ℓ : Loc nD τ sig) → Buf (Elt Ideal) ℓ) (ρ : Dev nD → PrngReg) (c : Dev nD) (X : Buf (Elt Ideal) ((c : Thread nD τ).loc main_v37))
    (h : W17 m ρ c (Proc.devRef .tc main_v37) = X) : W26 m ρ c (Proc.devRef .tc main_v37) = X := by
  walk_back; exact h

end Cert.KernelIdeal.Sim

end
-- ==== Proof.Reg0.lean ====
/-
  Region 0 of the idealized kernel as a whole-array function: what its output array holds after the last grid point.
-/
import proofs.«420035_j53996328845374_1_alg».proof.Proof.Prelude
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sim

open Cert.KernelIdeal Cert.KernelIdeal.Gen Idealize.ShloMosaic Idealize.ShloMosaic.TcCoe Idealize.SL.Sem

namespace Reg0
open Idealize.ShloMosaic.ValueIdx

/-- The zero offsets of a whole-buffer access, as the constant function. -/
theorem zero_offsets : (![0, 0] : Fin 2 → Nat) = fun _ => 0 := funext fun a => by fin_cases a <;> rfl

/-! ## The block product at an index -/

theorem lhs_blockdot0_0 (i : S5000x64.Idx) (q : dot_S5000x512_S512x64_S5000x64_1_0_0_1_n_n.contr.Idx) :
    (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
theorem lhs_blockdot0_1 (i : S5000x64.Idx) (q : dot_S5000x512_S512x64_S5000x64_1_0_0_1_n_n.contr.Idx) :
    (dot_S5000x512_S512x64_S5000x64_1_0_0_1_n_n.lhsIdx i q 1).val = (q ⟨0, by decide⟩).val :=
  dot_S5000x512_S512x64_S5000x64_1_0_0_1_n_n.lhsIdx_val_of_single rfl i q
theorem rhs_blockdot0_0 (i : S5000x64.Idx) (q : dot_S5000x512_S512x64_S5000x64_1_0_0_1_n_n.contr.Idx) :
    (dot_S5000x512_S512x64_S5000x64_1_0_0_1_n_n.rhsIdx i q 0).val = (q ⟨0, by decide⟩).val :=
  dot_S5000x512_S512x64_S5000x64_1_0_0_1_n_n.rhsIdx_val_of_single rfl i q
theorem rhs_blockdot0_1 (i : S5000x64.Idx) (q : dot_S5000x512_S512x64_S5000x64_1_0_0_1_n_n.contr.Idx) :
    (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- A block of rows times the weight matrix, accumulated from zero, is at `(p, q)` the sum over the 512 columns of the
    block's row `p` against the weights' column `q`. -/
theorem blockdot0_apply (l : FVec Ideal S5000x512 .f32) (r : FVec Ideal S512x64 .f32) (p : Fin 5000) (q : Fin 64) :
    matmul dot_S5000x512_S512x64_S5000x64_1_0_0_1_n_n none l r (constant S5000x64 .f32 0x00000000#32) (ix2 p q)
      = ∑ k : Fin 512, l (ix2 p k) * r (ix2 k q) := by
  simp only [matmul]
  rw [Ideal.matmul_constant_zero_apply, ← Equiv.sum_comp (ValueIdx.contrEquiv1 dot_S5000x512_S512x64_S5000x64_1_0_0_1_n_n 512 rfl rfl).symm]
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx (ix2 p q) ((ValueIdx.contrEquiv1 dot_S5000x512_S512x64_S5000x64_1_0_0_1_n_n 512 rfl rfl).symm k) = ix2 p k := funext fun a => Fin.ext (by
    match a with
    | ⟨0, _⟩ => exact lhs_blockdot0_0 _ _
    | ⟨1, _⟩ => exact (lhs_blockdot0_1 _ _).trans hk)
  have er : dot_S5000x512_S512x64_S5000x64_1_0_0_1_n_n.rhsIdx (ix2 p q) ((ValueIdx.contrEquiv1 dot_S5000x512_S512x64_S5000x64_1_0_0_1_n_n 512 rfl rfl).symm k) = ix2 k q := funext fun a => Fin.ext (by
    match a with
    | ⟨0, _⟩ => exact (rhs_blockdot0_0 _ _).trans hk
    | ⟨1, _⟩ => exact rhs_blockdot0_1 _ _)
  rw [el, er]

/-- What the body stores, at `(p, q)`: the block product, plus the bias row's entry `q`, plus the embedding block's entry. -/
theorem body0_apply (v0 : Vec Ideal S5000x512 .f32) (v1 : Vec Ideal S512x64 .f32) (v3 : Vec Ideal S1x64 .f32) (v7 : Vec Ideal S5000x64 .f32)
    (p : Fin 5000) (q : Fin 64) :
    k0_pay1 (F := Ideal) v0 v1 v3 v7 (ix2 p q) = (∑ k : Fin 512, v0 (ix2 p k) * v1 (ix2 k q)) + v3 (ix2 (0 : Fin 1) q) + v7 (ix2 p q) := by
  unfold k0_pay1
  show (matmul (F := Ideal) dot_S5000x512_S512x64_S5000x64_1_0_0_1_n_n none v0 v1 (constant (F := Ideal) S5000x64 .f32 0x00000000#32) (ix2 p q)
        + broadcastTo S5000x64 (shapeCast S1x64 v3 shapeCasts_S1x64_S1x64) broadcasts_S1x64_S5000x64 (ix2 p q))
      + shapeCast S5000x64 v7 shapeCasts_S5000x64_S5000x64 (ix2 p q) = _
  rw [blockdot0_apply, broadcastTo_1b_ab_apply, shapeCast_self, shapeCast_self]

/-! ## The region's result as one function of its four arrays -/

/-- Rows times weights, plus the bias row, plus the embedding rows: at `(p, q)` the sum over the 512 input columns of
    `X (p, k) * W (k, q)`, plus `B (0, q)`, plus `E (p, q)`. -/
def embedLinear0 (X : S100000x512.Idx → Elt Ideal .f32) (W : S512x64.Idx → Elt Ideal .f32) (B : S1x64.Idx → Elt Ideal .f32)
    (E : S100000x64.Idx → Elt Ideal .f32) : S100000x64.Idx → Elt Ideal .f32 :=
  fun i => (∑ k : Fin 512, X (ix2 (⟨(i 0).val, (i 0).isLt⟩ : Fin 100000) k) * W (ix2 k (⟨(i 1).val, (i 1).isLt⟩ : Fin 64)))
    + B (ix2 (0 : Fin 1) (⟨(i 1).val, (i 1).isLt⟩ : Fin 64)) + E i

/-- A block of 5000 rows of the result from the same rows of the inputs: if the block `v0` is rows `n * 5000 …` of `X`,
    `v7` the same rows of `E`, and `v1`, `v3` are all of `W` and `B`, then what the body stores at `(p, q)` is the
    result at row `n * 5000 + p`, column `q`. -/
theorem body0_block (X : S100000x512.Idx → Elt Ideal .f32) (W : S512x64.Idx → Elt Ideal .f32) (B : S1x64.Idx → Elt Ideal .f32)
    (E : S100000x64.Idx → Elt Ideal .f32)
    (v0 : Vec Ideal S5000x512 .f32) (v1 : Vec Ideal S512x64 .f32) (v3 : Vec Ideal S1x64 .f32) (v7 : Vec Ideal S5000x64 .f32) (n : Nat)
    (h0 : ∀ (y : S5000x512.Idx) (k : S100000x512.Idx), (k 0).val = n * 5000 + (y 0).val → (k 1).val = (y 1).val → v0 y = X k)
    (h1 : v1 = W) (h3 : v3 = B)
    (h7 : ∀ (y : S5000x64.Idx) (k : S100000x64.Idx), (k 0).val = n * 5000 + (y 0).val → (k 1).val = (y 1).val → v7 y = E k)
    (p : Fin 5000) (q : Fin 64) (i : S100000x64.Idx) (hi0 : (i 0).val = n * 5000 + p.val) (hi1 : (i 1).val = q.val) :
    k0_pay1 (F := Ideal) v0 v1 v3 v7 (ix2 p q) = embedLinear0 X W B E i := by
  rw [body0_apply]
  unfold embedLinear0
  have hq : (⟨(i 1).val, (i 1).isLt⟩ : Fin 64) = q := Fin.ext hi1
  rw [hq, h1, h3, h7 (ix2 p q) i hi0 hi1]
  congr 2
  exact Finset.sum_congr rfl fun k _ => by rw [h0 (ix2 p k) (ix2 (⟨(i 0).val, (i 0).isLt⟩ : Fin 100000) k) hi0 rfl]

/-! ## Each point's blocks, and the array the write-backs leave -/

/-- The index maps over the 20 grid points: the row-block windows (input rows, embedding rows, output rows) are all at
    block row `t`, column block 0; the weights and the bias row are one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Every row block is some point's. -/
theorem blockOnto0 : ∀ (q0 : Fin 20), ∃ t : Fin cfg0.N, win0_4.index t (0 : Fin 2) = q0.val ∧ win0_4.index t (1 : Fin 2) = 0 :=
  (by decide +kernel : ∀ (q0 : Fin 20), ∃ t : Fin grid0.N, win0_4.index t (0 : Fin 2) = q0.val ∧ win0_4.index t (1 : Fin 2) = 0)

section
variable (V : (c : Dev nD) → (b : Ref sig .tc) → Buf (Elt Ideal) ((c : Thread nD τ).loc b)) (c : Dev nD)

/-- The input window's block at point `t` is rows `t * 5000 …` of the input array. -/
theorem rows0_read (t : Fin cfg0.N) (y : S5000x512.Idx) (k : S100000x512.Idx)
    (hk0 : (k 0).val = t.val * 5000 + (y 0).val) (hk1 : (k 1).val = (y 1).val) :
    (iblk0 (F := Ideal) V c 0 t : Vec Ideal S5000x512 .f32) y = (V c main_arg0 : S100000x512.Idx → Elt Ideal .f32) k := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; omega
  | ⟨1, _⟩ => show win0_0.index t (1 : Fin 2) * 512 + 1 * (y 1).val = (k 1).val; omega

/-- The weights' window holds the whole weight matrix at every point. -/
theorem weights0_read (t : Fin cfg0.N) :
    (iblk0 (F := Ideal) V c 1 t : Vec Ideal S512x64 .f32) = (V c main_arg3 : S512x64.Idx → Elt Ideal .f32) := by
  obtain ⟨-, -, e2, e3, -⟩ := blockIdx0 t
  funext y
  unfold iblk0
  rw [View.read_apply]
  show V c main_arg3 _ = V c main_arg3 _
  congr 1
  funext a
  apply Fin.ext
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- The bias window holds the whole bias row at every point. -/
theorem bias0_read (t : Fin cfg0.N) :
    (iblk0 (F := Ideal) V c 2 t : Vec Ideal S1x64 .f32) = (V c main_v2 : S1x64.Idx → Elt Ideal .f32) := by
  obtain ⟨-, -, -, -, e4, e5, -⟩ := blockIdx0 t
  funext y
  unfold iblk0
  rw [View.read_apply]
  show V c main_v2 _ = V c main_v2 _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The embedding window's block at point `t` is rows `t * 5000 …` of the gathered embedding rows. -/
theorem emb0_read (t : Fin cfg0.N) (y : S5000x64.Idx) (k : S100000x64.Idx)
    (hk0 : (k 0).val = t.val * 5000 + (y 0).val) (hk1 : (k 1).val = (y 1).val) :
    (iblk0 (F := Ideal) V c 3 t : Vec Ideal S5000x64 .f32) y = (V c main_v0 : S100000x64.Idx → Elt Ideal .f32) k := by
  obtain ⟨-, -, -, -, -, -, e6, e7, -⟩ := blockIdx0 t
  unfold iblk0
  rw [View.read_apply]
  show V c main_v0 _ = V c main_v0 _
  congr 1
  funext a
  apply Fin.ext
  match a with
  | ⟨0, _⟩ => show win0_3.index t (0 : Fin 2) * 5000 + 1 * (y 0).val = (k 0).val; omega
  | ⟨1, _⟩ => show win0_3.index t (1 : Fin 2) * 64 + 1 * (y 1).val = (k 1).val; omega

/-- What point `t` writes back is block `t` of the region's result function of the four arrays as the region finds them. -/
theorem flushed0_eq (t : Fin cfg0.N) :
    (dat0 (F := Ideal) V c).flushed 4 t = ((cfg0.win 4).blk t).view.read (Elt Ideal)
      (embedLinear0 (V c main_arg0) (V c main_arg3) (V c main_v2) (V c main_v0)) := by
  show (cfg0.win 4).cut (grid0.coords t) ((dat0 (F := Ideal) V c).after 4 t) = _
  rw [after0_4]
  unfold out0_4
  rw [View.canon_unit_zero zero_offsets]
  simp only [View.ld_unit_zero (S := S5000x512) zero_offsets, View.ld_unit_zero (S := S512x64) zero_offsets,
    View.ld_unit_zero (S := S1x64) zero_offsets, View.ld_unit_zero (S := S5000x64) zero_offsets]
  obtain ⟨-, -, -, -, -, -, -, -, e8, e9⟩ := blockIdx0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (ix2 p q)
    = embedLinear0 (V c main_arg0) (V c main_arg3) (V c main_v2) (V c main_v0) (((cfg0.win 4).blk t).view.emb (ix2 p q))
  refine body0_block (V c main_arg0) (V c main_arg3) (V c main_v2) (V c main_v0)
    (iblk0 V c 0 t) (iblk0 V c 1 t) (iblk0 V c 2 t) (iblk0 V c 3 t) t.val
    (fun y k hk0 hk1 => rows0_read V c t y k hk0 hk1) (weights0_read V c t) (bias0_read V c t)
    (fun y k hk0 hk1 => emb0_read V c t y k hk0 hk1) p q (((cfg0.win 4).blk t).view.emb (ix2 p q)) ?_ ?_
  · show win0_4.index t (0 : Fin 2) * 5000 + 1 * p.val = t.val * 5000 + p.val; omega
  · show win0_4.index t (1 : Fin 2) * 64 + 1 * q.val = q.val; omega

/-- An index of the output array is in point `t`'s block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v3).slice (win0_4.rect t)).set ↔ _
  rw [View.set_slice_whole, Rect.mem_set_unit]
  exact Iff.rfl

/-- Row `r` of the output array is in the block of point `r / 5000`, and every point writes its block back. -/
theorem covered0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, q0, q1⟩ := blockOnto0 ⟨(i 0).val / 5000, by omega⟩
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; rw [q0]; show (i 0).val / 5000 * 5000 ≤ (i 0).val ∧ (i 0).val < (i 0).val / 5000 * 5000 + 5000; omega
  | ⟨1, _⟩ => show win0_4.index t (1 : Fin 2) * 64 ≤ (i 1).val ∧ (i 1).val < win0_4.index t (1 : Fin 2) * 64 + 64; omega

/-- The output array after the last point: the region's result function of the four arrays as the region finds them. -/
theorem arr0_eq : (dat0 (F := Ideal) V c).arrAt 4 cfg0.N
    = embedLinear0 (V c main_arg0) (V c main_arg3) (V c main_v2) (V c main_v0) :=
  (dat0 (F := Ideal) V c).arrAt_eq_of_cover 4 _ (fun t _ => flushed0_eq V c t) covered0

end

/-! ## The reference's stage is the same function -/

/-- The reference adds the bias and the gathered embedding rows to its `dot_general`: index by index the region's
    result function of the input, the weights, the bias as a row, and the gathered rows. -/
theorem stage0_eq (x0 : (⟨Cert.ReferenceIdeal.S100000x512, .f32⟩ : BufTy).Contents (Elt Ideal))
    (x3 : (⟨Cert.ReferenceIdeal.S512x64, .f32⟩ : BufTy).Contents (Elt Ideal))
    (x4 : (⟨Cert.ReferenceIdeal.S64, .f32⟩ : BufTy).Contents (Elt Ideal))
    (x7 : (⟨Cert.ReferenceIdeal.S100000x64, .f32⟩ : BufTy).Contents (Elt Ideal))
    (x21 : (⟨Cert.ReferenceIdeal.S100000, .i32⟩ : BufTy).Contents (Elt Ideal)) :
    Cert.ReferenceIdeal.Read.val_main_v15 (F := Ideal) x0 x3 x4 x7 x21
      = embedLinear0 x0 x3 (shapeCast S1x64 x4 shapeCasts_S64_S1x64) (Cert.ReferenceIdeal.Read.val_main_v14 (F := Ideal) x7 x21) := by
  funext i
  obtain ⟨p, q, rfl⟩ : ∃ (p : Fin 100000) (q : Fin 64), i = ix2 p q := ⟨i 0, i 1, eq_ix2 i⟩
  have el : ∀ k : Fin 512, Cert.ReferenceIdeal.Read.lidx_main_v4 (ix2 p q) k = ix2 p k := fun k => funext fun a => by
    match a with
    | ⟨0, _⟩ => rfl
    | ⟨1, _⟩ => rfl
  have er : ∀ k : Fin 512, Cert.ReferenceIdeal.Read.ridx_main_v4 (ix2 p q) k = ix2 k q := fun k => funext fun a => by
    match a with
    | ⟨0, _⟩ => rfl
    | ⟨1, _⟩ => rfl
  have eb : Cert.ReferenceIdeal.Read.idx_main_v5 (Cert.ReferenceIdeal.Read.idx_main_v6 (ix2 p q)) = ix1 q := funext fun a => by
    match a with
    | ⟨0, _⟩ => rfl
  rw [Cert.ReferenceIdeal.Read.val_main_v15_apply, Cert.ReferenceIdeal.Read.val_main_v7_apply, Cert.ReferenceIdeal.Read.val_main_v4_apply,
    Cert.ReferenceIdeal.Read.val_main_v6_apply, Cert.ReferenceIdeal.Read.val_main_v5_apply, eb]
  simp only [el, er]
  unfold embedLinear0
  rw [shapeCast_a_1a_apply]
  rfl

end Reg0

/-- Region 0's output array, once every grid point has written its block back, is the reference's stage `val_main_v15`
    of the arguments, provided the arrays the region reads hold the corresponding reference stages. -/
theorem arr0_stage (V : (c : Dev nD) → (b : Ref sig .tc) → Buf (Elt Ideal) ((c : Thread nD τ).loc b)) (c : Dev nD)
    (x0 : (⟨Cert.ReferenceIdeal.S100000x512, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x7 : (⟨Cert.ReferenceIdeal.S100000x64, .f32⟩ : BufTy).Contents (Elt Ideal)) (x21 : (⟨Cert.ReferenceIdeal.S100000, .i32⟩ : BufTy).Contents (Elt Ideal))
    (h0 : V c main_arg0 = x0)
    (h1 : V c main_arg3 = x3)
    (h2 : V c main_v2 = shapeCast S1x64 x4 shapeCasts_S64_S1x64)
    (h3 : V c main_v0 = Cert.ReferenceIdeal.Read.val_main_v14 (F := Ideal) x7 x21) :
    (Gen.dat0 (F := Ideal) V c).arrAt 4 cfg0.N = Cert.ReferenceIdeal.Read.val_main_v15 (F := Ideal) x0 x3 x4 x7 x21 := by
  rw [Reg0.arr0_eq V c, h0, h1, h2, h3]
  exact (Reg0.stage0_eq x0 x3 x4 x7 x21).symm

end Cert.KernelIdeal.Sim

end
-- ==== Proof.Reg2.lean ====
/-
  Region 2 of the idealized kernel as a whole-array function: what its output array holds after the last grid point.
  The region computes, block of 2000 rows by block, the aggregated rows times a 64×64 matrix, plus a bias row, plus the
  rows themselves times a second 64×64 matrix, and keeps the larger of that and zero. The proof reads the body's value at
  an index, shows that every grid point writes back its block of ONE function of the whole input arrays, that the five
  blocks cover the 10000 rows, and that the reference's stage is that same function of its own stages.
-/
import proofs.«420035_j53996328845374_1_alg».proof.Proof.Prelude
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sim

open Cert.KernelIdeal Cert.KernelIdeal.Gen Idealize.ShloMosaic Idealize.ShloMosaic.TcCoe Idealize.SL.Sem
open Idealize.ShloMosaic.ValueIdx
open scoped BigOperators

namespace Reg2

/-! ## The block product at an index -/

theorem lhs2_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs2_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs2_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs2_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A block of 2000 rows times a 64×64 matrix, accumulated into zero, read at row `p`, column `q`. -/
theorem blockProduct2_apply (l : FVec Ideal S2000x64 .f32) (r : FVec Ideal S64x64 .f32) (p : Fin 2000) (q : Fin 64) :
    matmul dot_S2000x64_S64x64_S2000x64_1_0_0_1_n_n none l r (constant S2000x64 .f32 0x00000000#32) (ix2 p q)
      = ∑ k : Fin 64, l (ix2 p k) * r (ix2 k q) := by
  refine (Ideal.matmul_constant_zero_apply dot_S2000x64_S64x64_S2000x64_1_0_0_1_n_n none l r (ix2 p q)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-! ## The body's value at an index of the block -/

/-- Region 2's body value at row `p`, column `q` of its block: the two block products and the bias row, added, then the
    larger of that and zero. -/
theorem pay2_apply (a : Vec Ideal S2000x64 .f32) (wl : Vec Ideal S64x64 .f32) (b : Vec Ideal S1x64 .f32)
    (x : Vec Ideal S2000x64 .f32) (wr : Vec Ideal S64x64 .f32) (p : Fin 2000) (q : Fin 64) :
    k2_pay1 (F := Ideal) a wl b x wr (ix2 p q)
      = max ((∑ k : Fin 64, a (ix2 p k) * wl (ix2 k q)) + b (ix2 (0 : Fin 1) q) + (∑ k : Fin 64, x (ix2 p k) * wr (ix2 k q)))
          (Ideal.ofBits .f32 0x00000000#32) := by
  unfold k2_pay1
  rw [shapeCast_self, shapeCast_self, shapeCast_self]
  rw [maximumf_apply, addf_apply, addf_apply, blockProduct2_apply, blockProduct2_apply, broadcastTo_1b_ab_apply]
  rfl

/-! ## The combine step as one function of the whole arrays -/

/-- Row `p`, column `q` of the combine step followed by rectification: the aggregated rows times the left matrix, plus
    the bias row, plus the rows themselves times the right matrix, and then the larger of that and zero. -/
def combineReluAt2 (A : Vec Ideal S10000x64 .f32) (wl : Vec Ideal S64x64 .f32) (b : Vec Ideal S1x64 .f32)
    (X : Vec Ideal S10000x64 .f32) (wr : Vec Ideal S64x64 .f32) (p : Fin 10000) (q : Fin 64) : EReal :=
  max ((∑ k : Fin 64, A (ix2 p k) * wl (ix2 k q)) + b (ix2 (0 : Fin 1) q) + (∑ k : Fin 64, X (ix2 p k) * wr (ix2 k q)))
    (Ideal.ofBits .f32 0x00000000#32)

/-- The same at every index of the 10000×64 array. -/
def combineRelu2 (A : Vec Ideal S10000x64 .f32) (wl : Vec Ideal S64x64 .f32) (b : Vec Ideal S1x64 .f32)
    (X : Vec Ideal S10000x64 .f32) (wr : Vec Ideal S64x64 .f32) : Vec Ideal S10000x64 .f32 :=
  fun i => combineReluAt2 A wl b X wr (i 0) (i 1)

theorem combineRelu2_ix2 (A : Vec Ideal S10000x64 .f32) (wl : Vec Ideal S64x64 .f32) (b : Vec Ideal S1x64 .f32)
    (X : Vec Ideal S10000x64 .f32) (wr : Vec Ideal S64x64 .f32) (p : Fin 10000) (q : Fin 64) :
    combineRelu2 A wl b X wr (ix2 p q) = combineReluAt2 A wl b X wr p q := rfl

/-- A block of 2000 rows whose row `p` is row `n * 2000 + p` of the whole arrays: the body's value at row `p` of the
    block is the combine step's at that row of the arrays. -/
theorem pay2_block (A : Vec Ideal S10000x64 .f32) (wl : Vec Ideal S64x64 .f32) (b : Vec Ideal S1x64 .f32)
    (X : Vec Ideal S10000x64 .f32) (wr : Vec Ideal S64x64 .f32)
    (a : Vec Ideal S2000x64 .f32) (x : Vec Ideal S2000x64 .f32) (p : Fin 2000) (q : Fin 64) (P : Fin 10000)
    (ha : ∀ k : Fin 64, a (ix2 p k) = A (ix2 P k)) (hx : ∀ k : Fin 64, x (ix2 p k) = X (ix2 P k)) :
    k2_pay1 (F := Ideal) a wl b x wr (ix2 p q) = combineRelu2 A wl b X wr (ix2 P q) := by
  rw [pay2_apply, combineRelu2_ix2]
  unfold combineReluAt2
  simp only [ha, hx]

/-! ## From the blocks to the array -/

theorem zeroOffsets2 : (![0, 0] : Fin 2 → Nat) = fun _ => 0 := funext fun a => by fin_cases a <;> rfl

/-- The printed index maps, decided over the five grid points: the two row-blocked inputs move with the output's row
    block, every other block index is zero, and the output's row block stays below five. -/
theorem blockIndices2 : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = win2_5.index t (0 : Fin 2) ∧ win2_3.index t (1 : Fin 2) = 0
    ∧ win2_4.index t (0 : Fin 2) = 0 ∧ win2_4.index t (1 : Fin 2) = 0
    ∧ win2_5.index t (0 : Fin 2) ≤ 4 ∧ win2_5.index t (1 : Fin 2) = 0 :=
  (by decide +kernel : ∀ t : Fin grid2.N, _)

/-- Every row block is some grid point's. -/
theorem rowBlock_onto2 : ∀ r : Fin 5, ∃ t : Fin cfg2.N, win2_5.index t = ![r.val, 0] :=
  (by decide +kernel : ∀ r : Fin 5, ∃ t : Fin grid2.N, win2_5.index t = ![r.val, 0])

/-- What grid point `t` writes back is block `t` of the combine step of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal) (combineRelu2 (V c main_v21) (V c main_arg9) (V c main_v22) (V c main_v5) (V c main_arg11)) := by
  show (cfg2.win 5).cut (grid2.coords t) ((dat2 V c).after 5 t) = _
  rw [after2_5]
  unfold out2_5
  rw [View.canon_unit_zero zeroOffsets2]
  simp only [View.ld_unit_zero (S := S2000x64) zeroOffsets2, View.ld_unit_zero (S := S64x64) zeroOffsets2, View.ld_unit_zero (S := S1x64) zeroOffsets2]
  obtain ⟨e00, e01, e10, e11, e20, e21, e30, e31, e40, e41, hle, e51⟩ := blockIndices2 t
  funext j
  obtain ⟨p, q, rfl⟩ : ∃ (p : Fin 2000) (q : Fin 64), j = ix2 p q := ⟨j 0, j 1, eq_ix2 j⟩
  have hp : p.val < 2000 := p.isLt
  have hq : q.val < 64 := q.isLt
  have hwl : iblk2 V c 1 t = V c main_arg9 := by
    funext y
    show V c main_arg9 (((cfg2.win 1).blk t).view.emb y) = V c main_arg9 y
    refine congrArg _ (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  have hb : iblk2 V c 2 t = V c main_v22 := by
    funext y
    show V c main_v22 (((cfg2.win 2).blk t).view.emb y) = V c main_v22 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  have hwr : iblk2 V c 4 t = V c main_arg11 := by
    funext y
    show V c main_arg11 (((cfg2.win 4).blk t).view.emb y) = V c main_arg11 y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  have ha : ∀ k : Fin 64, iblk2 V c 0 t (ix2 p k) = V c main_v21 (ix2 (⟨win2_5.index t (0 : Fin 2) * 2000 + p.val, by omega⟩ : Fin 10000) k) := fun k => by
    show V c main_v21 (((cfg2.win 0).blk t).view.emb (ix2 p k)) = _
    refine congrArg _ (funext fun a => Fin.ext ?_)
    match a with
    | ⟨0, _⟩ => show win2_0.index t (0 : Fin 2) * 2000 + 1 * p.val = win2_5.index t (0 : Fin 2) * 2000 + p.val; omega
    | ⟨1, _⟩ => show win2_0.index t (1 : Fin 2) * 64 + 1 * k.val = k.val; omega
  have hx : ∀ k : Fin 64, iblk2 V c 3 t (ix2 p k) = V c main_v5 (ix2 (⟨win2_5.index t (0 : Fin 2) * 2000 + p.val, by omega⟩ : Fin 10000) k) := fun k => by
    show V c main_v5 (((cfg2.win 3).blk t).view.emb (ix2 p k)) = _
    refine congrArg _ (funext fun a => Fin.ext ?_)
    match a with
    | ⟨0, _⟩ => show win2_3.index t (0 : Fin 2) * 2000 + 1 * p.val = win2_5.index t (0 : Fin 2) * 2000 + p.val; omega
    | ⟨1, _⟩ => show win2_3.index t (1 : Fin 2) * 64 + 1 * k.val = k.val; omega
  have hout : ((cfg2.win 5).blk t).view.emb (ix2 p q) = ix2 (⟨win2_5.index t (0 : Fin 2) * 2000 + p.val, by omega⟩ : Fin 10000) q := by
    funext a; apply Fin.ext
    match a with
    | ⟨0, _⟩ => show win2_5.index t (0 : Fin 2) * 2000 + 1 * p.val = win2_5.index t (0 : Fin 2) * 2000 + p.val; omega
    | ⟨1, _⟩ => show win2_5.index t (1 : Fin 2) * 64 + 1 * q.val = q.val; omega
  show k2_pay1 (F := Ideal) (iblk2 V c 0 t) (iblk2 V c 1 t) (iblk2 V c 2 t) (iblk2 V c 3 t) (iblk2 V c 4 t) (ix2 p q)
    = combineRelu2 (V c main_v21) (V c main_arg9) (V c main_v22) (V c main_v5) (V c main_arg11) (((cfg2.win 5).blk t).view.emb (ix2 p q))
  rw [hout, hwl, hb, hwr]
  exact pay2_block (V c main_v21) (V c main_arg9) (V c main_v22) (V c main_v5) (V c main_arg11) (iblk2 V c 0 t) (iblk2 V c 3 t) p q _ ha hx

/-- An index of the array is in point `t`'s block iff each coordinate is in the block's range on its axis. -/
theorem mem_block2 (t : Fin cfg2.N) (i : S10000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v23).slice (win2_5.rect t)).set ↔ _
  rw [View.set_slice_whole, Rect.mem_set_unit]
  exact Iff.rfl

/-- Row `r` of the array is in the block of the point whose row block is `r / 2000`. -/
theorem cover2 (i : S10000x64.Idx) : ∃ t : Fin cfg2.N, (cfg2.win 5).flush t = true ∧ i ∈ ((cfg2.win 5).blk t).view.set := by
  have hi0 : (i 0).val < 10000 := (i 0).isLt
  have hi1 : (i 1).val < 64 := (i 1).isLt
  obtain ⟨t, ht⟩ := rowBlock_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_block2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- Region 2's output array after its last grid point is the combine step of the arrays the region reads. -/
theorem arr2_eq (V : (c : Dev nD) → (b : Ref sig .tc) → Buf (Elt Ideal) ((c : Thread nD τ).loc b)) (c : Dev nD) :
    (dat2 (F := Ideal) V c).arrAt 5 cfg2.N = combineRelu2 (V c main_v21) (V c main_arg9) (V c main_v22) (V c main_v5) (V c main_arg11) :=
  (dat2 (F := Ideal) V c).arrAt_eq_of_cover 5 _ (fun t _ => flushed2_eq V c t) cover2

/-! ## The reference's stage is the same function -/

/-- The bias row as the region finds it (the bias vector recast to one row) read at column `q`. -/
theorem biasRow2_apply (v : (⟨Cert.ReferenceIdeal.S64, .f32⟩ : BufTy).Contents (Elt Ideal)) (q : Fin 64) :
    shapeCast S1x64 v shapeCasts_S64_S1x64 (ix2 (0 : Fin 1) q) = v (ix1 q) :=
  shapeCast_apply v shapeCasts_S64_S1x64 (ix2 (0 : Fin 1) q) (ix1 q)
    (by rewrite [Shape.rowMajor_val_two, Shape.rowMajor_val_one]; show q.val = 0 * 64 + q.val; omega)

/-- The reference's rectified combine stage is the combine step of its two input stages, the two matrices and the bias
    vector recast to one row. -/
theorem ref2_eq (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal)) :
    Cert.ReferenceIdeal.Read.val_main_v52 (F := Ideal) x0 x1 x3 x4 x5 x6 x7 x8 x9 x10 x11 x21 x22 x23
      = combineRelu2 (Cert.ReferenceIdeal.Read.val_main_v45 (F := Ideal) x0 x3 x4 x7 x21 x23) x9 (shapeCast S1x64 x10 shapeCasts_S64_S1x64)
          (Cert.ReferenceIdeal.Read.val_main_v27 (F := Ideal) x1 x5 x6 x8 x22) x11 := by
  funext i
  obtain ⟨p, q, rfl⟩ : ∃ (p : Fin 10000) (q : Fin 64), i = ix2 p q := ⟨i 0, i 1, eq_ix2 i⟩
  rw [combineRelu2_ix2]
  unfold combineReluAt2
  rw [Cert.ReferenceIdeal.Read.val_main_v52_apply, Cert.ReferenceIdeal.Read.val_main_v51_apply, Cert.ReferenceIdeal.Read.val_main_v49_apply,
    Cert.ReferenceIdeal.Read.val_main_v46_apply, Cert.ReferenceIdeal.Read.val_main_v50_apply, Cert.ReferenceIdeal.Read.val_main_v48_apply,
    Cert.ReferenceIdeal.Read.val_main_v47_apply, Cert.ReferenceIdeal.Read.val_main_call1_v0_apply, Cert.ReferenceIdeal.Read.val_main_call1_cst_apply,
    biasRow2_apply]
  have el : ∀ k : Fin 64, Cert.ReferenceIdeal.Read.lidx_main_v46 (ix2 p q) k = ix2 p k := fun k => funext fun a => Fin.ext (by
    match a with
    | ⟨0, _⟩ => rfl
    | ⟨1, _⟩ => rfl)
  have er : ∀ k : Fin 64, Cert.ReferenceIdeal.Read.ridx_main_v46 (ix2 p q) k = ix2 k q := fun k => funext fun a => Fin.ext (by
    match a with
    | ⟨0, _⟩ => rfl
    | ⟨1, _⟩ => rfl)
  have el' : ∀ k : Fin 64, Cert.ReferenceIdeal.Read.lidx_main_v50 (ix2 p q) k = ix2 p k := fun k => funext fun a => Fin.ext (by
    match a with
    | ⟨0, _⟩ => rfl
    | ⟨1, _⟩ => rfl)
  have er' : ∀ k : Fin 64, Cert.ReferenceIdeal.Read.ridx_main_v50 (ix2 p q) k = ix2 k q := fun k => funext fun a => Fin.ext (by
    match a with
    | ⟨0, _⟩ => rfl
    | ⟨1, _⟩ => rfl)
  have eb : Cert.ReferenceIdeal.Read.idx_main_v47 (Cert.ReferenceIdeal.Read.idx_main_v48 (ix2 p q)) = ix1 q := funext fun a => Fin.ext (by
    match a with
    | ⟨0, _⟩ => rfl)
  simp only [el, er, el', er', eb]
  rfl

end Reg2

/-- Region 2's output array, once every grid point has written its block back, is the reference's stage `val_main_v52`
    of the arguments, provided the arrays the region reads hold the corresponding reference stages. -/
theorem arr2_stage (V : (c : Dev nD) → (b : Ref sig .tc) → Buf (Elt Ideal) ((c : Thread nD τ).loc b)) (c : Dev nD)
    (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal))
    (h0 : V c main_v21 = Cert.ReferenceIdeal.Read.val_main_v45 (F := Ideal) x0 x3 x4 x7 x21 x23)
    (h1 : V c main_arg9 = x9)
    (h2 : V c main_v22 = shapeCast S1x64 x10 shapeCasts_S64_S1x64)
    (h3 : V c main_v5 = Cert.ReferenceIdeal.Read.val_main_v27 (F := Ideal) x1 x5 x6 x8 x22)
    (h4 : V c main_arg11 = x11) :
    (Gen.dat2 (F := Ideal) V c).arrAt 5 cfg2.N = Cert.ReferenceIdeal.Read.val_main_v52 (F := Ideal) x0 x1 x3 x4 x5 x6 x7 x8 x9 x10 x11 x21 x22 x23 := by
  rw [Reg2.arr2_eq, h0, h1, h2, h3, h4]
  exact (Reg2.ref2_eq x0 x1 x3 x4 x5 x6 x7 x8 x9 x10 x11 x21 x22 x23).symm

end Cert.KernelIdeal.Sim

end
-- ==== Proof.Reg3.lean ====
/-
  Region 3 of the idealized kernel as a whole-array function: what its output array holds after the last grid point.
  The region computes, block of 5000 rows by block, the aggregated rows times a 64×64 matrix, plus a bias row, plus the
  rows themselves times a second 64×64 matrix, and keeps the larger of that and zero. The proof reads the body's value at
  an index, shows that every grid point writes back its block of ONE function of the whole input arrays, that the twenty
  blocks cover the 100000 rows, and that the reference's stage is that same function of its own stages.
-/
import proofs.«420035_j53996328845374_1_alg».proof.Proof.Prelude
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sim

open Cert.KernelIdeal Cert.KernelIdeal.Gen Idealize.ShloMosaic Idealize.ShloMosaic.TcCoe Idealize.SL.Sem
open Idealize.ShloMosaic.ValueIdx
open scoped BigOperators

namespace Reg3

/-! ## The block product at an index -/

theorem lhs3_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs3_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs3_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs3_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times a 64×64 matrix, accumulated into zero, read at row `p`, column `q`. -/
theorem blockProduct3_apply (l : FVec Ideal S5000x64 .f32) (r : FVec Ideal S64x64 .f32) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]

/-! ## The body's value at an index of the block -/

/-- Region 3's body value at row `p`, column `q` of its block: the two block products and the bias row, added, then the
    larger of that and zero. -/
theorem pay3_apply (a : Vec Ideal S5000x64 .f32) (wl : Vec Ideal S64x64 .f32) (b : Vec Ideal S1x64 .f32)
    (x : Vec Ideal S5000x64 .f32) (wr : Vec Ideal S64x64 .f32) (p : Fin 5000) (q : Fin 64) :
    k3_pay1 (F := Ideal) a wl b x wr (ix2 p q)
      = max ((∑ k : Fin 64, a (ix2 p k) * wl (ix2 k q)) + b (ix2 (0 : Fin 1) q) + (∑ k : Fin 64, x (ix2 p k) * wr (ix2 k q)))
          (Ideal.ofBits .f32 0x00000000#32) := by
  unfold k3_pay1
  rw [shapeCast_self, shapeCast_self, shapeCast_self]
  rw [maximumf_apply, addf_apply, addf_apply, blockProduct3_apply, blockProduct3_apply, broadcastTo_1b_ab_apply]
  rfl

/-! ## The combine step as one function of the whole arrays -/

/-- Row `p`, column `q` of the combine step followed by rectification: the aggregated rows times the left matrix, plus
    the bias row, plus the rows themselves times the right matrix, and then the larger of that and zero. -/
def combineReluAt3 (A : Vec Ideal S100000x64 .f32) (wl : Vec Ideal S64x64 .f32) (b : Vec Ideal S1x64 .f32)
    (X : Vec Ideal S100000x64 .f32) (wr : Vec Ideal S64x64 .f32) (p : Fin 100000) (q : Fin 64) : EReal :=
  max ((∑ k : Fin 64, A (ix2 p k) * wl (ix2 k q)) + b (ix2 (0 : Fin 1) q) + (∑ k : Fin 64, X (ix2 p k) * wr (ix2 k q)))
    (Ideal.ofBits .f32 0x00000000#32)

/-- The same at every index of the 100000×64 array. -/
def combineRelu3 (A : Vec Ideal S100000x64 .f32) (wl : Vec Ideal S64x64 .f32) (b : Vec Ideal S1x64 .f32)
    (X : Vec Ideal S100000x64 .f32) (wr : Vec Ideal S64x64 .f32) : Vec Ideal S100000x64 .f32 :=
  fun i => combineReluAt3 A wl b X wr (i 0) (i 1)

theorem combineRelu3_ix2 (A : Vec Ideal S100000x64 .f32) (wl : Vec Ideal S64x64 .f32) (b : Vec Ideal S1x64 .f32)
    (X : Vec Ideal S100000x64 .f32) (wr : Vec Ideal S64x64 .f32) (p : Fin 100000) (q : Fin 64) :
    combineRelu3 A wl b X wr (ix2 p q) = combineReluAt3 A wl b X wr p q := rfl

/-- A block of 5000 rows whose row `p` is row `P` of the whole arrays: the body's value at row `p` of the block is the
    combine step's at row `P` of the arrays. -/
theorem pay3_block (A : Vec Ideal S100000x64 .f32) (wl : Vec Ideal S64x64 .f32) (b : Vec Ideal S1x64 .f32)
    (X : Vec Ideal S100000x64 .f32) (wr : Vec Ideal S64x64 .f32)
    (a : Vec Ideal S5000x64 .f32) (x : Vec Ideal S5000x64 .f32) (p : Fin 5000) (q : Fin 64) (P : Fin 100000)
    (ha : ∀ k : Fin 64, a (ix2 p k) = A (ix2 P k)) (hx : ∀ k : Fin 64, x (ix2 p k) = X (ix2 P k)) :
    k3_pay1 (F := Ideal) a wl b x wr (ix2 p q) = combineRelu3 A wl b X wr (ix2 P q) := by
  rw [pay3_apply, combineRelu3_ix2]
  unfold combineReluAt3
  simp only [ha, hx]

/-! ## From the blocks to the array -/

theorem zeroOffsets3 : (![0, 0] : Fin 2 → Nat) = fun _ => 0 := funext fun a => by fin_cases a <;> rfl

/-- The printed index maps, decided over the twenty grid points: the two row-blocked inputs move with the output's row
    block, every other block index is zero, and the output's row block stays below twenty. -/
theorem blockIndices3 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = win3_5.index t (0 : Fin 2) ∧ win3_3.index t (1 : Fin 2) = 0
    ∧ win3_4.index t (0 : Fin 2) = 0 ∧ win3_4.index t (1 : Fin 2) = 0
    ∧ win3_5.index t (0 : Fin 2) ≤ 19 ∧ win3_5.index t (1 : Fin 2) = 0 :=
  (by decide +kernel : ∀ t : Fin grid3.N, _)

/-- Every row block is some grid point's. -/
theorem rowBlock_onto3 : ∀ r : Fin 20, ∃ t : Fin cfg3.N, win3_5.index t = ![r.val, 0] :=
  (by decide +kernel : ∀ r : Fin 20, ∃ t : Fin grid3.N, win3_5.index t = ![r.val, 0])

/-- What grid point `t` writes back is block `t` of the combine step of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 5 t
      = ((cfg3.win 5).blk t).view.read (Elt Ideal) (combineRelu3 (V c main_v35) (V c main_arg12) (V c main_v36) (V c main_v3) (V c main_arg14)) := by
  show (cfg3.win 5).cut (grid3.coords t) ((dat3 V c).after 5 t) = _
  rw [after3_5]
  unfold out3_5
  rw [View.canon_unit_zero zeroOffsets3]
  simp only [View.ld_unit_zero (S := S5000x64) zeroOffsets3, View.ld_unit_zero (S := S64x64) zeroOffsets3, View.ld_unit_zero (S := S1x64) zeroOffsets3]
  obtain ⟨e00, e01, e10, e11, e20, e21, e30, e31, e40, e41, hle, e51⟩ := blockIndices3 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hwl : iblk3 V c 1 t = V c main_arg12 := by
    funext y
    show V c main_arg12 (((cfg3.win 1).blk t).view.emb y) = V c main_arg12 y
    refine congrArg _ (funext fun a => Fin.ext ?_)
    match a with
    | ⟨0, _⟩ => show win3_1.index t (0 : Fin 2) * 64 + 1 * (y 0).val = (y 0).val; omega
    | ⟨1, _⟩ => show win3_1.index t (1 : Fin 2) * 64 + 1 * (y 1).val = (y 1).val; omega
  have hb : iblk3 V c 2 t = V c main_v36 := by
    funext y
    show V c main_v36 (((cfg3.win 2).blk t).view.emb y) = V c main_v36 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  have hwr : iblk3 V c 4 t = V c main_arg14 := by
    funext y
    show V c main_arg14 (((cfg3.win 4).blk t).view.emb y) = V c main_arg14 y
    refine congrArg _ (funext fun a => Fin.ext ?_)
    match a with
    | ⟨0, _⟩ => show win3_4.index t (0 : Fin 2) * 64 + 1 * (y 0).val = (y 0).val; omega
    | ⟨1, _⟩ => show win3_4.index t (1 : Fin 2) * 64 + 1 * (y 1).val = (y 1).val; omega
  have ha : ∀ k : Fin 64, iblk3 V c 0 t (ix2 p k) = V c main_v35 (ix2 (⟨win3_5.index t (0 : Fin 2) * 5000 + p.val, by omega⟩ : Fin 100000) k) := fun k => by
    show V c main_v35 (((cfg3.win 0).blk t).view.emb (ix2 p k)) = _
    refine congrArg _ (funext fun a => Fin.ext ?_)
    match a with
    | ⟨0, _⟩ => show win3_0.index t (0 : Fin 2) * 5000 + 1 * p.val = win3_5.index t (0 : Fin 2) * 5000 + p.val; omega
    | ⟨1, _⟩ => show win3_0.index t (1 : Fin 2) * 64 + 1 * k.val = k.val; omega
  have hx : ∀ k : Fin 64, iblk3 V c 3 t (ix2 p k) = V c main_v3 (ix2 (⟨win3_5.index t (0 : Fin 2) * 5000 + p.val, by omega⟩ : Fin 100000) k) := fun k => by
    show V c main_v3 (((cfg3.win 3).blk t).view.emb (ix2 p k)) = _
    refine congrArg _ (funext fun a => Fin.ext ?_)
    match a with
    | ⟨0, _⟩ => show win3_3.index t (0 : Fin 2) * 5000 + 1 * p.val = win3_5.index t (0 : Fin 2) * 5000 + p.val; omega
    | ⟨1, _⟩ => show win3_3.index t (1 : Fin 2) * 64 + 1 * k.val = k.val; omega
  have hout : ((cfg3.win 5).blk t).view.emb (ix2 p q) = ix2 (⟨win3_5.index t (0 : Fin 2) * 5000 + p.val, by omega⟩ : Fin 100000) q := by
    funext a; apply Fin.ext
    match a with
    | ⟨0, _⟩ => show win3_5.index t (0 : Fin 2) * 5000 + 1 * p.val = win3_5.index t (0 : Fin 2) * 5000 + p.val; omega
    | ⟨1, _⟩ => show win3_5.index t (1 : Fin 2) * 64 + 1 * q.val = q.val; omega
  show k3_pay1 (F := Ideal) (iblk3 V c 0 t) (iblk3 V c 1 t) (iblk3 V c 2 t) (iblk3 V c 3 t) (iblk3 V c 4 t) (ix2 p q)
    = combineRelu3 (V c main_v35) (V c main_arg12) (V c main_v36) (V c main_v3) (V c main_arg14) (((cfg3.win 5).blk t).view.emb (ix2 p q))
  rw [hout, hwl, hb, hwr]
  exact pay3_block (V c main_v35) (V c main_arg12) (V c main_v36) (V c main_v3) (V c main_arg14) (iblk3 V c 0 t) (iblk3 V c 3 t) p q _ ha hx

/-- An index of the array is in point `t`'s block iff each coordinate is in the block's range on its axis. -/
theorem mem_block3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v37).slice (win3_5.rect t)).set ↔ _
  rw [View.set_slice_whole, Rect.mem_set_unit]
  exact Iff.rfl

/-- Row `r` of the array is in the block of the point whose row block is `r / 5000`. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := rowBlock_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_block3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- Region 3's output array after its last grid point is the combine step of the arrays the region reads. -/
theorem arr3_eq (V : (c : Dev nD) → (b : Ref sig .tc) → Buf (Elt Ideal) ((c : Thread nD τ).loc b)) (c : Dev nD) :
    (dat3 (F := Ideal) V c).arrAt 5 cfg3.N = combineRelu3 (V c main_v35) (V c main_arg12) (V c main_v36) (V c main_v3) (V c main_arg14) :=
  (dat3 (F := Ideal) V c).arrAt_eq_of_cover 5 _ (fun t _ => flushed3_eq V c t) cover3

/-! ## The reference's stage is the same function -/

/-- The bias row as the region finds it (the bias vector recast to one row) read at column `q`. -/
theorem biasRow3_apply (v : (⟨Cert.ReferenceIdeal.S64, .f32⟩ : BufTy).Contents (Elt Ideal)) (q : Fin 64) :
    shapeCast S1x64 v shapeCasts_S64_S1x64 (ix2 (0 : Fin 1) q) = v (ix1 q) :=
  shapeCast_apply v shapeCasts_S64_S1x64 (ix2 (0 : Fin 1) q) (ix1 q)
    (by rewrite [Shape.rowMajor_val_two, Shape.rowMajor_val_one]; show q.val = 0 * 64 + q.val; omega)

/-- The reference's rectified combine stage is the combine step of its two input stages, the two matrices and the bias
    vector recast to one row. -/
theorem ref3_eq (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal)) :
    Cert.ReferenceIdeal.Read.val_main_v77 (F := Ideal) x0 x1 x3 x4 x5 x6 x7 x8 x12 x13 x14 x21 x22 x23
      = combineRelu3 (Cert.ReferenceIdeal.Read.val_main_v70 (F := Ideal) x1 x5 x6 x8 x22 x23) x12 (shapeCast S1x64 x13 shapeCasts_S64_S1x64)
          (Cert.ReferenceIdeal.Read.val_main_v15 (F := Ideal) x0 x3 x4 x7 x21) x14 := by
  funext i
  obtain ⟨p, q, rfl⟩ : ∃ (p : Fin 100000) (q : Fin 64), i = ix2 p q := ⟨i 0, i 1, eq_ix2 i⟩
  rw [combineRelu3_ix2]
  unfold combineReluAt3
  rw [Cert.ReferenceIdeal.Read.val_main_v77_apply, Cert.ReferenceIdeal.Read.val_main_v76_apply, Cert.ReferenceIdeal.Read.val_main_v74_apply,
    Cert.ReferenceIdeal.Read.val_main_v71_apply, Cert.ReferenceIdeal.Read.val_main_v75_apply, Cert.ReferenceIdeal.Read.val_main_v73_apply,
    Cert.ReferenceIdeal.Read.val_main_v72_apply, Cert.ReferenceIdeal.Read.val_main_call3_v0_apply, Cert.ReferenceIdeal.Read.val_main_call3_cst_apply,
    biasRow3_apply]
  have el : ∀ k : Fin 64, Cert.ReferenceIdeal.Read.lidx_main_v71 (ix2 p q) k = ix2 p k := fun k => funext fun a => Fin.ext (by
    match a with
    | ⟨0, _⟩ => rfl
    | ⟨1, _⟩ => rfl)
  have er : ∀ k : Fin 64, Cert.ReferenceIdeal.Read.ridx_main_v71 (ix2 p q) k = ix2 k q := fun k => funext fun a => Fin.ext (by
    match a with
    | ⟨0, _⟩ => rfl
    | ⟨1, _⟩ => rfl)
  have el' : ∀ k : Fin 64, Cert.ReferenceIdeal.Read.lidx_main_v75 (ix2 p q) k = ix2 p k := fun k => funext fun a => Fin.ext (by
    match a with
    | ⟨0, _⟩ => rfl
    | ⟨1, _⟩ => rfl)
  have er' : ∀ k : Fin 64, Cert.ReferenceIdeal.Read.ridx_main_v75 (ix2 p q) k = ix2 k q := fun k => funext fun a => Fin.ext (by
    match a with
    | ⟨0, _⟩ => rfl
    | ⟨1, _⟩ => rfl)
  have eb : Cert.ReferenceIdeal.Read.idx_main_v72 (Cert.ReferenceIdeal.Read.idx_main_v73 (ix2 p q)) = ix1 q := funext fun a => Fin.ext (by
    match a with
    | ⟨0, _⟩ => rfl)
  simp only [el, er, el', er', eb]
  rfl

end Reg3

/-- Region 3's output array, once every grid point has written its block back, is the reference's stage `val_main_v77`
    of the arguments, provided the arrays the region reads hold the corresponding reference stages. -/
theorem arr3_stage (V : (c : Dev nD) → (b : Ref sig .tc) → Buf (Elt Ideal) ((c : Thread nD τ).loc b)) (c : Dev nD)
    (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal))
    (h0 : V c main_v35 = Cert.ReferenceIdeal.Read.val_main_v70 (F := Ideal) x1 x5 x6 x8 x22 x23)
    (h1 : V c main_arg12 = x12)
    (h2 : V c main_v36 = shapeCast S1x64 x13 shapeCasts_S64_S1x64)
    (h3 : V c main_v3 = Cert.ReferenceIdeal.Read.val_main_v15 (F := Ideal) x0 x3 x4 x7 x21)
    (h4 : V c main_arg14 = x14) :
    (Gen.dat3 (F := Ideal) V c).arrAt 5 cfg3.N = Cert.ReferenceIdeal.Read.val_main_v77 (F := Ideal) x0 x1 x3 x4 x5 x6 x7 x8 x12 x13 x14 x21 x22 x23 := by
  rw [Reg3.arr3_eq, h0, h1, h2, h3, h4]
  exact (Reg3.ref3_eq x0 x1 x3 x4 x5 x6 x7 x8 x12 x13 x14 x21 x22 x23).symm

end Cert.KernelIdeal.Sim

end
-- ==== Proof.Reg4.lean ====
/-
  Region 4 of the idealized kernel as a whole-array function: what its output array holds after the last grid point.
  The region computes, block of 2000 rows by block, the aggregated rows times a 64×64 matrix, plus a bias row, plus the
  rows themselves times a second 64×64 matrix. The proof reads the body's value at an index, shows that every grid point
  writes back its block of ONE function of the whole input arrays, that the five blocks cover the 10000 rows, and that the
  reference's stage is that same function of its own stages.
-/
import proofs.«420035_j53996328845374_1_alg».proof.Proof.Prelude
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sim

open Cert.KernelIdeal Cert.KernelIdeal.Gen Idealize.ShloMosaic Idealize.ShloMosaic.TcCoe Idealize.SL.Sem
open Idealize.ShloMosaic.ValueIdx
open scoped BigOperators

namespace Reg4

/-! ## The block product at an index -/

theorem lhs4_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs4_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs4_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs4_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A block of 2000 rows times a 64×64 matrix, accumulated into zero, read at row `p`, column `q`. -/
theorem blockProduct4_apply (l : FVec Ideal S2000x64 .f32) (r : FVec Ideal S64x64 .f32) (p : Fin 2000) (q : Fin 64) :
    matmul dot_S2000x64_S64x64_S2000x64_1_0_0_1_n_n none l r (constant S2000x64 .f32 0x00000000#32) (ix2 p q)
      = ∑ k : Fin 64, l (ix2 p k) * r (ix2 k q) := by
  refine (Ideal.matmul_constant_zero_apply dot_S2000x64_S64x64_S2000x64_1_0_0_1_n_n none l r (ix2 p q)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs4_0 _ _
    | ⟨1, _⟩ => exact (lhs4_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-! ## The body's value at an index of the block -/

/-- Region 4's body value at row `p`, column `q` of its block: the two block products and the bias row, added. -/
theorem pay4_apply (a : Vec Ideal S2000x64 .f32) (wl : Vec Ideal S64x64 .f32) (b : Vec Ideal S1x64 .f32)
    (x : Vec Ideal S2000x64 .f32) (wr : Vec Ideal S64x64 .f32) (p : Fin 2000) (q : Fin 64) :
    k4_pay1 (F := Ideal) a wl b x wr (ix2 p q)
      = (∑ k : Fin 64, a (ix2 p k) * wl (ix2 k q)) + b (ix2 (0 : Fin 1) q) + (∑ k : Fin 64, x (ix2 p k) * wr (ix2 k q)) := by
  unfold k4_pay1
  rw [shapeCast_self, shapeCast_self, shapeCast_self]
  rw [addf_apply, addf_apply, blockProduct4_apply, blockProduct4_apply, broadcastTo_1b_ab_apply]

/-! ## The combine step as one function of the whole arrays -/

/-- Row `p`, column `q` of the combine step: the aggregated rows times the left matrix, plus the bias row, plus the rows
    themselves times the right matrix. -/
def combineAt4 (A : Vec Ideal S10000x64 .f32) (wl : Vec Ideal S64x64 .f32) (b : Vec Ideal S1x64 .f32)
    (X : Vec Ideal S10000x64 .f32) (wr : Vec Ideal S64x64 .f32) (p : Fin 10000) (q : Fin 64) : EReal :=
  (∑ k : Fin 64, A (ix2 p k) * wl (ix2 k q)) + b (ix2 (0 : Fin 1) q) + (∑ k : Fin 64, X (ix2 p k) * wr (ix2 k q))

/-- The same at every index of the 10000×64 array. -/
def combine4 (A : Vec Ideal S10000x64 .f32) (wl : Vec Ideal S64x64 .f32) (b : Vec Ideal S1x64 .f32)
    (X : Vec Ideal S10000x64 .f32) (wr : Vec Ideal S64x64 .f32) : Vec Ideal S10000x64 .f32 :=
  fun i => combineAt4 A wl b X wr (i 0) (i 1)

theorem combine4_ix2 (A : Vec Ideal S10000x64 .f32) (wl : Vec Ideal S64x64 .f32) (b : Vec Ideal S1x64 .f32)
    (X : Vec Ideal S10000x64 .f32) (wr : Vec Ideal S64x64 .f32) (p : Fin 10000) (q : Fin 64) :
    combine4 A wl b X wr (ix2 p q) = combineAt4 A wl b X wr p q := rfl

/-- A block of 2000 rows whose row `p` is row `P` of the whole arrays: the body's value at row `p` of the block is the
    combine step's at row `P` of the arrays. -/
theorem pay4_block (A : Vec Ideal S10000x64 .f32) (wl : Vec Ideal S64x64 .f32) (b : Vec Ideal S1x64 .f32)
    (X : Vec Ideal S10000x64 .f32) (wr : Vec Ideal S64x64 .f32)
    (a : Vec Ideal S2000x64 .f32) (x : Vec Ideal S2000x64 .f32) (p : Fin 2000) (q : Fin 64) (P : Fin 10000)
    (ha : ∀ k : Fin 64, a (ix2 p k) = A (ix2 P k)) (hx : ∀ k : Fin 64, x (ix2 p k) = X (ix2 P k)) :
    k4_pay1 (F := Ideal) a wl b x wr (ix2 p q) = combine4 A wl b X wr (ix2 P q) := by
  rw [pay4_apply, combine4_ix2]
  unfold combineAt4
  simp only [ha, hx]

/-! ## From the blocks to the array -/

theorem zeroOffsets4 : (![0, 0] : Fin 2 → Nat) = fun _ => 0 := funext fun a => by fin_cases a <;> rfl

/-- The printed index maps, decided over the five grid points: the two row-blocked inputs move with the output's row
    block, every other block index is zero, and the output's row block stays below five. -/
theorem blockIndices4 : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = win4_5.index t (0 : Fin 2) ∧ win4_3.index t (1 : Fin 2) = 0
    ∧ win4_4.index t (0 : Fin 2) = 0 ∧ win4_4.index t (1 : Fin 2) = 0
    ∧ win4_5.index t (0 : Fin 2) ≤ 4 ∧ win4_5.index t (1 : Fin 2) = 0 :=
  (by decide +kernel : ∀ t : Fin grid4.N, _)

/-- Every row block is some grid point's. -/
theorem rowBlock_onto4 : ∀ r : Fin 5, ∃ t : Fin cfg4.N, win4_5.index t = ![r.val, 0] :=
  (by decide +kernel : ∀ r : Fin 5, ∃ t : Fin grid4.N, win4_5.index t = ![r.val, 0])

/-- What grid point `t` writes back is block `t` of the combine step of the arrays as the region finds them. -/
theorem flushed4_eq (V : (c : Dev nD) → (b : Ref sig .tc) → Buf (Elt Ideal) ((c : Thread nD τ).loc b)) (c : Dev nD) (t : Fin cfg4.N) :
    (dat4 (F := Ideal) V c).flushed 5 t
      = ((cfg4.win 5).blk t).view.read (Elt Ideal) (combine4 (V c main_v49) (V c main_arg15) (V c main_v50) (V c main_v23) (V c main_arg17)) := by
  show (cfg4.win 5).cut (grid4.coords t) ((dat4 V c).after 5 t) = _
  rw [after4_5]
  unfold out4_5
  rw [View.canon_unit_zero zeroOffsets4]
  simp only [View.ld_unit_zero (S := S2000x64) zeroOffsets4, View.ld_unit_zero (S := S64x64) zeroOffsets4, View.ld_unit_zero (S := S1x64) zeroOffsets4]
  obtain ⟨e00, e01, e10, e11, e20, e21, e30, e31, e40, e41, hle, e51⟩ := blockIndices4 t
  funext j
  obtain ⟨p, q, rfl⟩ : ∃ (p : Fin 2000) (q : Fin 64), j = ix2 p q := ⟨j 0, j 1, eq_ix2 j⟩
  have hp : p.val < 2000 := p.isLt
  have hq : q.val < 64 := q.isLt
  have hwl : iblk4 V c 1 t = V c main_arg15 := by
    funext y
    show V c main_arg15 (((cfg4.win 1).blk t).view.emb y) = V c main_arg15 y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 64 + 1 * (y 1).val = (y 1).val; omega
  have hb : iblk4 V c 2 t = V c main_v50 := by
    funext y
    show V c main_v50 (((cfg4.win 2).blk t).view.emb y) = V c main_v50 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 64 + 1 * (y 1).val = (y 1).val; omega
  have hwr : iblk4 V c 4 t = V c main_arg17 := by
    funext y
    show V c main_arg17 (((cfg4.win 4).blk t).view.emb y) = V c main_arg17 y
    refine congrArg _ (funext fun a => Fin.ext ?_)
    match a with
    | ⟨0, _⟩ => show win4_4.index t (0 : Fin 2) * 64 + 1 * (y 0).val = (y 0).val; omega
    | ⟨1, _⟩ => show win4_4.index t (1 : Fin 2) * 64 + 1 * (y 1).val = (y 1).val; omega
  have ha : ∀ k : Fin 64, iblk4 V c 0 t (ix2 p k) = V c main_v49 (ix2 (⟨win4_5.index t (0 : Fin 2) * 2000 + p.val, by omega⟩ : Fin 10000) k) := fun k => by
    show V c main_v49 (((cfg4.win 0).blk t).view.emb (ix2 p k)) = _
    refine congrArg _ (funext fun a => Fin.ext ?_)
    match a with
    | ⟨0, _⟩ => show win4_0.index t (0 : Fin 2) * 2000 + 1 * p.val = win4_5.index t (0 : Fin 2) * 2000 + p.val; omega
    | ⟨1, _⟩ => show win4_0.index t (1 : Fin 2) * 64 + 1 * k.val = k.val; omega
  have hx : ∀ k : Fin 64, iblk4 V c 3 t (ix2 p k) = V c main_v23 (ix2 (⟨win4_5.index t (0 : Fin 2) * 2000 + p.val, by omega⟩ : Fin 10000) k) := fun k => by
    show V c main_v23 (((cfg4.win 3).blk t).view.emb (ix2 p k)) = _
    refine congrArg _ (funext fun a => Fin.ext ?_)
    match a with
    | ⟨0, _⟩ => show win4_3.index t (0 : Fin 2) * 2000 + 1 * p.val = win4_5.index t (0 : Fin 2) * 2000 + p.val; omega
    | ⟨1, _⟩ => show win4_3.index t (1 : Fin 2) * 64 + 1 * k.val = k.val; omega
  have hout : ((cfg4.win 5).blk t).view.emb (ix2 p q) = ix2 (⟨win4_5.index t (0 : Fin 2) * 2000 + p.val, by omega⟩ : Fin 10000) q := by
    funext a; apply Fin.ext
    match a with
    | ⟨0, _⟩ => show win4_5.index t (0 : Fin 2) * 2000 + 1 * p.val = win4_5.index t (0 : Fin 2) * 2000 + p.val; omega
    | ⟨1, _⟩ => show win4_5.index t (1 : Fin 2) * 64 + 1 * q.val = q.val; omega
  show k4_pay1 (F := Ideal) (iblk4 V c 0 t) (iblk4 V c 1 t) (iblk4 V c 2 t) (iblk4 V c 3 t) (iblk4 V c 4 t) (ix2 p q)
    = combine4 (V c main_v49) (V c main_arg15) (V c main_v50) (V c main_v23) (V c main_arg17) (((cfg4.win 5).blk t).view.emb (ix2 p q))
  rw [hout, hwl, hb, hwr]
  exact pay4_block (V c main_v49) (V c main_arg15) (V c main_v50) (V c main_v23) (V c main_arg17) (iblk4 V c 0 t) (iblk4 V c 3 t) p q _ ha hx

/-- An index of the array is in point `t`'s block iff each coordinate is in the block's range on its axis. -/
theorem mem_block4 (t : Fin cfg4.N) (i : S10000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v51).slice (win4_5.rect t)).set ↔ _
  rw [View.set_slice_whole, Rect.mem_set_unit]
  exact Iff.rfl

/-- Row `r` of the array is in the block of the point whose row block is `r / 2000`. -/
theorem cover4 (i : S10000x64.Idx) : ∃ t : Fin cfg4.N, (cfg4.win 5).flush t = true ∧ i ∈ ((cfg4.win 5).blk t).view.set := by
  have hi0 : (i 0).val < 10000 := (i 0).isLt
  have hi1 : (i 1).val < 64 := (i 1).isLt
  obtain ⟨t, ht⟩ := rowBlock_onto4 ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_block4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 64 ≤ (i 1).val ∧ (i 1).val < win4_5.index t (1 : Fin 2) * 64 + 64; omega

/-- Region 4's output array after its last grid point is the combine step of the arrays the region reads. -/
theorem arr4_eq (V : (c : Dev nD) → (b : Ref sig .tc) → Buf (Elt Ideal) ((c : Thread nD τ).loc b)) (c : Dev nD) :
    (dat4 (F := Ideal) V c).arrAt 5 cfg4.N = combine4 (V c main_v49) (V c main_arg15) (V c main_v50) (V c main_v23) (V c main_arg17) :=
  (dat4 (F := Ideal) V c).arrAt_eq_of_cover 5 _ (fun t _ => flushed4_eq V c t) cover4

/-! ## The reference's stage is the same function -/

/-- The bias row as the region finds it (the bias vector recast to one row) read at column `q`. -/
theorem biasRow4_apply (v : (⟨Cert.ReferenceIdeal.S64, .f32⟩ : BufTy).Contents (Elt Ideal)) (q : Fin 64) :
    shapeCast S1x64 v shapeCasts_S64_S1x64 (ix2 (0 : Fin 1) q) = v (ix1 q) :=
  shapeCast_apply v shapeCasts_S64_S1x64 (ix2 (0 : Fin 1) q) (ix1 q)
    (by rewrite [Shape.rowMajor_val_two, Shape.rowMajor_val_one]; show q.val = 0 * 64 + q.val; omega)

/-- The reference's combine stage is the combine step of its two input stages, the two matrices and the bias vector
    recast to one row. -/
theorem ref4_eq (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64x64, .f32⟩ : BufTy).Contents (Elt Ideal)) (x16 : (⟨Cert.ReferenceIdeal.S64, .f32⟩ : BufTy).Contents (Elt Ideal)) (x17 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal)) :
    Cert.ReferenceIdeal.Read.val_main_v101 (F := Ideal) x0 x1 x3 x4 x5 x6 x7 x8 x9 x10 x11 x12 x13 x14 x15 x16 x17 x21 x22 x23
      = combine4 (Cert.ReferenceIdeal.Read.val_main_v95 (F := Ideal) x0 x1 x3 x4 x5 x6 x7 x8 x12 x13 x14 x21 x22 x23) x15 (shapeCast S1x64 x16 shapeCasts_S64_S1x64)
          (Cert.ReferenceIdeal.Read.val_main_v52 (F := Ideal) x0 x1 x3 x4 x5 x6 x7 x8 x9 x10 x11 x21 x22 x23) x17 := by
  funext i
  obtain ⟨p, q, rfl⟩ : ∃ (p : Fin 10000) (q : Fin 64), i = ix2 p q := ⟨i 0, i 1, eq_ix2 i⟩
  rw [combine4_ix2]
  unfold combineAt4
  rw [Cert.ReferenceIdeal.Read.val_main_v101_apply, Cert.ReferenceIdeal.Read.val_main_v99_apply,
    Cert.ReferenceIdeal.Read.val_main_v96_apply, Cert.ReferenceIdeal.Read.val_main_v100_apply, Cert.ReferenceIdeal.Read.val_main_v98_apply,
    Cert.ReferenceIdeal.Read.val_main_v97_apply, biasRow4_apply]
  have el : ∀ k : Fin 64, Cert.ReferenceIdeal.Read.lidx_main_v96 (ix2 p q) k = ix2 p k := fun k => funext fun a => Fin.ext (by
    match a with
    | ⟨0, _⟩ => rfl
    | ⟨1, _⟩ => rfl)
  have er : ∀ k : Fin 64, Cert.ReferenceIdeal.Read.ridx_main_v96 (ix2 p q) k = ix2 k q := fun k => funext fun a => Fin.ext (by
    match a with
    | ⟨0, _⟩ => rfl
    | ⟨1, _⟩ => rfl)
  have el' : ∀ k : Fin 64, Cert.ReferenceIdeal.Read.lidx_main_v100 (ix2 p q) k = ix2 p k := fun k => funext fun a => Fin.ext (by
    match a with
    | ⟨0, _⟩ => rfl
    | ⟨1, _⟩ => rfl)
  have er' : ∀ k : Fin 64, Cert.ReferenceIdeal.Read.ridx_main_v100 (ix2 p q) k = ix2 k q := fun k => funext fun a => Fin.ext (by
    match a with
    | ⟨0, _⟩ => rfl
    | ⟨1, _⟩ => rfl)
  have eb : Cert.ReferenceIdeal.Read.idx_main_v97 (Cert.ReferenceIdeal.Read.idx_main_v98 (ix2 p q)) = ix1 q := funext fun a => Fin.ext (by
    match a with
    | ⟨0, _⟩ => rfl)
  simp only [el, er, el', er', eb]
  rfl

end Reg4

/-- Region 4's output array, once every grid point has written its block back, is the reference's stage `val_main_v101`
    of the arguments, provided the arrays the region reads hold the corresponding reference stages. -/
theorem arr4_stage (V : (c : Dev nD) → (b : Ref sig .tc) → Buf (Elt Ideal) ((c : Thread nD τ).loc b)) (c : Dev nD)
    (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64x64, .f32⟩ : BufTy).Contents (Elt Ideal)) (x16 : (⟨Cert.ReferenceIdeal.S64, .f32⟩ : BufTy).Contents (Elt Ideal)) (x17 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal))
    (h0 : V c main_v49 = Cert.ReferenceIdeal.Read.val_main_v95 (F := Ideal) x0 x1 x3 x4 x5 x6 x7 x8 x12 x13 x14 x21 x22 x23)
    (h1 : V c main_arg15 = x15)
    (h2 : V c main_v50 = shapeCast S1x64 x16 shapeCasts_S64_S1x64)
    (h3 : V c main_v23 = Cert.ReferenceIdeal.Read.val_main_v52 (F := Ideal) x0 x1 x3 x4 x5 x6 x7 x8 x9 x10 x11 x21 x22 x23)
    (h4 : V c main_arg17 = x17) :
    (Gen.dat4 (F := Ideal) V c).arrAt 5 cfg4.N = Cert.ReferenceIdeal.Read.val_main_v101 (F := Ideal) x0 x1 x3 x4 x5 x6 x7 x8 x9 x10 x11 x12 x13 x14 x15 x16 x17 x21 x22 x23 := by
  rw [Reg4.arr4_eq, h0, h1, h2, h3, h4]
  exact (Reg4.ref4_eq x0 x1 x3 x4 x5 x6 x7 x8 x9 x10 x11 x12 x13 x14 x15 x16 x17 x21 x22 x23).symm

end Cert.KernelIdeal.Sim

end
-- ==== Proof.Reg5.lean ====
/-
  Region 5 of the idealized kernel as a whole-array function: what its output array holds after the last grid point.
  The region computes, block of 5000 rows by block, the aggregated rows times a 64×64 matrix, plus a bias row, plus the
  rows themselves times a second 64×64 matrix. The proof reads the body's value at an index, shows that every grid point
  writes back its block of ONE function of the whole input arrays, that the twenty blocks cover the 100000 rows, and that
  the reference's stage is that same function of its own stages.
-/
import proofs.«420035_j53996328845374_1_alg».proof.Proof.Prelude
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sim

open Cert.KernelIdeal Cert.KernelIdeal.Gen Idealize.ShloMosaic Idealize.ShloMosaic.TcCoe Idealize.SL.Sem
open Idealize.ShloMosaic.ValueIdx
open scoped BigOperators

namespace Reg5

/-! ## The block product at an index -/

theorem lhs5_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs5_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs5_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs5_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times a 64×64 matrix, accumulated into zero, read at row `p`, column `q`. -/
theorem blockProduct5_apply (l : FVec Ideal S5000x64 .f32) (r : FVec Ideal S64x64 .f32) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs5_0 _ _
    | ⟨1, _⟩ => exact (lhs5_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs5_0 _ _).trans hk
    | ⟨1, _⟩ => exact rhs5_1 _ _)
  rw [el, er]

/-! ## The body's value at an index of the block -/

/-- Region 5's body value at row `p`, column `q` of its block: the two block products and the bias row, added. -/
theorem pay5_apply (a : Vec Ideal S5000x64 .f32) (wl : Vec Ideal S64x64 .f32) (b : Vec Ideal S1x64 .f32)
    (x : Vec Ideal S5000x64 .f32) (wr : Vec Ideal S64x64 .f32) (p : Fin 5000) (q : Fin 64) :
    k5_pay1 (F := Ideal) a wl b x wr (ix2 p q)
      = (∑ k : Fin 64, a (ix2 p k) * wl (ix2 k q)) + b (ix2 (0 : Fin 1) q) + (∑ k : Fin 64, x (ix2 p k) * wr (ix2 k q)) := by
  unfold k5_pay1
  rw [shapeCast_self, shapeCast_self, shapeCast_self]
  rw [addf_apply, addf_apply, blockProduct5_apply, blockProduct5_apply, broadcastTo_1b_ab_apply]

/-! ## The combine step as one function of the whole arrays -/

/-- Row `p`, column `q` of the combine step: the aggregated rows times the left matrix, plus the bias row, plus the rows
    themselves times the right matrix. -/
def combineAt5 (A : Vec Ideal S100000x64 .f32) (wl : Vec Ideal S64x64 .f32) (b : Vec Ideal S1x64 .f32)
    (X : Vec Ideal S100000x64 .f32) (wr : Vec Ideal S64x64 .f32) (p : Fin 100000) (q : Fin 64) : EReal :=
  (∑ k : Fin 64, A (ix2 p k) * wl (ix2 k q)) + b (ix2 (0 : Fin 1) q) + (∑ k : Fin 64, X (ix2 p k) * wr (ix2 k q))

/-- The same at every index of the 100000×64 array. -/
def combine5 (A : Vec Ideal S100000x64 .f32) (wl : Vec Ideal S64x64 .f32) (b : Vec Ideal S1x64 .f32)
    (X : Vec Ideal S100000x64 .f32) (wr : Vec Ideal S64x64 .f32) : Vec Ideal S100000x64 .f32 :=
  fun i => combineAt5 A wl b X wr (i 0) (i 1)

theorem combine5_ix2 (A : Vec Ideal S100000x64 .f32) (wl : Vec Ideal S64x64 .f32) (b : Vec Ideal S1x64 .f32)
    (X : Vec Ideal S100000x64 .f32) (wr : Vec Ideal S64x64 .f32) (p : Fin 100000) (q : Fin 64) :
    combine5 A wl b X wr (ix2 p q) = combineAt5 A wl b X wr p q := rfl

/-- A block of 5000 rows whose row `p` is row `P` of the whole arrays: the body's value at row `p` of the block is the
    combine step's at row `P` of the arrays. -/
theorem pay5_block (A : Vec Ideal S100000x64 .f32) (wl : Vec Ideal S64x64 .f32) (b : Vec Ideal S1x64 .f32)
    (X : Vec Ideal S100000x64 .f32) (wr : Vec Ideal S64x64 .f32)
    (a : Vec Ideal S5000x64 .f32) (x : Vec Ideal S5000x64 .f32) (p : Fin 5000) (q : Fin 64) (P : Fin 100000)
    (ha : ∀ k : Fin 64, a (ix2 p k) = A (ix2 P k)) (hx : ∀ k : Fin 64, x (ix2 p k) = X (ix2 P k)) :
    k5_pay1 (F := Ideal) a wl b x wr (ix2 p q) = combine5 A wl b X wr (ix2 P q) := by
  rw [pay5_apply, combine5_ix2]
  unfold combineAt5
  simp only [ha, hx]

/-! ## From the blocks to the array -/

theorem zeroOffsets5 : (![0, 0] : Fin 2 → Nat) = fun _ => 0 := funext fun a => by fin_cases a <;> rfl

/-- The printed index maps, decided over the twenty grid points: the two row-blocked inputs move with the output's row
    block, every other block index is zero, and the output's row block stays below twenty. -/
theorem blockIndices5 : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = win5_5.index t (0 : Fin 2) ∧ win5_3.index t (1 : Fin 2) = 0
    ∧ win5_4.index t (0 : Fin 2) = 0 ∧ win5_4.index t (1 : Fin 2) = 0
    ∧ win5_5.index t (0 : Fin 2) ≤ 19 ∧ win5_5.index t (1 : Fin 2) = 0 :=
  (by decide +kernel : ∀ t : Fin grid5.N, _)

/-- Every row block is some grid point's. -/
theorem rowBlock_onto5 : ∀ r : Fin 20, ∃ t : Fin cfg5.N, win5_5.index t = ![r.val, 0] :=
  (by decide +kernel : ∀ r : Fin 20, ∃ t : Fin grid5.N, win5_5.index t = ![r.val, 0])

/-- What grid point `t` writes back is block `t` of the combine step of the arrays as the region finds them. -/
theorem flushed5_eq (V : (c : Dev nD) → (b : Ref sig .tc) → Buf (Elt Ideal) ((c : Thread nD τ).loc b)) (c : Dev nD) (t : Fin cfg5.N) :
    (dat5 (F := Ideal) V c).flushed 5 t
      = ((cfg5.win 5).blk t).view.read (Elt Ideal) (combine5 (V c main_v63) (V c main_arg18) (V c main_v64) (V c main_v37) (V c main_arg20)) := by
  show (cfg5.win 5).cut (grid5.coords t) ((dat5 V c).after 5 t) = _
  rw [after5_5]
  unfold out5_5
  rw [View.canon_unit_zero zeroOffsets5]
  simp only [View.ld_unit_zero (S := S5000x64) zeroOffsets5, View.ld_unit_zero (S := S64x64) zeroOffsets5, View.ld_unit_zero (S := S1x64) zeroOffsets5]
  obtain ⟨e00, e01, e10, e11, e20, e21, e30, e31, e40, e41, hle, e51⟩ := blockIndices5 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hwl : iblk5 V c 1 t = V c main_arg18 := by
    funext y
    show V c main_arg18 (((cfg5.win 1).blk t).view.emb y) = V c main_arg18 y
    refine congrArg _ (funext fun a => Fin.ext ?_)
    match a with
    | ⟨0, _⟩ => show win5_1.index t (0 : Fin 2) * 64 + 1 * (y 0).val = (y 0).val; omega
    | ⟨1, _⟩ => show win5_1.index t (1 : Fin 2) * 64 + 1 * (y 1).val = (y 1).val; omega
  have hb : iblk5 V c 2 t = V c main_v64 := by
    funext y
    show V c main_v64 (((cfg5.win 2).blk t).view.emb y) = V c main_v64 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 64 + 1 * (y 1).val = (y 1).val; omega
  have hwr : iblk5 V c 4 t = V c main_arg20 := by
    funext y
    show V c main_arg20 (((cfg5.win 4).blk t).view.emb y) = V c main_arg20 y
    refine congrArg _ (funext fun a => Fin.ext ?_)
    match a with
    | ⟨0, _⟩ => show win5_4.index t (0 : Fin 2) * 64 + 1 * (y 0).val = (y 0).val; omega
    | ⟨1, _⟩ => show win5_4.index t (1 : Fin 2) * 64 + 1 * (y 1).val = (y 1).val; omega
  have ha : ∀ k : Fin 64, iblk5 V c 0 t (ix2 p k) = V c main_v63 (ix2 (⟨win5_5.index t (0 : Fin 2) * 5000 + p.val, by omega⟩ : Fin 100000) k) := fun k => by
    show V c main_v63 (((cfg5.win 0).blk t).view.emb (ix2 p k)) = _
    refine congrArg _ (funext fun a => Fin.ext ?_)
    match a with
    | ⟨0, _⟩ => show win5_0.index t (0 : Fin 2) * 5000 + 1 * p.val = win5_5.index t (0 : Fin 2) * 5000 + p.val; omega
    | ⟨1, _⟩ => show win5_0.index t (1 : Fin 2) * 64 + 1 * k.val = k.val; omega
  have hx : ∀ k : Fin 64, iblk5 V c 3 t (ix2 p k) = V c main_v37 (ix2 (⟨win5_5.index t (0 : Fin 2) * 5000 + p.val, by omega⟩ : Fin 100000) k) := fun k => by
    show V c main_v37 (((cfg5.win 3).blk t).view.emb (ix2 p k)) = _
    refine congrArg _ (funext fun a => Fin.ext ?_)
    match a with
    | ⟨0, _⟩ => show win5_3.index t (0 : Fin 2) * 5000 + 1 * p.val = win5_5.index t (0 : Fin 2) * 5000 + p.val; omega
    | ⟨1, _⟩ => show win5_3.index t (1 : Fin 2) * 64 + 1 * k.val = k.val; omega
  have hout : ((cfg5.win 5).blk t).view.emb (ix2 p q) = ix2 (⟨win5_5.index t (0 : Fin 2) * 5000 + p.val, by omega⟩ : Fin 100000) q := by
    funext a; apply Fin.ext
    match a with
    | ⟨0, _⟩ => show win5_5.index t (0 : Fin 2) * 5000 + 1 * p.val = win5_5.index t (0 : Fin 2) * 5000 + p.val; omega
    | ⟨1, _⟩ => show win5_5.index t (1 : Fin 2) * 64 + 1 * q.val = q.val; omega
  show k5_pay1 (F := Ideal) (iblk5 V c 0 t) (iblk5 V c 1 t) (iblk5 V c 2 t) (iblk5 V c 3 t) (iblk5 V c 4 t) (ix2 p q)
    = combine5 (V c main_v63) (V c main_arg18) (V c main_v64) (V c main_v37) (V c main_arg20) (((cfg5.win 5).blk t).view.emb (ix2 p q))
  rw [hout, hwl, hb, hwr]
  exact pay5_block (V c main_v63) (V c main_arg18) (V c main_v64) (V c main_v37) (V c main_arg20) (iblk5 V c 0 t) (iblk5 V c 3 t) p q _ ha hx

/-- An index of the array is in point `t`'s block iff each coordinate is in the block's range on its axis. -/
theorem mem_block5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v65).slice (win5_5.rect t)).set ↔ _
  rw [View.set_slice_whole, Rect.mem_set_unit]
  exact Iff.rfl

/-- Row `r` of the array is in the block of the point whose row block is `r / 5000`. -/
theorem cover5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ := rowBlock_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_block5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-- Region 5's output array after its last grid point is the combine step of the arrays the region reads. -/
theorem arr5_eq (V : (c : Dev nD) → (b : Ref sig .tc) → Buf (Elt Ideal) ((c : Thread nD τ).loc b)) (c : Dev nD) :
    (dat5 (F := Ideal) V c).arrAt 5 cfg5.N = combine5 (V c main_v63) (V c main_arg18) (V c main_v64) (V c main_v37) (V c main_arg20) :=
  (dat5 (F := Ideal) V c).arrAt_eq_of_cover 5 _ (fun t _ => flushed5_eq V c t) cover5

/-! ## The reference's stage is the same function -/

/-- The bias row as the region finds it (the bias vector recast to one row) read at column `q`. -/
theorem biasRow5_apply (v : (⟨Cert.ReferenceIdeal.S64, .f32⟩ : BufTy).Contents (Elt Ideal)) (q : Fin 64) :
    shapeCast S1x64 v shapeCasts_S64_S1x64 (ix2 (0 : Fin 1) q) = v (ix1 q) :=
  shapeCast_apply v shapeCasts_S64_S1x64 (ix2 (0 : Fin 1) q) (ix1 q)
    (by rewrite [Shape.rowMajor_val_two, Shape.rowMajor_val_one]; show q.val = 0 * 64 + q.val; omega)

/-- The reference's combine stage is the combine step of its two input stages, the two matrices and the bias vector
    recast to one row. -/
theorem ref5_eq (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x18 : (⟨Cert.ReferenceIdeal.S64x64, .f32⟩ : BufTy).Contents (Elt Ideal)) (x19 : (⟨Cert.ReferenceIdeal.S64, .f32⟩ : BufTy).Contents (Elt Ideal)) (x20 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal)) :
    Cert.ReferenceIdeal.Read.val_main_v125 (F := Ideal) x0 x1 x3 x4 x5 x6 x7 x8 x9 x10 x11 x12 x13 x14 x18 x19 x20 x21 x22 x23
      = combine5 (Cert.ReferenceIdeal.Read.val_main_v119 (F := Ideal) x0 x1 x3 x4 x5 x6 x7 x8 x9 x10 x11 x21 x22 x23) x18 (shapeCast S1x64 x19 shapeCasts_S64_S1x64)
          (Cert.ReferenceIdeal.Read.val_main_v77 (F := Ideal) x0 x1 x3 x4 x5 x6 x7 x8 x12 x13 x14 x21 x22 x23) x20 := by
  funext i
  obtain ⟨p, q, rfl⟩ : ∃ (p : Fin 100000) (q : Fin 64), i = ix2 p q := ⟨i 0, i 1, eq_ix2 i⟩
  rw [combine5_ix2]
  unfold combineAt5
  rw [Cert.ReferenceIdeal.Read.val_main_v125_apply, Cert.ReferenceIdeal.Read.val_main_v123_apply,
    Cert.ReferenceIdeal.Read.val_main_v120_apply, Cert.ReferenceIdeal.Read.val_main_v124_apply, Cert.ReferenceIdeal.Read.val_main_v122_apply,
    Cert.ReferenceIdeal.Read.val_main_v121_apply, biasRow5_apply]
  have el : ∀ k : Fin 64, Cert.ReferenceIdeal.Read.lidx_main_v120 (ix2 p q) k = ix2 p k := fun k => funext fun a => Fin.ext (by
    match a with
    | ⟨0, _⟩ => rfl
    | ⟨1, _⟩ => rfl)
  have er : ∀ k : Fin 64, Cert.ReferenceIdeal.Read.ridx_main_v120 (ix2 p q) k = ix2 k q := fun k => funext fun a => Fin.ext (by
    match a with
    | ⟨0, _⟩ => rfl
    | ⟨1, _⟩ => rfl)
  have el' : ∀ k : Fin 64, Cert.ReferenceIdeal.Read.lidx_main_v124 (ix2 p q) k = ix2 p k := fun k => funext fun a => Fin.ext (by
    match a with
    | ⟨0, _⟩ => rfl
    | ⟨1, _⟩ => rfl)
  have er' : ∀ k : Fin 64, Cert.ReferenceIdeal.Read.ridx_main_v124 (ix2 p q) k = ix2 k q := fun k => funext fun a => Fin.ext (by
    match a with
    | ⟨0, _⟩ => rfl
    | ⟨1, _⟩ => rfl)
  have eb : Cert.ReferenceIdeal.Read.idx_main_v121 (Cert.ReferenceIdeal.Read.idx_main_v122 (ix2 p q)) = ix1 q := funext fun a => Fin.ext (by
    match a with
    | ⟨0, _⟩ => rfl)
  simp only [el, er, el', er', eb]
  rfl

end Reg5

/-- Region 5's output array, once every grid point has written its block back, is the reference's stage `val_main_v125`
    of the arguments, provided the arrays the region reads hold the corresponding reference stages. -/
theorem arr5_stage (V : (c : Dev nD) → (b : Ref sig .tc) → Buf (Elt Ideal) ((c : Thread nD τ).loc b)) (c : Dev nD)
    (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x18 : (⟨Cert.ReferenceIdeal.S64x64, .f32⟩ : BufTy).Contents (Elt Ideal)) (x19 : (⟨Cert.ReferenceIdeal.S64, .f32⟩ : BufTy).Contents (Elt Ideal)) (x20 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal))
    (h0 : V c main_v63 = Cert.ReferenceIdeal.Read.val_main_v119 (F := Ideal) x0 x1 x3 x4 x5 x6 x7 x8 x9 x10 x11 x21 x22 x23)
    (h1 : V c main_arg18 = x18)
    (h2 : V c main_v64 = shapeCast S1x64 x19 shapeCasts_S64_S1x64)
    (h3 : V c main_v37 = Cert.ReferenceIdeal.Read.val_main_v77 (F := Ideal) x0 x1 x3 x4 x5 x6 x7 x8 x12 x13 x14 x21 x22 x23)
    (h4 : V c main_arg20 = x20) :
    (Gen.dat5 (F := Ideal) V c).arrAt 5 cfg5.N = Cert.ReferenceIdeal.Read.val_main_v125 (F := Ideal) x0 x1 x3 x4 x5 x6 x7 x8 x9 x10 x11 x12 x13 x14 x18 x19 x20 x21 x22 x23 := by
  rw [Reg5.arr5_eq, h0, h1, h2, h3, h4]
  exact (Reg5.ref5_eq x0 x1 x3 x4 x5 x6 x7 x8 x9 x10 x11 x12 x13 x14 x18 x19 x20 x21 x22 x23).symm

end Cert.KernelIdeal.Sim

end
-- ==== Proof.Take.lean ====
/-
  A row lookup that masks out-of-range rows is the plain gather when every index is in range.
-/
import proofs.«420035_j53996328845374_1_alg».proof.Proof.Prelude

noncomputable section

namespace Cert.KernelIdeal.Sim

open Cert.KernelIdeal Cert.KernelIdeal.Gen Idealize.ShloMosaic Idealize.ShloMosaic.TcCoe Idealize.SL.Sem

/-- A left fold whose every step combines the fixed point with itself stays at the fixed point. -/
theorem foldl_fixed {α β : Type} (f : α → α → α) (e : α) (he : f e e = e) (g : β → α) (hg : ∀ b, g b = e)
    (l : List β) : l.foldl (fun r b => f r (g b)) e = e := by
  induction l with
  | nil => rfl
  | cons b l ih => rw [List.foldl_cons, hg b, he]; exact ih

/-- The conjunction along any axes of a mask that is one everywhere is one everywhere. -/
theorem reduce_andi_ones {s t u : Shape} {axes : List (Fin s.rank)} (x : IVec s 1) (hx : ∀ i, x i = 1#1)
    (h : s.ReducesTo axes t) (hu : 0 < u.numel) (j : t.Idx) :
    Host.reduce IntOp.andi x (constantI u 1 1#1) h hu j = 1#1 := by
  unfold Host.reduce
  exact foldl_fixed IntOp.andi 1#1 (by decide) (fun n => x (s.rowMajor.symm n)) (fun n => hx _) _

/-- A lane-wise choice whose condition is one everywhere is its first branch. -/
theorem select_of_ones {α : Type} {s : Shape} (c : IVec s 1) (hc : ∀ i, c i = 1#1) (a b : s.Idx → α) :
    select c a b = a := by
  funext i
  show (if c i = 1 then a i else b i) = a i
  exact if_pos (hc i)

/-- A word in [0, n) with n - 1 the signed value of `hi`: not negative, at least zero, at most `hi`. -/
theorem word_in_range {v hi : BitVec 32} {n : Int} (h : 0 ≤ v.toInt ∧ v.toInt < n) (hhi : hi.toInt = n - 1) :
    IntOp.cmpi .slt v 0#32 = 0#1 ∧ IntOp.cmpi .sge v 0#32 = 1#1 ∧ IntOp.cmpi .sle v hi = 1#1 := by
  have h0 : (0#32 : BitVec 32).toInt = 0 := by decide
  refine ⟨?_, ?_, ?_⟩
  · show BitVec.ofBool (v.slt 0#32) = 0#1
    have : v.slt 0#32 = false := by simp only [BitVec.slt, h0, decide_eq_false_iff_not]; omega
    rw [this]; rfl
  · show BitVec.ofBool ((0#32 : BitVec 32).sle v) = 1#1
    have : (0#32 : BitVec 32).sle v = true := by simp only [BitVec.sle, h0, decide_eq_true_eq]; omega
    rw [this]; rfl
  · show BitVec.ofBool (v.sle hi) = 1#1
    have : v.sle hi = true := by simp only [BitVec.sle, hhi, decide_eq_true_eq]; omega
    rw [this]; rfl

/-- THE MASKED ROW LOOKUP. The lookup wraps a negative index by the table's height, keeps the wrapped index as a column,
    tests it against [0, hi] and conjoins the test along the column's unit axis into a mask, gathers, and replaces the
    rows whose mask is clear by a filler. When every index lies in [0, n) and `hi` is n - 1 no index is wrapped, the
    mask is one everywhere and the result is the gather itself. Every shape, axis map and side proof is a parameter:
    `g` is the gathered array (whatever it is: its own term still contains the wrapped column) and `fill` the filler. -/
theorem take_eq {α : Type} {L L1 T R Sa Sb Sz S1 S11 Su : Shape} {axes : List (Fin L1.rank)}
    {d0 : Fin Sa.rank → Fin L.rank} {h0 : Sa.BroadcastsInDim L d0}
    {dn : Fin Sb.rank → Fin L.rank} {hn : Sb.BroadcastsInDim L dn}
    {dw : Fin L.rank → Fin L1.rank} {hw : L.BroadcastsInDim L1 dw}
    {dz : Fin Sz.rank → Fin L1.rank} {hz : Sz.BroadcastsInDim L1 dz}
    {dh1 : Fin S1.rank → Fin S11.rank} {hh1 : S1.BroadcastsInDim S11 dh1}
    {dh2 : Fin S11.rank → Fin L1.rank} {hh2 : S11.BroadcastsInDim L1 dh2}
    {hred : L1.ReducesTo axes T} {hu : 0 < Su.numel}
    {dR : Fin T.rank → Fin R.rank} {hR : T.BroadcastsInDim R dR}
    {idx : IVec L 32} {nw hi : BitVec 32} {n : Int}
    (hidx : ∀ i, 0 ≤ (idx i).toInt ∧ (idx i).toInt < n) (hhi : hi.toInt = n - 1)
    (g fill : R.Idx → α) :
    select (broadcastInDim R dR hR
        (Host.reduce IntOp.andi
          (andi
            (cmpi .sge
              (broadcastInDim L1 dw hw
                (select (cmpi .slt idx (broadcastInDim L d0 h0 (constantI Sa 32 0#32)))
                  (addi idx (broadcastInDim L dn hn (constantI Sb 32 nw))) idx))
              (broadcastInDim L1 dz hz (constantI Sz 32 0#32)))
            (cmpi .sle
              (broadcastInDim L1 dw hw
                (select (cmpi .slt idx (broadcastInDim L d0 h0 (constantI Sa 32 0#32)))
                  (addi idx (broadcastInDim L dn hn (constantI Sb 32 nw))) idx))
              (broadcastInDim L1 dh2 hh2 (broadcastInDim S11 dh1 hh1 (constantI S1 32 hi)))))
          (constantI Su 1 1#1) hred hu))
      g fill = g := by
  -- no index is wrapped
  have hsel : ∀ k : L.Idx,
      select (cmpi .slt idx (broadcastInDim L d0 h0 (constantI Sa 32 0#32)))
        (addi idx (broadcastInDim L dn hn (constantI Sb 32 nw))) idx k = idx k := by
    intro k
    show (if IntOp.cmpi .slt (idx k) 0#32 = 1 then _ else idx k) = idx k
    rw [(word_in_range (hidx k) hhi).1]
    exact if_neg (by decide)
  refine select_of_ones _ (fun r => ?_) g fill
  show Host.reduce IntOp.andi _ (constantI Su 1 1#1) hred hu _ = 1#1
  refine reduce_andi_ones _ (fun i => ?_) hred hu _
  -- the column at `i` is the index vector at the coordinate the column keeps
  show IntOp.andi (IntOp.cmpi .sge (select _ _ idx _) 0#32) (IntOp.cmpi .sle (select _ _ idx _) hi) = 1#1
  rw [hsel, (word_in_range (hidx _) hhi).2.1, (word_in_range (hidx _) hhi).2.2]
  decide

end Cert.KernelIdeal.Sim

end
-- ==== Proof.Phase0.lean ====
/-
  From the launch to region 0's entry: the two embedding-row lookups and the bias reshaped to a row.
-/
import proofs.«420035_j53996328845374_1_alg».proof.Proof.Prelude
import proofs.«420035_j53996328845374_1_alg».proof.Proof.Take

noncomputable section

namespace Cert.KernelIdeal.Sim

open Cert.KernelIdeal Cert.KernelIdeal.Gen Idealize.ShloMosaic Idealize.ShloMosaic.TcCoe Idealize.SL.Sem

/-- The rows of `emb_pd` the node ids pick: in range, the lookup's mask is all ones and the kernel's masked lookup is the reference's gather. -/
theorem W1_v0 (m : (ℓ : Loc nD τ sig) → Buf (Elt Ideal) ℓ) (ρ : Dev nD → PrngReg) (c : Dev nD)
    (hr : InRange m c) :
    W1 m ρ c (Proc.devRef .tc main_v0) = Cert.ReferenceIdeal.Read.val_main_v14 (F := Ideal) (A7 m c) (A21 m c) := by
  show StableHlo.after hostOps0 (W0 m ρ c) (Proc.devRef .tc main_v0) = _
  after_results_simp
  simp only [cast_eq]
  -- every node id is a row of the table: the mask is all ones and the masked lookup is the gather
  rw [take_eq (n := 100000)]
  · unfold Cert.ReferenceIdeal.Read.val_main_v14 Cert.ReferenceIdeal.Read.val_main_v13 Cert.ReferenceIdeal.Read.val_main_v12 Cert.ReferenceIdeal.Read.val_main_v11 Cert.ReferenceIdeal.Read.val_main_v10
      Cert.ReferenceIdeal.Read.val_main_v9 Cert.ReferenceIdeal.Read.val_main_v8 Cert.ReferenceIdeal.Read.val_main_c Cert.ReferenceIdeal.Read.val_main_c_0
    rfl
  · exact hr.nid_pd
  · decide

/-- The rows of `emb_se` the node ids pick, likewise. -/
theorem W2_v1 (m : (ℓ : Loc nD τ sig) → Buf (Elt Ideal) ℓ) (ρ : Dev nD → PrngReg) (c : Dev nD)
    (hr : InRange m c) :
    W2 m ρ c (Proc.devRef .tc main_v1) = Cert.ReferenceIdeal.Read.val_main_v26 (F := Ideal) (A8 m c) (A22 m c) := by
  show StableHlo.after hostOps0_1 (W1 m ρ c) (Proc.devRef .tc main_v1) = _
  after_results_simp
  simp only [cast_eq]
  rw [take_eq (n := 10000)]
  · unfold Cert.ReferenceIdeal.Read.val_main_v26 Cert.ReferenceIdeal.Read.val_main_v25 Cert.ReferenceIdeal.Read.val_main_v24 Cert.ReferenceIdeal.Read.val_main_v23 Cert.ReferenceIdeal.Read.val_main_v22
      Cert.ReferenceIdeal.Read.val_main_v21 Cert.ReferenceIdeal.Read.val_main_v20 Cert.ReferenceIdeal.Read.val_main_c_1 Cert.ReferenceIdeal.Read.val_main_c_2
    rfl
  · exact hr.nid_se
  · decide

/-- The first bias as a one-row matrix. -/
theorem W3_v2 (m : (ℓ : Loc nD τ sig) → Buf (Elt Ideal) ℓ) (ρ : Dev nD → PrngReg) (c : Dev nD) :
    W3 m ρ c (Proc.devRef .tc main_v2) = shapeCast S1x64 (A4 m c) shapeCasts_S64_S1x64 := by
  show StableHlo.after hostOps0_2 (W2 m ρ c) (Proc.devRef .tc main_v2) = _
  after_results
  rfl

/-- The second bias as a one-row matrix: the first region writes neither it nor its source. -/
theorem W5_v4 (m : (ℓ : Loc nD τ sig) → Buf (Elt Ideal) ℓ) (ρ : Dev nD → PrngReg) (c : Dev nD) :
    W5 m ρ c (Proc.devRef .tc main_v4) = shapeCast S1x64 (A6 m c) shapeCasts_S64_S1x64 := by
  have e : W4 m ρ c (Proc.devRef .tc main_arg6) = A6 m c := by walk_back; rfl
  show StableHlo.after hostOps1 (W4 m ρ c) (Proc.devRef .tc main_v4) = _
  after_results
  rw [e]
  rfl

end Cert.KernelIdeal.Sim

end
-- ==== Proof.SrcDst.lean ====
/-
  The message-passing edges' two endpoint vectors, sliced out of the edge table once and read by all four aggregation steps.
-/
import proofs.«420035_j53996328845374_1_alg».proof.Proof.Prelude

noncomputable section

namespace Cert.KernelIdeal.Sim

open Cert.KernelIdeal Cert.KernelIdeal.Gen Idealize.ShloMosaic Idealize.ShloMosaic.TcCoe Idealize.SL.Sem

/-- The source endpoints: row 0 of the edge table. -/
theorem W7_v7 (m : (ℓ : Loc nD τ sig) → Buf (Elt Ideal) ℓ) (ρ : Dev nD → PrngReg) (c : Dev nD) :
    W7 m ρ c (Proc.devRef .tc main_v7) = Cert.ReferenceIdeal.Read.val_main_v1 (F := Ideal) (A23 m c) := by
  show StableHlo.after hostOps2 (W6 m ρ c) (Proc.devRef .tc main_v7) = _
  after_results
  have e : W6 m ρ c (Proc.devRef .tc main_arg23) = A23 m c := by walk_back; rfl
  rw [e]
  unfold Cert.ReferenceIdeal.Read.val_main_v1 Cert.ReferenceIdeal.Read.val_main_v0
  rfl

/-- The destination endpoints: row 1 of the edge table. -/
theorem W7_v9 (m : (ℓ : Loc nD τ sig) → Buf (Elt Ideal) ℓ) (ρ : Dev nD → PrngReg) (c : Dev nD) :
    W7 m ρ c (Proc.devRef .tc main_v9) = Cert.ReferenceIdeal.Read.val_main_v3 (F := Ideal) (A23 m c) := by
  show StableHlo.after hostOps2 (W6 m ρ c) (Proc.devRef .tc main_v9) = _
  after_results
  have e : W6 m ρ c (Proc.devRef .tc main_arg23) = A23 m c := by walk_back; rfl
  rw [e]
  unfold Cert.ReferenceIdeal.Read.val_main_v3 Cert.ReferenceIdeal.Read.val_main_v2
  rfl

end Cert.KernelIdeal.Sim

end
-- ==== Proof.TakeHops.lean ====
/-
  The row lookups of the idealized kernel, each read as one term: twenty-three operations wrap an index vector, test it
  against the table's range, gather the table's rows and mask the rows whose index is out of range. What the result
  buffer holds after them is their composition on the index vector and the table as the stretch finds them, whatever
  else the buffers hold.
-/
import proofs.«420035_j53996328845374_1_alg».proof.Proof.Prelude

noncomputable section

namespace Cert.KernelIdeal.Sim

open Cert.KernelIdeal Cert.KernelIdeal.Gen Idealize.ShloMosaic Idealize.ShloMosaic.TcCoe Idealize.SL.Sem

namespace TakeHops

open Idealize.ShloMosaic.StableHlo

variable {τ : Topo} {sig : RefSig} {Val : EltTy → Type}

/-! ## One operation, read at a typed reference

Contents are carried at the value's type: a typed reference moves them to its buffer's own type and back, and the
two moves cancel. -/

theorem ofBuf_toBuf {T : BufTy} (x : StableHlo.TRef sig T) (v : T.Contents Val) : x.ofBuf (x.toBuf v) = v := by
  obtain ⟨r, rfl, h1, h2⟩ := x; rfl

theorem toBuf_ofBuf {T : BufTy} (x : StableHlo.TRef sig T) (w : x.ref.ty.Contents Val) : x.toBuf (x.ofBuf w) = w := by
  obtain ⟨r, rfl, h1, h2⟩ := x; rfl

section Steps
variable {Tx Ta Tb Tc Ty : BufTy}

/-- A constant's buffer holds the constant. -/
theorem nullary_at (y : StableHlo.TRef sig Ty) (v : Ty.Contents Val) (F : Valuation τ sig Val) :
    y.ofBuf ((StableHlo.TRef.nullary y v : HloOp τ sig Val).result F (Proc.devRef .tc y.ref)) = v :=
  (congrArg y.ofBuf (StableHlo.nullary_result y.ref (y.toBuf v) y.dev F)).trans (ofBuf_toBuf y v)
/-- Any other buffer keeps what it held. -/
theorem nullary_ne (y : StableHlo.TRef sig Ty) (v : Ty.Contents Val) (F : Valuation τ sig Val) {r : Ref sig .tc} (h : r ≠ y.ref) :
    (StableHlo.TRef.nullary y v : HloOp τ sig Val).result F (Proc.devRef .tc r) = F (Proc.devRef .tc r) :=
  StableHlo.nullary_result_ne y.ref (y.toBuf v) y.dev F h

/-- A one-operand operation's buffer holds the function of the operand's contents. -/
theorem unary_at (x : StableHlo.TRef sig Tx) (y : StableHlo.TRef sig Ty) (f : Tx.Contents Val → Ty.Contents Val) (F : Valuation τ sig Val) :
    y.ofBuf ((StableHlo.TRef.unary x y f : HloOp τ sig Val).result F (Proc.devRef .tc y.ref)) = f (x.ofBuf (F (Proc.devRef .tc x.ref))) :=
  (congrArg y.ofBuf (StableHlo.unary_result x.ref y.ref (fun u => y.toBuf (f (x.ofBuf u))) x.dev y.dev F)).trans (ofBuf_toBuf y _)
theorem unary_ne (x : StableHlo.TRef sig Tx) (y : StableHlo.TRef sig Ty) (f : Tx.Contents Val → Ty.Contents Val) (F : Valuation τ sig Val)
    {r : Ref sig .tc} (h : r ≠ y.ref) :
    (StableHlo.TRef.unary x y f : HloOp τ sig Val).result F (Proc.devRef .tc r) = F (Proc.devRef .tc r) :=
  StableHlo.unary_result_ne x.ref y.ref (fun u => y.toBuf (f (x.ofBuf u))) x.dev y.dev F h

/-- A two-operand operation's buffer holds the function of the operands' contents. -/
theorem binary_at (a : StableHlo.TRef sig Ta) (b : StableHlo.TRef sig Tb) (y : StableHlo.TRef sig Ty)
    (f : Ta.Contents Val → Tb.Contents Val → Ty.Contents Val) (F : Valuation τ sig Val) :
    y.ofBuf ((StableHlo.TRef.binary a b y f : HloOp τ sig Val).result F (Proc.devRef .tc y.ref))
      = f (a.ofBuf (F (Proc.devRef .tc a.ref))) (b.ofBuf (F (Proc.devRef .tc b.ref))) :=
  (congrArg y.ofBuf (StableHlo.binary_result a.ref b.ref y.ref (fun u v => y.toBuf (f (a.ofBuf u) (b.ofBuf v))) a.dev b.dev y.dev F)).trans
    (ofBuf_toBuf y _)
theorem binary_ne (a : StableHlo.TRef sig Ta) (b : StableHlo.TRef sig Tb) (y : StableHlo.TRef sig Ty)
    (f : Ta.Contents Val → Tb.Contents Val → Ty.Contents Val) (F : Valuation τ sig Val) {r : Ref sig .tc} (h : r ≠ y.ref) :
    (StableHlo.TRef.binary a b y f : HloOp τ sig Val).result F (Proc.devRef .tc r) = F (Proc.devRef .tc r) :=
  StableHlo.binary_result_ne a.ref b.ref y.ref (fun u v => y.toBuf (f (a.ofBuf u) (b.ofBuf v))) a.dev b.dev y.dev F h

/-- A three-operand operation's buffer holds the function of the operands' contents. -/
theorem ternary_at (c : StableHlo.TRef sig Tc) (a : StableHlo.TRef sig Ta) (b : StableHlo.TRef sig Tb) (y : StableHlo.TRef sig Ty)
    (f : Tc.Contents Val → Ta.Contents Val → Tb.Contents Val → Ty.Contents Val) (F : Valuation τ sig Val) :
    y.ofBuf ((StableHlo.TRef.ternary c a b y f : HloOp τ sig Val).result F (Proc.devRef .tc y.ref))
      = f (c.ofBuf (F (Proc.devRef .tc c.ref))) (a.ofBuf (F (Proc.devRef .tc a.ref))) (b.ofBuf (F (Proc.devRef .tc b.ref))) :=
  (congrArg y.ofBuf (StableHlo.ternary_result c.ref a.ref b.ref y.ref (fun w u v => y.toBuf (f (c.ofBuf w) (a.ofBuf u) (b.ofBuf v)))
    c.dev a.dev b.dev y.dev F)).trans (ofBuf_toBuf y _)
theorem ternary_ne (c : StableHlo.TRef sig Tc) (a : StableHlo.TRef sig Ta) (b : StableHlo.TRef sig Tb) (y : StableHlo.TRef sig Ty)
    (f : Tc.Contents Val → Ta.Contents Val → Tb.Contents Val → Ty.Contents Val) (F : Valuation τ sig Val) {r : Ref sig .tc} (h : r ≠ y.ref) :
    (StableHlo.TRef.ternary c a b y f : HloOp τ sig Val).result F (Proc.devRef .tc r) = F (Proc.devRef .tc r) :=
  StableHlo.ternary_result_ne a.ref b.ref c.ref y.ref (fun w u v => y.toBuf (f (c.ofBuf w) (a.ofBuf u) (b.ofBuf v))) c.dev a.dev b.dev y.dev F h

end Steps

/-! ## The row lookup's twenty-three operations as one term

The lookup wraps the index vector, makes it a column, tests the column against the table's range, conjoins the test
into a mask, gathers the table's rows at the column, and chooses lane by lane between the gathered rows and a filler.
Whatever the operations' functions are, the result buffer ends holding their composition on the index vector `I` and
the table `T` as they were (each named at its value's type, as is the result through `Z`), provided no operation's buffer is one a later operation still reads. Each step below names what
every buffer still to be read holds after it. -/

theorem stretch {Tc Ti Tm Tj Tk Tl Tn Tb Tt Tr Ts Tf : BufTy}
    (c : StableHlo.TRef sig Tc) (v0 : StableHlo.TRef sig Ti) (idx : StableHlo.TRef sig Ti) (v1 : StableHlo.TRef sig Tm) (c0 : StableHlo.TRef sig Tc) (v2 : StableHlo.TRef sig Ti) (v3 : StableHlo.TRef sig Ti) (v4 : StableHlo.TRef sig Ti) (v5 : StableHlo.TRef sig Tj) (c1 : StableHlo.TRef sig Tk) (c2 : StableHlo.TRef sig Tc) (v6 : StableHlo.TRef sig Tj) (v7 : StableHlo.TRef sig Tn) (v8 : StableHlo.TRef sig Tl) (v9 : StableHlo.TRef sig Tj) (v10 : StableHlo.TRef sig Tn) (v11 : StableHlo.TRef sig Tn) (c3 : StableHlo.TRef sig Tb) (v12 : StableHlo.TRef sig Tm) (tab : StableHlo.TRef sig Tt) (v13 : StableHlo.TRef sig Tr) (v14 : StableHlo.TRef sig Ts) (cst : StableHlo.TRef sig Tf) (v15 : StableHlo.TRef sig Tr) (out : StableHlo.TRef sig Tr)
    (k0 : Tc.Contents Val)
    (b0 : Tc.Contents Val → Ti.Contents Val)
    (flt : Ti.Contents Val → Ti.Contents Val → Tm.Contents Val)
    (kn : Tc.Contents Val)
    (b2 : Tc.Contents Val → Ti.Contents Val)
    (fadd : Ti.Contents Val → Ti.Contents Val → Ti.Contents Val)
    (fw : Tm.Contents Val → Ti.Contents Val → Ti.Contents Val → Ti.Contents Val)
    (f5 : Ti.Contents Val → Tj.Contents Val)
    (k1 : Tk.Contents Val)
    (k2 : Tc.Contents Val)
    (b6 : Tc.Contents Val → Tj.Contents Val)
    (fge : Tj.Contents Val → Tj.Contents Val → Tn.Contents Val)
    (b8 : Tk.Contents Val → Tl.Contents Val)
    (b9 : Tl.Contents Val → Tj.Contents Val)
    (fle : Tj.Contents Val → Tj.Contents Val → Tn.Contents Val)
    (fand : Tn.Contents Val → Tn.Contents Val → Tn.Contents Val)
    (k3 : Tb.Contents Val)
    (fred : Tn.Contents Val → Tb.Contents Val → Tm.Contents Val)
    (fgather : Tt.Contents Val → Tj.Contents Val → Tr.Contents Val)
    (f14 : Tm.Contents Val → Ts.Contents Val)
    (kc : Tf.Contents Val)
    (b15 : Tf.Contents Val → Tr.Contents Val)
    (fsel : Ts.Contents Val → Tr.Contents Val → Tr.Contents Val → Tr.Contents Val)
    (V : Valuation τ sig Val)
    (I : Ti.Contents Val) (hI : idx.ofBuf (V (Proc.devRef .tc idx.ref)) = I)
    (T : Tt.Contents Val) (hT : tab.ofBuf (V (Proc.devRef .tc tab.ref)) = T)
    (Z : Tr.Contents Val → out.ref.ty.Contents Val) (hZ : ∀ w, out.toBuf w = Z w)
    (hne : idx.ref ≠ c.ref ∧ tab.ref ≠ c.ref ∧ idx.ref ≠ v0.ref ∧ tab.ref ≠ v0.ref ∧ idx.ref ≠ v1.ref ∧ tab.ref ≠ v1.ref ∧ idx.ref ≠ c0.ref ∧ v1.ref ≠ c0.ref ∧ tab.ref ≠ c0.ref ∧ idx.ref ≠ v2.ref ∧ v1.ref ≠ v2.ref ∧ tab.ref ≠ v2.ref ∧ idx.ref ≠ v3.ref ∧ v1.ref ≠ v3.ref ∧ tab.ref ≠ v3.ref ∧ tab.ref ≠ v4.ref ∧ tab.ref ≠ v5.ref ∧ v5.ref ≠ c1.ref ∧ tab.ref ≠ c1.ref ∧ v5.ref ≠ c2.ref ∧ c1.ref ≠ c2.ref ∧ tab.ref ≠ c2.ref ∧ v5.ref ≠ v6.ref ∧ c1.ref ≠ v6.ref ∧ tab.ref ≠ v6.ref ∧ v5.ref ≠ v7.ref ∧ c1.ref ≠ v7.ref ∧ tab.ref ≠ v7.ref ∧ v5.ref ≠ v8.ref ∧ v7.ref ≠ v8.ref ∧ tab.ref ≠ v8.ref ∧ v5.ref ≠ v9.ref ∧ v7.ref ≠ v9.ref ∧ tab.ref ≠ v9.ref ∧ v5.ref ≠ v10.ref ∧ v7.ref ≠ v10.ref ∧ tab.ref ≠ v10.ref ∧ v5.ref ≠ v11.ref ∧ tab.ref ≠ v11.ref ∧ v5.ref ≠ c3.ref ∧ v11.ref ≠ c3.ref ∧ tab.ref ≠ c3.ref ∧ v5.ref ≠ v12.ref ∧ tab.ref ≠ v12.ref ∧ v12.ref ≠ v13.ref ∧ v13.ref ≠ v14.ref ∧ v14.ref ≠ cst.ref ∧ v13.ref ≠ cst.ref ∧ v14.ref ≠ v15.ref ∧ v13.ref ≠ v15.ref) :
    StableHlo.after [StableHlo.TRef.nullary c k0,
      StableHlo.TRef.unary c v0 b0,
      StableHlo.TRef.binary idx v0 v1 flt,
      StableHlo.TRef.nullary c0 kn,
      StableHlo.TRef.unary c0 v2 b2,
      StableHlo.TRef.binary idx v2 v3 fadd,
      StableHlo.TRef.ternary v1 v3 idx v4 fw,
      StableHlo.TRef.unary v4 v5 f5,
      StableHlo.TRef.nullary c1 k1,
      StableHlo.TRef.nullary c2 k2,
      StableHlo.TRef.unary c2 v6 b6,
      StableHlo.TRef.binary v5 v6 v7 fge,
      StableHlo.TRef.unary c1 v8 b8,
      StableHlo.TRef.unary v8 v9 b9,
      StableHlo.TRef.binary v5 v9 v10 fle,
      StableHlo.TRef.binary v7 v10 v11 fand,
      StableHlo.TRef.nullary c3 k3,
      StableHlo.TRef.binary v11 c3 v12 fred,
      StableHlo.TRef.binary tab v5 v13 fgather,
      StableHlo.TRef.unary v12 v14 f14,
      StableHlo.TRef.nullary cst kc,
      StableHlo.TRef.unary cst v15 b15,
      StableHlo.TRef.ternary v14 v13 v15 out fsel] V (Proc.devRef .tc out.ref)
      = Z (fsel (f14 (fred (fand (fge (f5 (fw (flt I (b0 k0)) (fadd I (b2 kn)) I)) (b6 k2)) (fle (f5 (fw (flt I (b0 k0)) (fadd I (b2 kn)) I)) (b9 (b8 k1)))) k3)) (fgather T (f5 (fw (flt I (b0 k0)) (fadd I (b2 kn)) I))) (b15 kc)) := by
  obtain ⟨h_idx_c, h_tab_c, h_idx_v0, h_tab_v0, h_idx_v1, h_tab_v1, h_idx_c0, h_v1_c0, h_tab_c0, h_idx_v2, h_v1_v2, h_tab_v2, h_idx_v3, h_v1_v3, h_tab_v3, h_tab_v4, h_tab_v5, h_v5_c1, h_tab_c1, h_v5_c2, h_c1_c2, h_tab_c2, h_v5_v6, h_c1_v6, h_tab_v6, h_v5_v7, h_c1_v7, h_tab_v7, h_v5_v8, h_v7_v8, h_tab_v8, h_v5_v9, h_v7_v9, h_tab_v9, h_v5_v10, h_v7_v10, h_tab_v10, h_v5_v11, h_tab_v11, h_v5_c3, h_v11_c3, h_tab_c3, h_v5_v12, h_tab_v12, h_v12_v13, h_v13_v14, h_v14_cst, h_v13_cst, h_v14_v15, h_v13_v15⟩ := hne
  -- operation 1: c
  rw [StableHlo.after_cons]
  have e1_c : c.ofBuf ((StableHlo.TRef.nullary c k0 : HloOp τ sig Val).result V (Proc.devRef .tc c.ref)) = k0 :=
    nullary_at c k0 V
  have e1_idx : idx.ofBuf ((StableHlo.TRef.nullary c k0 : HloOp τ sig Val).result V (Proc.devRef .tc idx.ref)) = I :=
    (congrArg idx.ofBuf (nullary_ne c k0 V h_idx_c)).trans hI
  have e1_tab : tab.ofBuf ((StableHlo.TRef.nullary c k0 : HloOp τ sig Val).result V (Proc.devRef .tc tab.ref)) = T :=
    (congrArg tab.ofBuf (nullary_ne c k0 V h_tab_c)).trans hT
  generalize (StableHlo.TRef.nullary c k0 : HloOp τ sig Val).result V = V1 at e1_c e1_idx e1_tab ⊢
  -- operation 2: v0
  rw [StableHlo.after_cons]
  have e2_v0 : v0.ofBuf ((StableHlo.TRef.unary c v0 b0 : HloOp τ sig Val).result V1 (Proc.devRef .tc v0.ref)) = (b0 k0) :=
    (unary_at c v0 b0 V1).trans (by rw [e1_c])
  have e2_idx : idx.ofBuf ((StableHlo.TRef.unary c v0 b0 : HloOp τ sig Val).result V1 (Proc.devRef .tc idx.ref)) = I :=
    (congrArg idx.ofBuf (unary_ne c v0 b0 V1 h_idx_v0)).trans e1_idx
  have e2_tab : tab.ofBuf ((StableHlo.TRef.unary c v0 b0 : HloOp τ sig Val).result V1 (Proc.devRef .tc tab.ref)) = T :=
    (congrArg tab.ofBuf (unary_ne c v0 b0 V1 h_tab_v0)).trans e1_tab
  generalize (StableHlo.TRef.unary c v0 b0 : HloOp τ sig Val).result V1 = V2 at e2_v0 e2_idx e2_tab ⊢
  -- operation 3: v1
  rw [StableHlo.after_cons]
  have e3_v1 : v1.ofBuf ((StableHlo.TRef.binary idx v0 v1 flt : HloOp τ sig Val).result V2 (Proc.devRef .tc v1.ref)) = (flt I (b0 k0)) :=
    (binary_at idx v0 v1 flt V2).trans (by rw [e2_idx, e2_v0])
  have e3_idx : idx.ofBuf ((StableHlo.TRef.binary idx v0 v1 flt : HloOp τ sig Val).result V2 (Proc.devRef .tc idx.ref)) = I :=
    (congrArg idx.ofBuf (binary_ne idx v0 v1 flt V2 h_idx_v1)).trans e2_idx
  have e3_tab : tab.ofBuf ((StableHlo.TRef.binary idx v0 v1 flt : HloOp τ sig Val).result V2 (Proc.devRef .tc tab.ref)) = T :=
    (congrArg tab.ofBuf (binary_ne idx v0 v1 flt V2 h_tab_v1)).trans e2_tab
  generalize (StableHlo.TRef.binary idx v0 v1 flt : HloOp τ sig Val).result V2 = V3 at e3_v1 e3_idx e3_tab ⊢
  -- operation 4: c0
  rw [StableHlo.after_cons]
  have e4_c0 : c0.ofBuf ((StableHlo.TRef.nullary c0 kn : HloOp τ sig Val).result V3 (Proc.devRef .tc c0.ref)) = kn :=
    nullary_at c0 kn V3
  have e4_v1 : v1.ofBuf ((StableHlo.TRef.nullary c0 kn : HloOp τ sig Val).result V3 (Proc.devRef .tc v1.ref)) = (flt I (b0 k0)) :=
    (congrArg v1.ofBuf (nullary_ne c0 kn V3 h_v1_c0)).trans e3_v1
  have e4_idx : idx.ofBuf ((StableHlo.TRef.nullary c0 kn : HloOp τ sig Val).result V3 (Proc.devRef .tc idx.ref)) = I :=
    (congrArg idx.ofBuf (nullary_ne c0 kn V3 h_idx_c0)).trans e3_idx
  have e4_tab : tab.ofBuf ((StableHlo.TRef.nullary c0 kn : HloOp τ sig Val).result V3 (Proc.devRef .tc tab.ref)) = T :=
    (congrArg tab.ofBuf (nullary_ne c0 kn V3 h_tab_c0)).trans e3_tab
  generalize (StableHlo.TRef.nullary c0 kn : HloOp τ sig Val).result V3 = V4 at e4_c0 e4_v1 e4_idx e4_tab ⊢
  -- operation 5: v2
  rw [StableHlo.after_cons]
  have e5_v2 : v2.ofBuf ((StableHlo.TRef.unary c0 v2 b2 : HloOp τ sig Val).result V4 (Proc.devRef .tc v2.ref)) = (b2 kn) :=
    (unary_at c0 v2 b2 V4).trans (by rw [e4_c0])
  have e5_v1 : v1.ofBuf ((StableHlo.TRef.unary c0 v2 b2 : HloOp τ sig Val).result V4 (Proc.devRef .tc v1.ref)) = (flt I (b0 k0)) :=
    (congrArg v1.ofBuf (unary_ne c0 v2 b2 V4 h_v1_v2)).trans e4_v1
  have e5_idx : idx.ofBuf ((StableHlo.TRef.unary c0 v2 b2 : HloOp τ sig Val).result V4 (Proc.devRef .tc idx.ref)) = I :=
    (congrArg idx.ofBuf (unary_ne c0 v2 b2 V4 h_idx_v2)).trans e4_idx
  have e5_tab : tab.ofBuf ((StableHlo.TRef.unary c0 v2 b2 : HloOp τ sig Val).result V4 (Proc.devRef .tc tab.ref)) = T :=
    (congrArg tab.ofBuf (unary_ne c0 v2 b2 V4 h_tab_v2)).trans e4_tab
  generalize (StableHlo.TRef.unary c0 v2 b2 : HloOp τ sig Val).result V4 = V5 at e5_v2 e5_v1 e5_idx e5_tab ⊢
  -- operation 6: v3
  rw [StableHlo.after_cons]
  have e6_v3 : v3.ofBuf ((StableHlo.TRef.binary idx v2 v3 fadd : HloOp τ sig Val).result V5 (Proc.devRef .tc v3.ref)) = (fadd I (b2 kn)) :=
    (binary_at idx v2 v3 fadd V5).trans (by rw [e5_idx, e5_v2])
  have e6_v1 : v1.ofBuf ((StableHlo.TRef.binary idx v2 v3 fadd : HloOp τ sig Val).result V5 (Proc.devRef .tc v1.ref)) = (flt I (b0 k0)) :=
    (congrArg v1.ofBuf (binary_ne idx v2 v3 fadd V5 h_v1_v3)).trans e5_v1
  have e6_idx : idx.ofBuf ((StableHlo.TRef.binary idx v2 v3 fadd : HloOp τ sig Val).result V5 (Proc.devRef .tc idx.ref)) = I :=
    (congrArg idx.ofBuf (binary_ne idx v2 v3 fadd V5 h_idx_v3)).trans e5_idx
  have e6_tab : tab.ofBuf ((StableHlo.TRef.binary idx v2 v3 fadd : HloOp τ sig Val).result V5 (Proc.devRef .tc tab.ref)) = T :=
    (congrArg tab.ofBuf (binary_ne idx v2 v3 fadd V5 h_tab_v3)).trans e5_tab
  generalize (StableHlo.TRef.binary idx v2 v3 fadd : HloOp τ sig Val).result V5 = V6 at e6_v3 e6_v1 e6_idx e6_tab ⊢
  -- operation 7: v4
  rw [StableHlo.after_cons]
  have e7_v4 : v4.ofBuf ((StableHlo.TRef.ternary v1 v3 idx v4 fw : HloOp τ sig Val).result V6 (Proc.devRef .tc v4.ref)) = (fw (flt I (b0 k0)) (fadd I (b2 kn)) I) :=
    (ternary_at v1 v3 idx v4 fw V6).trans (by rw [e6_v1, e6_v3, e6_idx])
  have e7_tab : tab.ofBuf ((StableHlo.TRef.ternary v1 v3 idx v4 fw : HloOp τ sig Val).result V6 (Proc.devRef .tc tab.ref)) = T :=
    (congrArg tab.ofBuf (ternary_ne v1 v3 idx v4 fw V6 h_tab_v4)).trans e6_tab
  generalize (StableHlo.TRef.ternary v1 v3 idx v4 fw : HloOp τ sig Val).result V6 = V7 at e7_v4 e7_tab ⊢
  -- operation 8: v5
  rw [StableHlo.after_cons]
  have e8_v5 : v5.ofBuf ((StableHlo.TRef.unary v4 v5 f5 : HloOp τ sig Val).result V7 (Proc.devRef .tc v5.ref)) = (f5 (fw (flt I (b0 k0)) (fadd I (b2 kn)) I)) :=
    (unary_at v4 v5 f5 V7).trans (by rw [e7_v4])
  have e8_tab : tab.ofBuf ((StableHlo.TRef.unary v4 v5 f5 : HloOp τ sig Val).result V7 (Proc.devRef .tc tab.ref)) = T :=
    (congrArg tab.ofBuf (unary_ne v4 v5 f5 V7 h_tab_v5)).trans e7_tab
  generalize (StableHlo.TRef.unary v4 v5 f5 : HloOp τ sig Val).result V7 = V8 at e8_v5 e8_tab ⊢
  -- operation 9: c1
  rw [StableHlo.after_cons]
  have e9_c1 : c1.ofBuf ((StableHlo.TRef.nullary c1 k1 : HloOp τ sig Val).result V8 (Proc.devRef .tc c1.ref)) = k1 :=
    nullary_at c1 k1 V8
  have e9_v5 : v5.ofBuf ((StableHlo.TRef.nullary c1 k1 : HloOp τ sig Val).result V8 (Proc.devRef .tc v5.ref)) = (f5 (fw (flt I (b0 k0)) (fadd I (b2 kn)) I)) :=
    (congrArg v5.ofBuf (nullary_ne c1 k1 V8 h_v5_c1)).trans e8_v5
  have e9_tab : tab.ofBuf ((StableHlo.TRef.nullary c1 k1 : HloOp τ sig Val).result V8 (Proc.devRef .tc tab.ref)) = T :=
    (congrArg tab.ofBuf (nullary_ne c1 k1 V8 h_tab_c1)).trans e8_tab
  generalize (StableHlo.TRef.nullary c1 k1 : HloOp τ sig Val).result V8 = V9 at e9_c1 e9_v5 e9_tab ⊢
  -- operation 10: c2
  rw [StableHlo.after_cons]
  have e10_c2 : c2.ofBuf ((StableHlo.TRef.nullary c2 k2 : HloOp τ sig Val).result V9 (Proc.devRef .tc c2.ref)) = k2 :=
    nullary_at c2 k2 V9
  have e10_c1 : c1.ofBuf ((StableHlo.TRef.nullary c2 k2 : HloOp τ sig Val).result V9 (Proc.devRef .tc c1.ref)) = k1 :=
    (congrArg c1.ofBuf (nullary_ne c2 k2 V9 h_c1_c2)).trans e9_c1
  have e10_v5 : v5.ofBuf ((StableHlo.TRef.nullary c2 k2 : HloOp τ sig Val).result V9 (Proc.devRef .tc v5.ref)) = (f5 (fw (flt I (b0 k0)) (fadd I (b2 kn)) I)) :=
    (congrArg v5.ofBuf (nullary_ne c2 k2 V9 h_v5_c2)).trans e9_v5
  have e10_tab : tab.ofBuf ((StableHlo.TRef.nullary c2 k2 : HloOp τ sig Val).result V9 (Proc.devRef .tc tab.ref)) = T :=
    (congrArg tab.ofBuf (nullary_ne c2 k2 V9 h_tab_c2)).trans e9_tab
  generalize (StableHlo.TRef.nullary c2 k2 : HloOp τ sig Val).result V9 = V10 at e10_c2 e10_c1 e10_v5 e10_tab ⊢
  -- operation 11: v6
  rw [StableHlo.after_cons]
  have e11_v6 : v6.ofBuf ((StableHlo.TRef.unary c2 v6 b6 : HloOp τ sig Val).result V10 (Proc.devRef .tc v6.ref)) = (b6 k2) :=
    (unary_at c2 v6 b6 V10).trans (by rw [e10_c2])
  have e11_c1 : c1.ofBuf ((StableHlo.TRef.unary c2 v6 b6 : HloOp τ sig Val).result V10 (Proc.devRef .tc c1.ref)) = k1 :=
    (congrArg c1.ofBuf (unary_ne c2 v6 b6 V10 h_c1_v6)).trans e10_c1
  have e11_v5 : v5.ofBuf ((StableHlo.TRef.unary c2 v6 b6 : HloOp τ sig Val).result V10 (Proc.devRef .tc v5.ref)) = (f5 (fw (flt I (b0 k0)) (fadd I (b2 kn)) I)) :=
    (congrArg v5.ofBuf (unary_ne c2 v6 b6 V10 h_v5_v6)).trans e10_v5
  have e11_tab : tab.ofBuf ((StableHlo.TRef.unary c2 v6 b6 : HloOp τ sig Val).result V10 (Proc.devRef .tc tab.ref)) = T :=
    (congrArg tab.ofBuf (unary_ne c2 v6 b6 V10 h_tab_v6)).trans e10_tab
  generalize (StableHlo.TRef.unary c2 v6 b6 : HloOp τ sig Val).result V10 = V11 at e11_v6 e11_c1 e11_v5 e11_tab ⊢
  -- operation 12: v7
  rw [StableHlo.after_cons]
  have e12_v7 : v7.ofBuf ((StableHlo.TRef.binary v5 v6 v7 fge : HloOp τ sig Val).result V11 (Proc.devRef .tc v7.ref)) = (fge (f5 (fw (flt I (b0 k0)) (fadd I (b2 kn)) I)) (b6 k2)) :=
    (binary_at v5 v6 v7 fge V11).trans (by rw [e11_v5, e11_v6])
  have e12_c1 : c1.ofBuf ((StableHlo.TRef.binary v5 v6 v7 fge : HloOp τ sig Val).result V11 (Proc.devRef .tc c1.ref)) = k1 :=
    (congrArg c1.ofBuf (binary_ne v5 v6 v7 fge V11 h_c1_v7)).trans e11_c1
  have e12_v5 : v5.ofBuf ((StableHlo.TRef.binary v5 v6 v7 fge : HloOp τ sig Val).result V11 (Proc.devRef .tc v5.ref)) = (f5 (fw (flt I (b0 k0)) (fadd I (b2 kn)) I)) :=
    (congrArg v5.ofBuf (binary_ne v5 v6 v7 fge V11 h_v5_v7)).trans e11_v5
  have e12_tab : tab.ofBuf ((StableHlo.TRef.binary v5 v6 v7 fge : HloOp τ sig Val).result V11 (Proc.devRef .tc tab.ref)) = T :=
    (congrArg tab.ofBuf (binary_ne v5 v6 v7 fge V11 h_tab_v7)).trans e11_tab
  generalize (StableHlo.TRef.binary v5 v6 v7 fge : HloOp τ sig Val).result V11 = V12 at e12_v7 e12_c1 e12_v5 e12_tab ⊢
  -- operation 13: v8
  rw [StableHlo.after_cons]
  have e13_v8 : v8.ofBuf ((StableHlo.TRef.unary c1 v8 b8 : HloOp τ sig Val).result V12 (Proc.devRef .tc v8.ref)) = (b8 k1) :=
    (unary_at c1 v8 b8 V12).trans (by rw [e12_c1])
  have e13_v7 : v7.ofBuf ((StableHlo.TRef.unary c1 v8 b8 : HloOp τ sig Val).result V12 (Proc.devRef .tc v7.ref)) = (fge (f5 (fw (flt I (b0 k0)) (fadd I (b2 kn)) I)) (b6 k2)) :=
    (congrArg v7.ofBuf (unary_ne c1 v8 b8 V12 h_v7_v8)).trans e12_v7
  have e13_v5 : v5.ofBuf ((StableHlo.TRef.unary c1 v8 b8 : HloOp τ sig Val).result V12 (Proc.devRef .tc v5.ref)) = (f5 (fw (flt I (b0 k0)) (fadd I (b2 kn)) I)) :=
    (congrArg v5.ofBuf (unary_ne c1 v8 b8 V12 h_v5_v8)).trans e12_v5
  have e13_tab : tab.ofBuf ((StableHlo.TRef.unary c1 v8 b8 : HloOp τ sig Val).result V12 (Proc.devRef .tc tab.ref)) = T :=
    (congrArg tab.ofBuf (unary_ne c1 v8 b8 V12 h_tab_v8)).trans e12_tab
  generalize (StableHlo.TRef.unary c1 v8 b8 : HloOp τ sig Val).result V12 = V13 at e13_v8 e13_v7 e13_v5 e13_tab ⊢
  -- operation 14: v9
  rw [StableHlo.after_cons]
  have e14_v9 : v9.ofBuf ((StableHlo.TRef.unary v8 v9 b9 : HloOp τ sig Val).result V13 (Proc.devRef .tc v9.ref)) = (b9 (b8 k1)) :=
    (unary_at v8 v9 b9 V13).trans (by rw [e13_v8])
  have e14_v7 : v7.ofBuf ((StableHlo.TRef.unary v8 v9 b9 : HloOp τ sig Val).result V13 (Proc.devRef .tc v7.ref)) = (fge (f5 (fw (flt I (b0 k0)) (fadd I (b2 kn)) I)) (b6 k2)) :=
    (congrArg v7.ofBuf (unary_ne v8 v9 b9 V13 h_v7_v9)).trans e13_v7
  have e14_v5 : v5.ofBuf ((StableHlo.TRef.unary v8 v9 b9 : HloOp τ sig Val).result V13 (Proc.devRef .tc v5.ref)) = (f5 (fw (flt I (b0 k0)) (fadd I (b2 kn)) I)) :=
    (congrArg v5.ofBuf (unary_ne v8 v9 b9 V13 h_v5_v9)).trans e13_v5
  have e14_tab : tab.ofBuf ((StableHlo.TRef.unary v8 v9 b9 : HloOp τ sig Val).result V13 (Proc.devRef .tc tab.ref)) = T :=
    (congrArg tab.ofBuf (unary_ne v8 v9 b9 V13 h_tab_v9)).trans e13_tab
  generalize (StableHlo.TRef.unary v8 v9 b9 : HloOp τ sig Val).result V13 = V14 at e14_v9 e14_v7 e14_v5 e14_tab ⊢
  -- operation 15: v10
  rw [StableHlo.after_cons]
  have e15_v10 : v10.ofBuf ((StableHlo.TRef.binary v5 v9 v10 fle : HloOp τ sig Val).result V14 (Proc.devRef .tc v10.ref)) = (fle (f5 (fw (flt I (b0 k0)) (fadd I (b2 kn)) I)) (b9 (b8 k1))) :=
    (binary_at v5 v9 v10 fle V14).trans (by rw [e14_v5, e14_v9])
  have e15_v7 : v7.ofBuf ((StableHlo.TRef.binary v5 v9 v10 fle : HloOp τ sig Val).result V14 (Proc.devRef .tc v7.ref)) = (fge (f5 (fw (flt I (b0 k0)) (fadd I (b2 kn)) I)) (b6 k2)) :=
    (congrArg v7.ofBuf (binary_ne v5 v9 v10 fle V14 h_v7_v10)).trans e14_v7
  have e15_v5 : v5.ofBuf ((StableHlo.TRef.binary v5 v9 v10 fle : HloOp τ sig Val).result V14 (Proc.devRef .tc v5.ref)) = (f5 (fw (flt I (b0 k0)) (fadd I (b2 kn)) I)) :=
    (congrArg v5.ofBuf (binary_ne v5 v9 v10 fle V14 h_v5_v10)).trans e14_v5
  have e15_tab : tab.ofBuf ((StableHlo.TRef.binary v5 v9 v10 fle : HloOp τ sig Val).result V14 (Proc.devRef .tc tab.ref)) = T :=
    (congrArg tab.ofBuf (binary_ne v5 v9 v10 fle V14 h_tab_v10)).trans e14_tab
  generalize (StableHlo.TRef.binary v5 v9 v10 fle : HloOp τ sig Val).result V14 = V15 at e15_v10 e15_v7 e15_v5 e15_tab ⊢
  -- operation 16: v11
  rw [StableHlo.after_cons]
  have e16_v11 : v11.ofBuf ((StableHlo.TRef.binary v7 v10 v11 fand : HloOp τ sig Val).result V15 (Proc.devRef .tc v11.ref)) = (fand (fge (f5 (fw (flt I (b0 k0)) (fadd I (b2 kn)) I)) (b6 k2)) (fle (f5 (fw (flt I (b0 k0)) (fadd I (b2 kn)) I)) (b9 (b8 k1)))) :=
    (binary_at v7 v10 v11 fand V15).trans (by rw [e15_v7, e15_v10])
  have e16_v5 : v5.ofBuf ((StableHlo.TRef.binary v7 v10 v11 fand : HloOp τ sig Val).result V15 (Proc.devRef .tc v5.ref)) = (f5 (fw (flt I (b0 k0)) (fadd I (b2 kn)) I)) :=
    (congrArg v5.ofBuf (binary_ne v7 v10 v11 fand V15 h_v5_v11)).trans e15_v5
  have e16_tab : tab.ofBuf ((StableHlo.TRef.binary v7 v10 v11 fand : HloOp τ sig Val).result V15 (Proc.devRef .tc tab.ref)) = T :=
    (congrArg tab.ofBuf (binary_ne v7 v10 v11 fand V15 h_tab_v11)).trans e15_tab
  generalize (StableHlo.TRef.binary v7 v10 v11 fand : HloOp τ sig Val).result V15 = V16 at e16_v11 e16_v5 e16_tab ⊢
  -- operation 17: c3
  rw [StableHlo.after_cons]
  have e17_c3 : c3.ofBuf ((StableHlo.TRef.nullary c3 k3 : HloOp τ sig Val).result V16 (Proc.devRef .tc c3.ref)) = k3 :=
    nullary_at c3 k3 V16
  have e17_v11 : v11.ofBuf ((StableHlo.TRef.nullary c3 k3 : HloOp τ sig Val).result V16 (Proc.devRef .tc v11.ref)) = (fand (fge (f5 (fw (flt I (b0 k0)) (fadd I (b2 kn)) I)) (b6 k2)) (fle (f5 (fw (flt I (b0 k0)) (fadd I (b2 kn)) I)) (b9 (b8 k1)))) :=
    (congrArg v11.ofBuf (nullary_ne c3 k3 V16 h_v11_c3)).trans e16_v11
  have e17_v5 : v5.ofBuf ((StableHlo.TRef.nullary c3 k3 : HloOp τ sig Val).result V16 (Proc.devRef .tc v5.ref)) = (f5 (fw (flt I (b0 k0)) (fadd I (b2 kn)) I)) :=
    (congrArg v5.ofBuf (nullary_ne c3 k3 V16 h_v5_c3)).trans e16_v5
  have e17_tab : tab.ofBuf ((StableHlo.TRef.nullary c3 k3 : HloOp τ sig Val).result V16 (Proc.devRef .tc tab.ref)) = T :=
    (congrArg tab.ofBuf (nullary_ne c3 k3 V16 h_tab_c3)).trans e16_tab
  generalize (StableHlo.TRef.nullary c3 k3 : HloOp τ sig Val).result V16 = V17 at e17_c3 e17_v11 e17_v5 e17_tab ⊢
  -- operation 18: v12
  rw [StableHlo.after_cons]
  have e18_v12 : v12.ofBuf ((StableHlo.TRef.binary v11 c3 v12 fred : HloOp τ sig Val).result V17 (Proc.devRef .tc v12.ref)) = (fred (fand (fge (f5 (fw (flt I (b0 k0)) (fadd I (b2 kn)) I)) (b6 k2)) (fle (f5 (fw (flt I (b0 k0)) (fadd I (b2 kn)) I)) (b9 (b8 k1)))) k3) :=
    (binary_at v11 c3 v12 fred V17).trans (by rw [e17_v11, e17_c3])
  have e18_v5 : v5.ofBuf ((StableHlo.TRef.binary v11 c3 v12 fred : HloOp τ sig Val).result V17 (Proc.devRef .tc v5.ref)) = (f5 (fw (flt I (b0 k0)) (fadd I (b2 kn)) I)) :=
    (congrArg v5.ofBuf (binary_ne v11 c3 v12 fred V17 h_v5_v12)).trans e17_v5
  have e18_tab : tab.ofBuf ((StableHlo.TRef.binary v11 c3 v12 fred : HloOp τ sig Val).result V17 (Proc.devRef .tc tab.ref)) = T :=
    (congrArg tab.ofBuf (binary_ne v11 c3 v12 fred V17 h_tab_v12)).trans e17_tab
  generalize (StableHlo.TRef.binary v11 c3 v12 fred : HloOp τ sig Val).result V17 = V18 at e18_v12 e18_v5 e18_tab ⊢
  -- operation 19: v13
  rw [StableHlo.after_cons]
  have e19_v13 : v13.ofBuf ((StableHlo.TRef.binary tab v5 v13 fgather : HloOp τ sig Val).result V18 (Proc.devRef .tc v13.ref)) = (fgather T (f5 (fw (flt I (b0 k0)) (fadd I (b2 kn)) I))) :=
    (binary_at tab v5 v13 fgather V18).trans (by rw [e18_tab, e18_v5])
  have e19_v12 : v12.ofBuf ((StableHlo.TRef.binary tab v5 v13 fgather : HloOp τ sig Val).result V18 (Proc.devRef .tc v12.ref)) = (fred (fand (fge (f5 (fw (flt I (b0 k0)) (fadd I (b2 kn)) I)) (b6 k2)) (fle (f5 (fw (flt I (b0 k0)) (fadd I (b2 kn)) I)) (b9 (b8 k1)))) k3) :=
    (congrArg v12.ofBuf (binary_ne tab v5 v13 fgather V18 h_v12_v13)).trans e18_v12
  generalize (StableHlo.TRef.binary tab v5 v13 fgather : HloOp τ sig Val).result V18 = V19 at e19_v13 e19_v12 ⊢
  -- operation 20: v14
  rw [StableHlo.after_cons]
  have e20_v14 : v14.ofBuf ((StableHlo.TRef.unary v12 v14 f14 : HloOp τ sig Val).result V19 (Proc.devRef .tc v14.ref)) = (f14 (fred (fand (fge (f5 (fw (flt I (b0 k0)) (fadd I (b2 kn)) I)) (b6 k2)) (fle (f5 (fw (flt I (b0 k0)) (fadd I (b2 kn)) I)) (b9 (b8 k1)))) k3)) :=
    (unary_at v12 v14 f14 V19).trans (by rw [e19_v12])
  have e20_v13 : v13.ofBuf ((StableHlo.TRef.unary v12 v14 f14 : HloOp τ sig Val).result V19 (Proc.devRef .tc v13.ref)) = (fgather T (f5 (fw (flt I (b0 k0)) (fadd I (b2 kn)) I))) :=
    (congrArg v13.ofBuf (unary_ne v12 v14 f14 V19 h_v13_v14)).trans e19_v13
  generalize (StableHlo.TRef.unary v12 v14 f14 : HloOp τ sig Val).result V19 = V20 at e20_v14 e20_v13 ⊢
  -- operation 21: cst
  rw [StableHlo.after_cons]
  have e21_cst : cst.ofBuf ((StableHlo.TRef.nullary cst kc : HloOp τ sig Val).result V20 (Proc.devRef .tc cst.ref)) = kc :=
    nullary_at cst kc V20
  have e21_v14 : v14.ofBuf ((StableHlo.TRef.nullary cst kc : HloOp τ sig Val).result V20 (Proc.devRef .tc v14.ref)) = (f14 (fred (fand (fge (f5 (fw (flt I (b0 k0)) (fadd I (b2 kn)) I)) (b6 k2)) (fle (f5 (fw (flt I (b0 k0)) (fadd I (b2 kn)) I)) (b9 (b8 k1)))) k3)) :=
    (congrArg v14.ofBuf (nullary_ne cst kc V20 h_v14_cst)).trans e20_v14
  have e21_v13 : v13.ofBuf ((StableHlo.TRef.nullary cst kc : HloOp τ sig Val).result V20 (Proc.devRef .tc v13.ref)) = (fgather T (f5 (fw (flt I (b0 k0)) (fadd I (b2 kn)) I))) :=
    (congrArg v13.ofBuf (nullary_ne cst kc V20 h_v13_cst)).trans e20_v13
  generalize (StableHlo.TRef.nullary cst kc : HloOp τ sig Val).result V20 = V21 at e21_cst e21_v14 e21_v13 ⊢
  -- operation 22: v15
  rw [StableHlo.after_cons]
  have e22_v15 : v15.ofBuf ((StableHlo.TRef.unary cst v15 b15 : HloOp τ sig Val).result V21 (Proc.devRef .tc v15.ref)) = (b15 kc) :=
    (unary_at cst v15 b15 V21).trans (by rw [e21_cst])
  have e22_v14 : v14.ofBuf ((StableHlo.TRef.unary cst v15 b15 : HloOp τ sig Val).result V21 (Proc.devRef .tc v14.ref)) = (f14 (fred (fand (fge (f5 (fw (flt I (b0 k0)) (fadd I (b2 kn)) I)) (b6 k2)) (fle (f5 (fw (flt I (b0 k0)) (fadd I (b2 kn)) I)) (b9 (b8 k1)))) k3)) :=
    (congrArg v14.ofBuf (unary_ne cst v15 b15 V21 h_v14_v15)).trans e21_v14
  have e22_v13 : v13.ofBuf ((StableHlo.TRef.unary cst v15 b15 : HloOp τ sig Val).result V21 (Proc.devRef .tc v13.ref)) = (fgather T (f5 (fw (flt I (b0 k0)) (fadd I (b2 kn)) I))) :=
    (congrArg v13.ofBuf (unary_ne cst v15 b15 V21 h_v13_v15)).trans e21_v13
  generalize (StableHlo.TRef.unary cst v15 b15 : HloOp τ sig Val).result V21 = V22 at e22_v15 e22_v14 e22_v13 ⊢
  -- operation 23: out
  rw [StableHlo.after_cons]
  have e23_out : out.ofBuf ((StableHlo.TRef.ternary v14 v13 v15 out fsel : HloOp τ sig Val).result V22 (Proc.devRef .tc out.ref)) = (fsel (f14 (fred (fand (fge (f5 (fw (flt I (b0 k0)) (fadd I (b2 kn)) I)) (b6 k2)) (fle (f5 (fw (flt I (b0 k0)) (fadd I (b2 kn)) I)) (b9 (b8 k1)))) k3)) (fgather T (f5 (fw (flt I (b0 k0)) (fadd I (b2 kn)) I))) (b15 kc)) :=
    (ternary_at v14 v13 v15 out fsel V22).trans (by rw [e22_v14, e22_v13, e22_v15])
  generalize (StableHlo.TRef.ternary v14 v13 v15 out fsel : HloOp τ sig Val).result V22 = V23 at e23_out ⊢
  rw [StableHlo.after_nil, ← hZ, ← e23_out, toBuf_ofBuf]

end TakeHops

/-! ## The eight lookups

Each is the abstract lookup at the stretch's own buffers, shapes and functions; the buffers are pairwise distinct by
computation, and a buffer's contents at a literal reference are already at the value's type. -/

set_option maxRecDepth 8192 in
/-- The row lookup that writes `main_v0`: rows of `main_arg7` at the indices `main_arg21`, as one term of the two buffers' contents. -/
theorem hop_v0 (V : Valuation τ sig (Elt Ideal)) :
    StableHlo.after (hostOps0 (F := Ideal)) V (Proc.devRef .tc main_v0)
      = select (broadcastInDim S100000x64 ![0] bcast_S100000_S100000x64_0 (Host.reduce IntOp.andi (andi (cmpi .sge (broadcastInDim S100000x1 ![0] bcast_S100000_S100000x1_0 (select (cmpi .slt (V (Proc.devRef .tc main_arg21) : IVec S100000 32) (broadcastInDim S100000 ![] bcast_S_S100000 (constantI S_ 32 0#32))) (addi (V (Proc.devRef .tc main_arg21) : IVec S100000 32) (broadcastInDim S100000 ![] bcast_S_S100000 (constantI S_ 32 100000#32))) (V (Proc.devRef .tc main_arg21) : IVec S100000 32))) (broadcastInDim S100000x1 ![] bcast_S_S100000x1 (constantI S_ 32 0#32))) (cmpi .sle (broadcastInDim S100000x1 ![0] bcast_S100000_S100000x1_0 (select (cmpi .slt (V (Proc.devRef .tc main_arg21) : IVec S100000 32) (broadcastInDim S100000 ![] bcast_S_S100000 (constantI S_ 32 0#32))) (addi (V (Proc.devRef .tc main_arg21) : IVec S100000 32) (broadcastInDim S100000 ![] bcast_S_S100000 (constantI S_ 32 100000#32))) (V (Proc.devRef .tc main_arg21) : IVec S100000 32))) (broadcastInDim S100000x1 ![0, 1] bcast_S1x1_S100000x1_0_1 (broadcastInDim S1x1 ![1] bcast_S1_S1x1_1 (constantI S1 32 99999#32))))) (constantI S_ 1 1#1) reducesTo_S100000x1_S100000_d1 h_S_)) (Host.gather gather_S100000x64_S100000x1_S100000x64_1_0_n_n_0_1_164 (V (Proc.devRef .tc main_arg7) : FVec Ideal S100000x64 .f32) (broadcastInDim S100000x1 ![0] bcast_S100000_S100000x1_0 (select (cmpi .slt (V (Proc.devRef .tc main_arg21) : IVec S100000 32) (broadcastInDim S100000 ![] bcast_S_S100000 (constantI S_ 32 0#32))) (addi (V (Proc.devRef .tc main_arg21) : IVec S100000 32) (broadcastInDim S100000 ![] bcast_S_S100000 (constantI S_ 32 100000#32))) (V (Proc.devRef .tc main_arg21) : IVec S100000 32)))) (broadcastInDim S100000x64 ![] bcast_S_S100000x64 (constant (F := Ideal) S_ .f32 0x7FC00000#32)) := by
  refine TakeHops.stretch (Val := Elt Ideal) (Tc := ⟨S_, .i32⟩) (Ti := ⟨S100000, .i32⟩) (Tm := ⟨S100000, .i1⟩) (Tj := ⟨S100000x1, .i32⟩) (Tk := ⟨S1, .i32⟩) (Tl := ⟨S1x1, .i32⟩) (Tn := ⟨S100000x1, .i1⟩) (Tb := ⟨S_, .i1⟩) (Tt := ⟨S100000x64, .f32⟩) (Tr := ⟨S100000x64, .f32⟩) (Ts := ⟨S100000x64, .i1⟩) (Tf := ⟨S_, .f32⟩)
      (c := .of main_call0_c) (v0 := .of main_call0_v0) (idx := .of main_arg21) (v1 := .of main_call0_v1) (c0 := .of main_call0_c_0) (v2 := .of main_call0_v2) (v3 := .of main_call0_v3) (v4 := .of main_call0_v4) (v5 := .of main_call0_v5) (c1 := .of main_call0_c_1) (c2 := .of main_call0_c_2) (v6 := .of main_call0_v6) (v7 := .of main_call0_v7) (v8 := .of main_call0_v8) (v9 := .of main_call0_v9) (v10 := .of main_call0_v10) (v11 := .of main_call0_v11) (c3 := .of main_call0_c_3) (v12 := .of main_call0_v12) (tab := .of main_arg7) (v13 := .of main_call0_v13) (v14 := .of main_call0_v14) (cst := .of main_call0_cst) (v15 := .of main_call0_v15) (out := .of main_v0)
      (k0 := constantI S_ 32 0#32)
      (b0 := broadcastInDim S100000 ![] bcast_S_S100000)
      (flt := cmpi .slt)
      (kn := constantI S_ 32 100000#32)
      (b2 := broadcastInDim S100000 ![] bcast_S_S100000)
      (fadd := addi)
      (fw := select)
      (f5 := broadcastInDim S100000x1 ![0] bcast_S100000_S100000x1_0)
      (k1 := constantI S1 32 99999#32)
      (k2 := constantI S_ 32 0#32)
      (b6 := broadcastInDim S100000x1 ![] bcast_S_S100000x1)
      (fge := cmpi .sge)
      (b8 := broadcastInDim S1x1 ![1] bcast_S1_S1x1_1)
      (b9 := broadcastInDim S100000x1 ![0, 1] bcast_S1x1_S100000x1_0_1)
      (fle := cmpi .sle)
      (fand := andi)
      (k3 := constantI S_ 1 1#1)
      (fred := fun x v => Host.reduce IntOp.andi x v reducesTo_S100000x1_S100000_d1 h_S_)
      (fgather := fun x i => Host.gather gather_S100000x64_S100000x1_S100000x64_1_0_n_n_0_1_164 x i)
      (f14 := broadcastInDim S100000x64 ![0] bcast_S100000_S100000x64_0)
      (kc := constant (F := Ideal) S_ .f32 0x7FC00000#32)
      (b15 := broadcastInDim S100000x64 ![] bcast_S_S100000x64)
      (fsel := select)
      V (I := V (Proc.devRef .tc main_arg21)) (hI := rfl) (T := V (Proc.devRef .tc main_arg7)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

set_option maxRecDepth 8192 in
/-- The row lookup that writes `main_v1`: rows of `main_arg8` at the indices `main_arg22`, as one term of the two buffers' contents. -/
theorem hop_v1 (V : Valuation τ sig (Elt Ideal)) :
    StableHlo.after (hostOps0_1 (F := Ideal)) V (Proc.devRef .tc main_v1)
      = select (broadcastInDim S10000x64 ![0] bcast_S10000_S10000x64_0 (Host.reduce IntOp.andi (andi (cmpi .sge (broadcastInDim S10000x1 ![0] bcast_S10000_S10000x1_0 (select (cmpi .slt (V (Proc.devRef .tc main_arg22) : IVec S10000 32) (broadcastInDim S10000 ![] bcast_S_S10000 (constantI S_ 32 0#32))) (addi (V (Proc.devRef .tc main_arg22) : IVec S10000 32) (broadcastInDim S10000 ![] bcast_S_S10000 (constantI S_ 32 10000#32))) (V (Proc.devRef .tc main_arg22) : IVec S10000 32))) (broadcastInDim S10000x1 ![] bcast_S_S10000x1 (constantI S_ 32 0#32))) (cmpi .sle (broadcastInDim S10000x1 ![0] bcast_S10000_S10000x1_0 (select (cmpi .slt (V (Proc.devRef .tc main_arg22) : IVec S10000 32) (broadcastInDim S10000 ![] bcast_S_S10000 (constantI S_ 32 0#32))) (addi (V (Proc.devRef .tc main_arg22) : IVec S10000 32) (broadcastInDim S10000 ![] bcast_S_S10000 (constantI S_ 32 10000#32))) (V (Proc.devRef .tc main_arg22) : IVec S10000 32))) (broadcastInDim S10000x1 ![0, 1] bcast_S1x1_S10000x1_0_1 (broadcastInDim S1x1 ![1] bcast_S1_S1x1_1 (constantI S1 32 9999#32))))) (constantI S_ 1 1#1) reducesTo_S10000x1_S10000_d1 h_S_)) (Host.gather gather_S10000x64_S10000x1_S10000x64_1_0_n_n_0_1_164 (V (Proc.devRef .tc main_arg8) : FVec Ideal S10000x64 .f32) (broadcastInDim S10000x1 ![0] bcast_S10000_S10000x1_0 (select (cmpi .slt (V (Proc.devRef .tc main_arg22) : IVec S10000 32) (broadcastInDim S10000 ![] bcast_S_S10000 (constantI S_ 32 0#32))) (addi (V (Proc.devRef .tc main_arg22) : IVec S10000 32) (broadcastInDim S10000 ![] bcast_S_S10000 (constantI S_ 32 10000#32))) (V (Proc.devRef .tc main_arg22) : IVec S10000 32)))) (broadcastInDim S10000x64 ![] bcast_S_S10000x64 (constant (F := Ideal) S_ .f32 0x7FC00000#32)) := by
  refine TakeHops.stretch (Val := Elt Ideal) (Tc := ⟨S_, .i32⟩) (Ti := ⟨S10000, .i32⟩) (Tm := ⟨S10000, .i1⟩) (Tj := ⟨S10000x1, .i32⟩) (Tk := ⟨S1, .i32⟩) (Tl := ⟨S1x1, .i32⟩) (Tn := ⟨S10000x1, .i1⟩) (Tb := ⟨S_, .i1⟩) (Tt := ⟨S10000x64, .f32⟩) (Tr := ⟨S10000x64, .f32⟩) (Ts := ⟨S10000x64, .i1⟩) (Tf := ⟨S_, .f32⟩)
      (c := .of main_call1_c) (v0 := .of main_call1_v0) (idx := .of main_arg22) (v1 := .of main_call1_v1) (c0 := .of main_call1_c_0) (v2 := .of main_call1_v2) (v3 := .of main_call1_v3) (v4 := .of main_call1_v4) (v5 := .of main_call1_v5) (c1 := .of main_call1_c_1) (c2 := .of main_call1_c_2) (v6 := .of main_call1_v6) (v7 := .of main_call1_v7) (v8 := .of main_call1_v8) (v9 := .of main_call1_v9) (v10 := .of main_call1_v10) (v11 := .of main_call1_v11) (c3 := .of main_call1_c_3) (v12 := .of main_call1_v12) (tab := .of main_arg8) (v13 := .of main_call1_v13) (v14 := .of main_call1_v14) (cst := .of main_call1_cst) (v15 := .of main_call1_v15) (out := .of main_v1)
      (k0 := constantI S_ 32 0#32)
      (b0 := broadcastInDim S10000 ![] bcast_S_S10000)
      (flt := cmpi .slt)
      (kn := constantI S_ 32 10000#32)
      (b2 := broadcastInDim S10000 ![] bcast_S_S10000)
      (fadd := addi)
      (fw := select)
      (f5 := broadcastInDim S10000x1 ![0] bcast_S10000_S10000x1_0)
      (k1 := constantI S1 32 9999#32)
      (k2 := constantI S_ 32 0#32)
      (b6 := broadcastInDim S10000x1 ![] bcast_S_S10000x1)
      (fge := cmpi .sge)
      (b8 := broadcastInDim S1x1 ![1] bcast_S1_S1x1_1)
      (b9 := broadcastInDim S10000x1 ![0, 1] bcast_S1x1_S10000x1_0_1)
      (fle := cmpi .sle)
      (fand := andi)
      (k3 := constantI S_ 1 1#1)
      (fred := fun x v => Host.reduce IntOp.andi x v reducesTo_S10000x1_S10000_d1 h_S_)
      (fgather := fun x i => Host.gather gather_S10000x64_S10000x1_S10000x64_1_0_n_n_0_1_164 x i)
      (f14 := broadcastInDim S10000x64 ![0] bcast_S10000_S10000x64_0)
      (kc := constant (F := Ideal) S_ .f32 0x7FC00000#32)
      (b15 := broadcastInDim S10000x64 ![] bcast_S_S10000x64)
      (fsel := select)
      V (I := V (Proc.devRef .tc main_arg22)) (hI := rfl) (T := V (Proc.devRef .tc main_arg8)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

set_option maxRecDepth 8192 in
/-- The row lookup that writes `main_v10`: rows of `main_v3` at the indices `main_v7`, as one term of the two buffers' contents. -/
theorem hop_v10 (V : Valuation τ sig (Elt Ideal)) :
    StableHlo.after (hostOps2_1 (F := Ideal)) V (Proc.devRef .tc main_v10)
      = select (broadcastInDim S1600000x64 ![0] bcast_S1600000_S1600000x64_0 (Host.reduce IntOp.andi (andi (cmpi .sge (broadcastInDim S1600000x1 ![0] bcast_S1600000_S1600000x1_0 (select (cmpi .slt (V (Proc.devRef .tc main_v7) : IVec S1600000 32) (broadcastInDim S1600000 ![] bcast_S_S1600000 (constantI S_ 32 0#32))) (addi (V (Proc.devRef .tc main_v7) : IVec S1600000 32) (broadcastInDim S1600000 ![] bcast_S_S1600000 (constantI S_ 32 100000#32))) (V (Proc.devRef .tc main_v7) : IVec S1600000 32))) (broadcastInDim S1600000x1 ![] bcast_S_S1600000x1 (constantI S_ 32 0#32))) (cmpi .sle (broadcastInDim S1600000x1 ![0] bcast_S1600000_S1600000x1_0 (select (cmpi .slt (V (Proc.devRef .tc main_v7) : IVec S1600000 32) (broadcastInDim S1600000 ![] bcast_S_S1600000 (constantI S_ 32 0#32))) (addi (V (Proc.devRef .tc main_v7) : IVec S1600000 32) (broadcastInDim S1600000 ![] bcast_S_S1600000 (constantI S_ 32 100000#32))) (V (Proc.devRef .tc main_v7) : IVec S1600000 32))) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_)) (Host.gather gather_S100000x64_S1600000x1_S1600000x64_1_0_n_n_0_1_164 (V (Proc.devRef .tc main_v3) : FVec Ideal S100000x64 .f32) (broadcastInDim S1600000x1 ![0] bcast_S1600000_S1600000x1_0 (select (cmpi .slt (V (Proc.devRef .tc main_v7) : IVec S1600000 32) (broadcastInDim S1600000 ![] bcast_S_S1600000 (constantI S_ 32 0#32))) (addi (V (Proc.devRef .tc main_v7) : IVec S1600000 32) (broadcastInDim S1600000 ![] bcast_S_S1600000 (constantI S_ 32 100000#32))) (V (Proc.devRef .tc main_v7) : IVec S1600000 32)))) (broadcastInDim S1600000x64 ![] bcast_S_S1600000x64 (constant (F := Ideal) S_ .f32 0x7FC00000#32)) := by
  refine TakeHops.stretch (Val := Elt Ideal) (Tc := ⟨S_, .i32⟩) (Ti := ⟨S1600000, .i32⟩) (Tm := ⟨S1600000, .i1⟩) (Tj := ⟨S1600000x1, .i32⟩) (Tk := ⟨S1, .i32⟩) (Tl := ⟨S1x1, .i32⟩) (Tn := ⟨S1600000x1, .i1⟩) (Tb := ⟨S_, .i1⟩) (Tt := ⟨S100000x64, .f32⟩) (Tr := ⟨S1600000x64, .f32⟩) (Ts := ⟨S1600000x64, .i1⟩) (Tf := ⟨S_, .f32⟩)
      (c := .of main_call2_c) (v0 := .of main_call2_v0) (idx := .of main_v7) (v1 := .of main_call2_v1) (c0 := .of main_call2_c_0) (v2 := .of main_call2_v2) (v3 := .of main_call2_v3) (v4 := .of main_call2_v4) (v5 := .of main_call2_v5) (c1 := .of main_call2_c_1) (c2 := .of main_call2_c_2) (v6 := .of main_call2_v6) (v7 := .of main_call2_v7) (v8 := .of main_call2_v8) (v9 := .of main_call2_v9) (v10 := .of main_call2_v10) (v11 := .of main_call2_v11) (c3 := .of main_call2_c_3) (v12 := .of main_call2_v12) (tab := .of main_v3) (v13 := .of main_call2_v13) (v14 := .of main_call2_v14) (cst := .of main_call2_cst) (v15 := .of main_call2_v15) (out := .of main_v10)
      (k0 := constantI S_ 32 0#32)
      (b0 := broadcastInDim S1600000 ![] bcast_S_S1600000)
      (flt := cmpi .slt)
      (kn := constantI S_ 32 100000#32)
      (b2 := broadcastInDim S1600000 ![] bcast_S_S1600000)
      (fadd := addi)
      (fw := select)
      (f5 := broadcastInDim S1600000x1 ![0] bcast_S1600000_S1600000x1_0)
      (k1 := constantI S1 32 99999#32)
      (k2 := constantI S_ 32 0#32)
      (b6 := broadcastInDim S1600000x1 ![] bcast_S_S1600000x1)
      (fge := cmpi .sge)
      (b8 := broadcastInDim S1x1 ![1] bcast_S1_S1x1_1)
      (b9 := broadcastInDim S1600000x1 ![0, 1] bcast_S1x1_S1600000x1_0_1)
      (fle := cmpi .sle)
      (fand := andi)
      (k3 := constantI S_ 1 1#1)
      (fred := fun x v => Host.reduce IntOp.andi x v reducesTo_S1600000x1_S1600000_d1 h_S_)
      (fgather := fun x i => Host.gather gather_S100000x64_S1600000x1_S1600000x64_1_0_n_n_0_1_164 x i)
      (f14 := broadcastInDim S1600000x64 ![0] bcast_S1600000_S1600000x64_0)
      (kc := constant (F := Ideal) S_ .f32 0x7FC00000#32)
      (b15 := broadcastInDim S1600000x64 ![] bcast_S_S1600000x64)
      (fsel := select)
      V (I := V (Proc.devRef .tc main_v7)) (hI := rfl) (T := V (Proc.devRef .tc main_v3)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

set_option maxRecDepth 8192 in
/-- The row lookup that writes `main_v24`: rows of `main_v5` at the indices `main_v9`, as one term of the two buffers' contents. -/
theorem hop_v24 (V : Valuation τ sig (Elt Ideal)) :
    StableHlo.after (hostOps3 (F := Ideal)) V (Proc.devRef .tc main_v24)
      = select (broadcastInDim S1600000x64 ![0] bcast_S1600000_S1600000x64_0 (Host.reduce IntOp.andi (andi (cmpi .sge (broadcastInDim S1600000x1 ![0] bcast_S1600000_S1600000x1_0 (select (cmpi .slt (V (Proc.devRef .tc main_v9) : IVec S1600000 32) (broadcastInDim S1600000 ![] bcast_S_S1600000 (constantI S_ 32 0#32))) (addi (V (Proc.devRef .tc main_v9) : IVec S1600000 32) (broadcastInDim S1600000 ![] bcast_S_S1600000 (constantI S_ 32 10000#32))) (V (Proc.devRef .tc main_v9) : IVec S1600000 32))) (broadcastInDim S1600000x1 ![] bcast_S_S1600000x1 (constantI S_ 32 0#32))) (cmpi .sle (broadcastInDim S1600000x1 ![0] bcast_S1600000_S1600000x1_0 (select (cmpi .slt (V (Proc.devRef .tc main_v9) : IVec S1600000 32) (broadcastInDim S1600000 ![] bcast_S_S1600000 (constantI S_ 32 0#32))) (addi (V (Proc.devRef .tc main_v9) : IVec S1600000 32) (broadcastInDim S1600000 ![] bcast_S_S1600000 (constantI S_ 32 10000#32))) (V (Proc.devRef .tc main_v9) : IVec S1600000 32))) (broadcastInDim S1600000x1 ![0, 1] bcast_S1x1_S1600000x1_0_1 (broadcastInDim S1x1 ![1] bcast_S1_S1x1_1 (constantI S1 32 9999#32))))) (constantI S_ 1 1#1) reducesTo_S1600000x1_S1600000_d1 h_S_)) (Host.gather gather_S10000x64_S1600000x1_S1600000x64_1_0_n_n_0_1_164 (V (Proc.devRef .tc main_v5) : FVec Ideal S10000x64 .f32) (broadcastInDim S1600000x1 ![0] bcast_S1600000_S1600000x1_0 (select (cmpi .slt (V (Proc.devRef .tc main_v9) : IVec S1600000 32) (broadcastInDim S1600000 ![] bcast_S_S1600000 (constantI S_ 32 0#32))) (addi (V (Proc.devRef .tc main_v9) : IVec S1600000 32) (broadcastInDim S1600000 ![] bcast_S_S1600000 (constantI S_ 32 10000#32))) (V (Proc.devRef .tc main_v9) : IVec S1600000 32)))) (broadcastInDim S1600000x64 ![] bcast_S_S1600000x64 (constant (F := Ideal) S_ .f32 0x7FC00000#32)) := by
  refine TakeHops.stretch (Val := Elt Ideal) (Tc := ⟨S_, .i32⟩) (Ti := ⟨S1600000, .i32⟩) (Tm := ⟨S1600000, .i1⟩) (Tj := ⟨S1600000x1, .i32⟩) (Tk := ⟨S1, .i32⟩) (Tl := ⟨S1x1, .i32⟩) (Tn := ⟨S1600000x1, .i1⟩) (Tb := ⟨S_, .i1⟩) (Tt := ⟨S10000x64, .f32⟩) (Tr := ⟨S1600000x64, .f32⟩) (Ts := ⟨S1600000x64, .i1⟩) (Tf := ⟨S_, .f32⟩)
      (c := .of main_call4_c) (v0 := .of main_call4_v0) (idx := .of main_v9) (v1 := .of main_call4_v1) (c0 := .of main_call4_c_0) (v2 := .of main_call4_v2) (v3 := .of main_call4_v3) (v4 := .of main_call4_v4) (v5 := .of main_call4_v5) (c1 := .of main_call4_c_1) (c2 := .of main_call4_c_2) (v6 := .of main_call4_v6) (v7 := .of main_call4_v7) (v8 := .of main_call4_v8) (v9 := .of main_call4_v9) (v10 := .of main_call4_v10) (v11 := .of main_call4_v11) (c3 := .of main_call4_c_3) (v12 := .of main_call4_v12) (tab := .of main_v5) (v13 := .of main_call4_v13) (v14 := .of main_call4_v14) (cst := .of main_call4_cst) (v15 := .of main_call4_v15) (out := .of main_v24)
      (k0 := constantI S_ 32 0#32)
      (b0 := broadcastInDim S1600000 ![] bcast_S_S1600000)
      (flt := cmpi .slt)
      (kn := constantI S_ 32 10000#32)
      (b2 := broadcastInDim S1600000 ![] bcast_S_S1600000)
      (fadd := addi)
      (fw := select)
      (f5 := broadcastInDim S1600000x1 ![0] bcast_S1600000_S1600000x1_0)
      (k1 := constantI S1 32 9999#32)
      (k2 := constantI S_ 32 0#32)
      (b6 := broadcastInDim S1600000x1 ![] bcast_S_S1600000x1)
      (fge := cmpi .sge)
      (b8 := broadcastInDim S1x1 ![1] bcast_S1_S1x1_1)
      (b9 := broadcastInDim S1600000x1 ![0, 1] bcast_S1x1_S1600000x1_0_1)
      (fle := cmpi .sle)
      (fand := andi)
      (k3 := constantI S_ 1 1#1)
      (fred := fun x v => Host.reduce IntOp.andi x v reducesTo_S1600000x1_S1600000_d1 h_S_)
      (fgather := fun x i => Host.gather gather_S10000x64_S1600000x1_S1600000x64_1_0_n_n_0_1_164 x i)
      (f14 := broadcastInDim S1600000x64 ![0] bcast_S1600000_S1600000x64_0)
      (kc := constant (F := Ideal) S_ .f32 0x7FC00000#32)
      (b15 := broadcastInDim S1600000x64 ![] bcast_S_S1600000x64)
      (fsel := select)
      V (I := V (Proc.devRef .tc main_v9)) (hI := rfl) (T := V (Proc.devRef .tc main_v5)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

set_option maxRecDepth 8192 in
/-- The row lookup that writes `main_v38`: rows of `main_v37` at the indices `main_v7`, as one term of the two buffers' contents. -/
theorem hop_v38 (V : Valuation τ sig (Elt Ideal)) :
    StableHlo.after (hostOps4 (F := Ideal)) V (Proc.devRef .tc main_v38)
      = select (broadcastInDim S1600000x64 ![0] bcast_S1600000_S1600000x64_0 (Host.reduce IntOp.andi (andi (cmpi .sge (broadcastInDim S1600000x1 ![0] bcast_S1600000_S1600000x1_0 (select (cmpi .slt (V (Proc.devRef .tc main_v7) : IVec S1600000 32) (broadcastInDim S1600000 ![] bcast_S_S1600000 (constantI S_ 32 0#32))) (addi (V (Proc.devRef .tc main_v7) : IVec S1600000 32) (broadcastInDim S1600000 ![] bcast_S_S1600000 (constantI S_ 32 100000#32))) (V (Proc.devRef .tc main_v7) : IVec S1600000 32))) (broadcastInDim S1600000x1 ![] bcast_S_S1600000x1 (constantI S_ 32 0#32))) (cmpi .sle (broadcastInDim S1600000x1 ![0] bcast_S1600000_S1600000x1_0 (select (cmpi .slt (V (Proc.devRef .tc main_v7) : IVec S1600000 32) (broadcastInDim S1600000 ![] bcast_S_S1600000 (constantI S_ 32 0#32))) (addi (V (Proc.devRef .tc main_v7) : IVec S1600000 32) (broadcastInDim S1600000 ![] bcast_S_S1600000 (constantI S_ 32 100000#32))) (V (Proc.devRef .tc main_v7) : IVec S1600000 32))) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_)) (Host.gather gather_S100000x64_S1600000x1_S1600000x64_1_0_n_n_0_1_164 (V (Proc.devRef .tc main_v37) : FVec Ideal S100000x64 .f32) (broadcastInDim S1600000x1 ![0] bcast_S1600000_S1600000x1_0 (select (cmpi .slt (V (Proc.devRef .tc main_v7) : IVec S1600000 32) (broadcastInDim S1600000 ![] bcast_S_S1600000 (constantI S_ 32 0#32))) (addi (V (Proc.devRef .tc main_v7) : IVec S1600000 32) (broadcastInDim S1600000 ![] bcast_S_S1600000 (constantI S_ 32 100000#32))) (V (Proc.devRef .tc main_v7) : IVec S1600000 32)))) (broadcastInDim S1600000x64 ![] bcast_S_S1600000x64 (constant (F := Ideal) S_ .f32 0x7FC00000#32)) := by
  refine TakeHops.stretch (Val := Elt Ideal) (Tc := ⟨S_, .i32⟩) (Ti := ⟨S1600000, .i32⟩) (Tm := ⟨S1600000, .i1⟩) (Tj := ⟨S1600000x1, .i32⟩) (Tk := ⟨S1, .i32⟩) (Tl := ⟨S1x1, .i32⟩) (Tn := ⟨S1600000x1, .i1⟩) (Tb := ⟨S_, .i1⟩) (Tt := ⟨S100000x64, .f32⟩) (Tr := ⟨S1600000x64, .f32⟩) (Ts := ⟨S1600000x64, .i1⟩) (Tf := ⟨S_, .f32⟩)
      (c := .of main_call6_c) (v0 := .of main_call6_v0) (idx := .of main_v7) (v1 := .of main_call6_v1) (c0 := .of main_call6_c_0) (v2 := .of main_call6_v2) (v3 := .of main_call6_v3) (v4 := .of main_call6_v4) (v5 := .of main_call6_v5) (c1 := .of main_call6_c_1) (c2 := .of main_call6_c_2) (v6 := .of main_call6_v6) (v7 := .of main_call6_v7) (v8 := .of main_call6_v8) (v9 := .of main_call6_v9) (v10 := .of main_call6_v10) (v11 := .of main_call6_v11) (c3 := .of main_call6_c_3) (v12 := .of main_call6_v12) (tab := .of main_v37) (v13 := .of main_call6_v13) (v14 := .of main_call6_v14) (cst := .of main_call6_cst) (v15 := .of main_call6_v15) (out := .of main_v38)
      (k0 := constantI S_ 32 0#32)
      (b0 := broadcastInDim S1600000 ![] bcast_S_S1600000)
      (flt := cmpi .slt)
      (kn := constantI S_ 32 100000#32)
      (b2 := broadcastInDim S1600000 ![] bcast_S_S1600000)
      (fadd := addi)
      (fw := select)
      (f5 := broadcastInDim S1600000x1 ![0] bcast_S1600000_S1600000x1_0)
      (k1 := constantI S1 32 99999#32)
      (k2 := constantI S_ 32 0#32)
      (b6 := broadcastInDim S1600000x1 ![] bcast_S_S1600000x1)
      (fge := cmpi .sge)
      (b8 := broadcastInDim S1x1 ![1] bcast_S1_S1x1_1)
      (b9 := broadcastInDim S1600000x1 ![0, 1] bcast_S1x1_S1600000x1_0_1)
      (fle := cmpi .sle)
      (fand := andi)
      (k3 := constantI S_ 1 1#1)
      (fred := fun x v => Host.reduce IntOp.andi x v reducesTo_S1600000x1_S1600000_d1 h_S_)
      (fgather := fun x i => Host.gather gather_S100000x64_S1600000x1_S1600000x64_1_0_n_n_0_1_164 x i)
      (f14 := broadcastInDim S1600000x64 ![0] bcast_S1600000_S1600000x64_0)
      (kc := constant (F := Ideal) S_ .f32 0x7FC00000#32)
      (b15 := broadcastInDim S1600000x64 ![] bcast_S_S1600000x64)
      (fsel := select)
      V (I := V (Proc.devRef .tc main_v7)) (hI := rfl) (T := V (Proc.devRef .tc main_v37)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

set_option maxRecDepth 8192 in
/-- The row lookup that writes `main_v52`: rows of `main_v23` at the indices `main_v9`, as one term of the two buffers' contents. -/
theorem hop_v52 (V : Valuation τ sig (Elt Ideal)) :
    StableHlo.after (hostOps5 (F := Ideal)) V (Proc.devRef .tc main_v52)
      = select (broadcastInDim S1600000x64 ![0] bcast_S1600000_S1600000x64_0 (Host.reduce IntOp.andi (andi (cmpi .sge (broadcastInDim S1600000x1 ![0] bcast_S1600000_S1600000x1_0 (select (cmpi .slt (V (Proc.devRef .tc main_v9) : IVec S1600000 32) (broadcastInDim S1600000 ![] bcast_S_S1600000 (constantI S_ 32 0#32))) (addi (V (Proc.devRef .tc main_v9) : IVec S1600000 32) (broadcastInDim S1600000 ![] bcast_S_S1600000 (constantI S_ 32 10000#32))) (V (Proc.devRef .tc main_v9) : IVec S1600000 32))) (broadcastInDim S1600000x1 ![] bcast_S_S1600000x1 (constantI S_ 32 0#32))) (cmpi .sle (broadcastInDim S1600000x1 ![0] bcast_S1600000_S1600000x1_0 (select (cmpi .slt (V (Proc.devRef .tc main_v9) : IVec S1600000 32) (broadcastInDim S1600000 ![] bcast_S_S1600000 (constantI S_ 32 0#32))) (addi (V (Proc.devRef .tc main_v9) : IVec S1600000 32) (broadcastInDim S1600000 ![] bcast_S_S1600000 (constantI S_ 32 10000#32))) (V (Proc.devRef .tc main_v9) : IVec S1600000 32))) (broadcastInDim S1600000x1 ![0, 1] bcast_S1x1_S1600000x1_0_1 (broadcastInDim S1x1 ![1] bcast_S1_S1x1_1 (constantI S1 32 9999#32))))) (constantI S_ 1 1#1) reducesTo_S1600000x1_S1600000_d1 h_S_)) (Host.gather gather_S10000x64_S1600000x1_S1600000x64_1_0_n_n_0_1_164 (V (Proc.devRef .tc main_v23) : FVec Ideal S10000x64 .f32) (broadcastInDim S1600000x1 ![0] bcast_S1600000_S1600000x1_0 (select (cmpi .slt (V (Proc.devRef .tc main_v9) : IVec S1600000 32) (broadcastInDim S1600000 ![] bcast_S_S1600000 (constantI S_ 32 0#32))) (addi (V (Proc.devRef .tc main_v9) : IVec S1600000 32) (broadcastInDim S1600000 ![] bcast_S_S1600000 (constantI S_ 32 10000#32))) (V (Proc.devRef .tc main_v9) : IVec S1600000 32)))) (broadcastInDim S1600000x64 ![] bcast_S_S1600000x64 (constant (F := Ideal) S_ .f32 0x7FC00000#32)) := by
  refine TakeHops.stretch (Val := Elt Ideal) (Tc := ⟨S_, .i32⟩) (Ti := ⟨S1600000, .i32⟩) (Tm := ⟨S1600000, .i1⟩) (Tj := ⟨S1600000x1, .i32⟩) (Tk := ⟨S1, .i32⟩) (Tl := ⟨S1x1, .i32⟩) (Tn := ⟨S1600000x1, .i1⟩) (Tb := ⟨S_, .i1⟩) (Tt := ⟨S10000x64, .f32⟩) (Tr := ⟨S1600000x64, .f32⟩) (Ts := ⟨S1600000x64, .i1⟩) (Tf := ⟨S_, .f32⟩)
      (c := .of main_call8_c) (v0 := .of main_call8_v0) (idx := .of main_v9) (v1 := .of main_call8_v1) (c0 := .of main_call8_c_0) (v2 := .of main_call8_v2) (v3 := .of main_call8_v3) (v4 := .of main_call8_v4) (v5 := .of main_call8_v5) (c1 := .of main_call8_c_1) (c2 := .of main_call8_c_2) (v6 := .of main_call8_v6) (v7 := .of main_call8_v7) (v8 := .of main_call8_v8) (v9 := .of main_call8_v9) (v10 := .of main_call8_v10) (v11 := .of main_call8_v11) (c3 := .of main_call8_c_3) (v12 := .of main_call8_v12) (tab := .of main_v23) (v13 := .of main_call8_v13) (v14 := .of main_call8_v14) (cst := .of main_call8_cst) (v15 := .of main_call8_v15) (out := .of main_v52)
      (k0 := constantI S_ 32 0#32)
      (b0 := broadcastInDim S1600000 ![] bcast_S_S1600000)
      (flt := cmpi .slt)
      (kn := constantI S_ 32 10000#32)
      (b2 := broadcastInDim S1600000 ![] bcast_S_S1600000)
      (fadd := addi)
      (fw := select)
      (f5 := broadcastInDim S1600000x1 ![0] bcast_S1600000_S1600000x1_0)
      (k1 := constantI S1 32 9999#32)
      (k2 := constantI S_ 32 0#32)
      (b6 := broadcastInDim S1600000x1 ![] bcast_S_S1600000x1)
      (fge := cmpi .sge)
      (b8 := broadcastInDim S1x1 ![1] bcast_S1_S1x1_1)
      (b9 := broadcastInDim S1600000x1 ![0, 1] bcast_S1x1_S1600000x1_0_1)
      (fle := cmpi .sle)
      (fand := andi)
      (k3 := constantI S_ 1 1#1)
      (fred := fun x v => Host.reduce IntOp.andi x v reducesTo_S1600000x1_S1600000_d1 h_S_)
      (fgather := fun x i => Host.gather gather_S10000x64_S1600000x1_S1600000x64_1_0_n_n_0_1_164 x i)
      (f14 := broadcastInDim S1600000x64 ![0] bcast_S1600000_S1600000x64_0)
      (kc := constant (F := Ideal) S_ .f32 0x7FC00000#32)
      (b15 := broadcastInDim S1600000x64 ![] bcast_S_S1600000x64)
      (fsel := select)
      V (I := V (Proc.devRef .tc main_v9)) (hI := rfl) (T := V (Proc.devRef .tc main_v23)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

set_option maxRecDepth 8192 in
/-- The row lookup that writes `main_v70`: rows of `main_v65` at the indices `main_v67`, as one term of the two buffers' contents. -/
theorem hop_v70 (V : Valuation τ sig (Elt Ideal)) :
    StableHlo.after (hostOps6_1 (F := Ideal)) V (Proc.devRef .tc main_v70)
      = select (broadcastInDim S1000000x64 ![0] bcast_S1000000_S1000000x64_0 (Host.reduce IntOp.andi (andi (cmpi .sge (broadcastInDim S1000000x1 ![0] bcast_S1000000_S1000000x1_0 (select (cmpi .slt (V (Proc.devRef .tc main_v67) : IVec S1000000 32) (broadcastInDim S1000000 ![] bcast_S_S1000000 (constantI S_ 32 0#32))) (addi (V (Proc.devRef .tc main_v67) : IVec S1000000 32) (broadcastInDim S1000000 ![] bcast_S_S1000000 (constantI S_ 32 100000#32))) (V (Proc.devRef .tc main_v67) : IVec S1000000 32))) (broadcastInDim S1000000x1 ![] bcast_S_S1000000x1 (constantI S_ 32 0#32))) (cmpi .sle (broadcastInDim S1000000x1 ![0] bcast_S1000000_S1000000x1_0 (select (cmpi .slt (V (Proc.devRef .tc main_v67) : IVec S1000000 32) (broadcastInDim S1000000 ![] bcast_S_S1000000 (constantI S_ 32 0#32))) (addi (V (Proc.devRef .tc main_v67) : IVec S1000000 32) (broadcastInDim S1000000 ![] bcast_S_S1000000 (constantI S_ 32 100000#32))) (V (Proc.devRef .tc main_v67) : IVec S1000000 32))) (broadcastInDim S1000000x1 ![0, 1] bcast_S1x1_S1000000x1_0_1 (broadcastInDim S1x1 ![1] bcast_S1_S1x1_1 (constantI S1 32 99999#32))))) (constantI S_ 1 1#1) reducesTo_S1000000x1_S1000000_d1 h_S_)) (Host.gather gather_S100000x64_S1000000x1_S1000000x64_1_0_n_n_0_1_164 (V (Proc.devRef .tc main_v65) : FVec Ideal S100000x64 .f32) (broadcastInDim S1000000x1 ![0] bcast_S1000000_S1000000x1_0 (select (cmpi .slt (V (Proc.devRef .tc main_v67) : IVec S1000000 32) (broadcastInDim S1000000 ![] bcast_S_S1000000 (constantI S_ 32 0#32))) (addi (V (Proc.devRef .tc main_v67) : IVec S1000000 32) (broadcastInDim S1000000 ![] bcast_S_S1000000 (constantI S_ 32 100000#32))) (V (Proc.devRef .tc main_v67) : IVec S1000000 32)))) (broadcastInDim S1000000x64 ![] bcast_S_S1000000x64 (constant (F := Ideal) S_ .f32 0x7FC00000#32)) := by
  refine TakeHops.stretch (Val := Elt Ideal) (Tc := ⟨S_, .i32⟩) (Ti := ⟨S1000000, .i32⟩) (Tm := ⟨S1000000, .i1⟩) (Tj := ⟨S1000000x1, .i32⟩) (Tk := ⟨S1, .i32⟩) (Tl := ⟨S1x1, .i32⟩) (Tn := ⟨S1000000x1, .i1⟩) (Tb := ⟨S_, .i1⟩) (Tt := ⟨S100000x64, .f32⟩) (Tr := ⟨S1000000x64, .f32⟩) (Ts := ⟨S1000000x64, .i1⟩) (Tf := ⟨S_, .f32⟩)
      (c := .of main_call10_c) (v0 := .of main_call10_v0) (idx := .of main_v67) (v1 := .of main_call10_v1) (c0 := .of main_call10_c_0) (v2 := .of main_call10_v2) (v3 := .of main_call10_v3) (v4 := .of main_call10_v4) (v5 := .of main_call10_v5) (c1 := .of main_call10_c_1) (c2 := .of main_call10_c_2) (v6 := .of main_call10_v6) (v7 := .of main_call10_v7) (v8 := .of main_call10_v8) (v9 := .of main_call10_v9) (v10 := .of main_call10_v10) (v11 := .of main_call10_v11) (c3 := .of main_call10_c_3) (v12 := .of main_call10_v12) (tab := .of main_v65) (v13 := .of main_call10_v13) (v14 := .of main_call10_v14) (cst := .of main_call10_cst) (v15 := .of main_call10_v15) (out := .of main_v70)
      (k0 := constantI S_ 32 0#32)
      (b0 := broadcastInDim S1000000 ![] bcast_S_S1000000)
      (flt := cmpi .slt)
      (kn := constantI S_ 32 100000#32)
      (b2 := broadcastInDim S1000000 ![] bcast_S_S1000000)
      (fadd := addi)
      (fw := select)
      (f5 := broadcastInDim S1000000x1 ![0] bcast_S1000000_S1000000x1_0)
      (k1 := constantI S1 32 99999#32)
      (k2 := constantI S_ 32 0#32)
      (b6 := broadcastInDim S1000000x1 ![] bcast_S_S1000000x1)
      (fge := cmpi .sge)
      (b8 := broadcastInDim S1x1 ![1] bcast_S1_S1x1_1)
      (b9 := broadcastInDim S1000000x1 ![0, 1] bcast_S1x1_S1000000x1_0_1)
      (fle := cmpi .sle)
      (fand := andi)
      (k3 := constantI S_ 1 1#1)
      (fred := fun x v => Host.reduce IntOp.andi x v reducesTo_S1000000x1_S1000000_d1 h_S_)
      (fgather := fun x i => Host.gather gather_S100000x64_S1000000x1_S1000000x64_1_0_n_n_0_1_164 x i)
      (f14 := broadcastInDim S1000000x64 ![0] bcast_S1000000_S1000000x64_0)
      (kc := constant (F := Ideal) S_ .f32 0x7FC00000#32)
      (b15 := broadcastInDim S1000000x64 ![] bcast_S_S1000000x64)
      (fsel := select)
      V (I := V (Proc.devRef .tc main_v67)) (hI := rfl) (T := V (Proc.devRef .tc main_v65)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

set_option maxRecDepth 8192 in
/-- The row lookup that writes `main_v71`: rows of `main_v51` at the indices `main_v69`, as one term of the two buffers' contents. -/
theorem hop_v71 (V : Valuation τ sig (Elt Ideal)) :
    StableHlo.after (hostOps6_2 (F := Ideal)) V (Proc.devRef .tc main_v71)
      = select (broadcastInDim S1000000x64 ![0] bcast_S1000000_S1000000x64_0 (Host.reduce IntOp.andi (andi (cmpi .sge (broadcastInDim S1000000x1 ![0] bcast_S1000000_S1000000x1_0 (select (cmpi .slt (V (Proc.devRef .tc main_v69) : IVec S1000000 32) (broadcastInDim S1000000 ![] bcast_S_S1000000 (constantI S_ 32 0#32))) (addi (V (Proc.devRef .tc main_v69) : IVec S1000000 32) (broadcastInDim S1000000 ![] bcast_S_S1000000 (constantI S_ 32 10000#32))) (V (Proc.devRef .tc main_v69) : IVec S1000000 32))) (broadcastInDim S1000000x1 ![] bcast_S_S1000000x1 (constantI S_ 32 0#32))) (cmpi .sle (broadcastInDim S1000000x1 ![0] bcast_S1000000_S1000000x1_0 (select (cmpi .slt (V (Proc.devRef .tc main_v69) : IVec S1000000 32) (broadcastInDim S1000000 ![] bcast_S_S1000000 (constantI S_ 32 0#32))) (addi (V (Proc.devRef .tc main_v69) : IVec S1000000 32) (broadcastInDim S1000000 ![] bcast_S_S1000000 (constantI S_ 32 10000#32))) (V (Proc.devRef .tc main_v69) : IVec S1000000 32))) (broadcastInDim S1000000x1 ![0, 1] bcast_S1x1_S1000000x1_0_1 (broadcastInDim S1x1 ![1] bcast_S1_S1x1_1 (constantI S1 32 9999#32))))) (constantI S_ 1 1#1) reducesTo_S1000000x1_S1000000_d1 h_S_)) (Host.gather gather_S10000x64_S1000000x1_S1000000x64_1_0_n_n_0_1_164 (V (Proc.devRef .tc main_v51) : FVec Ideal S10000x64 .f32) (broadcastInDim S1000000x1 ![0] bcast_S1000000_S1000000x1_0 (select (cmpi .slt (V (Proc.devRef .tc main_v69) : IVec S1000000 32) (broadcastInDim S1000000 ![] bcast_S_S1000000 (constantI S_ 32 0#32))) (addi (V (Proc.devRef .tc main_v69) : IVec S1000000 32) (broadcastInDim S1000000 ![] bcast_S_S1000000 (constantI S_ 32 10000#32))) (V (Proc.devRef .tc main_v69) : IVec S1000000 32)))) (broadcastInDim S1000000x64 ![] bcast_S_S1000000x64 (constant (F := Ideal) S_ .f32 0x7FC00000#32)) := by
  refine TakeHops.stretch (Val := Elt Ideal) (Tc := ⟨S_, .i32⟩) (Ti := ⟨S1000000, .i32⟩) (Tm := ⟨S1000000, .i1⟩) (Tj := ⟨S1000000x1, .i32⟩) (Tk := ⟨S1, .i32⟩) (Tl := ⟨S1x1, .i32⟩) (Tn := ⟨S1000000x1, .i1⟩) (Tb := ⟨S_, .i1⟩) (Tt := ⟨S10000x64, .f32⟩) (Tr := ⟨S1000000x64, .f32⟩) (Ts := ⟨S1000000x64, .i1⟩) (Tf := ⟨S_, .f32⟩)
      (c := .of main_call11_c) (v0 := .of main_call11_v0) (idx := .of main_v69) (v1 := .of main_call11_v1) (c0 := .of main_call11_c_0) (v2 := .of main_call11_v2) (v3 := .of main_call11_v3) (v4 := .of main_call11_v4) (v5 := .of main_call11_v5) (c1 := .of main_call11_c_1) (c2 := .of main_call11_c_2) (v6 := .of main_call11_v6) (v7 := .of main_call11_v7) (v8 := .of main_call11_v8) (v9 := .of main_call11_v9) (v10 := .of main_call11_v10) (v11 := .of main_call11_v11) (c3 := .of main_call11_c_3) (v12 := .of main_call11_v12) (tab := .of main_v51) (v13 := .of main_call11_v13) (v14 := .of main_call11_v14) (cst := .of main_call11_cst) (v15 := .of main_call11_v15) (out := .of main_v71)
      (k0 := constantI S_ 32 0#32)
      (b0 := broadcastInDim S1000000 ![] bcast_S_S1000000)
      (flt := cmpi .slt)
      (kn := constantI S_ 32 10000#32)
      (b2 := broadcastInDim S1000000 ![] bcast_S_S1000000)
      (fadd := addi)
      (fw := select)
      (f5 := broadcastInDim S1000000x1 ![0] bcast_S1000000_S1000000x1_0)
      (k1 := constantI S1 32 9999#32)
      (k2 := constantI S_ 32 0#32)
      (b6 := broadcastInDim S1000000x1 ![] bcast_S_S1000000x1)
      (fge := cmpi .sge)
      (b8 := broadcastInDim S1x1 ![1] bcast_S1_S1x1_1)
      (b9 := broadcastInDim S1000000x1 ![0, 1] bcast_S1x1_S1000000x1_0_1)
      (fle := cmpi .sle)
      (fand := andi)
      (k3 := constantI S_ 1 1#1)
      (fred := fun x v => Host.reduce IntOp.andi x v reducesTo_S1000000x1_S1000000_d1 h_S_)
      (fgather := fun x i => Host.gather gather_S10000x64_S1000000x1_S1000000x64_1_0_n_n_0_1_164 x i)
      (f14 := broadcastInDim S1000000x64 ![0] bcast_S1000000_S1000000x64_0)
      (kc := constant (F := Ideal) S_ .f32 0x7FC00000#32)
      (b15 := broadcastInDim S1000000x64 ![] bcast_S_S1000000x64)
      (fsel := select)
      V (I := V (Proc.devRef .tc main_v69)) (hI := rfl) (T := V (Proc.devRef .tc main_v51)) (hT := rfl)
      (Z := fun w => w) (hZ := fun _ => rfl) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> decide

end Cert.KernelIdeal.Sim

end
-- ==== Proof.SageTakes.lean ====
/-
  The four message lookups of the aggregation steps: the rows of the source-side features the edges' endpoints pick, each the reference's gather when the endpoints are in range.
-/
import proofs.«420035_j53996328845374_1_alg».proof.Proof.Prelude
import proofs.«420035_j53996328845374_1_alg».proof.Proof.Take
import proofs.«420035_j53996328845374_1_alg».proof.Proof.SrcDst
import proofs.«420035_j53996328845374_1_alg».proof.Proof.TakeHops

noncomputable section

namespace Cert.KernelIdeal.Sim

open Cert.KernelIdeal Cert.KernelIdeal.Gen Idealize.ShloMosaic Idealize.ShloMosaic.TcCoe Idealize.SL.Sem

namespace SageTakes

/-! The buffers a lookup reads, carried from where they were last written to the lookup's entry: no segment in
between writes them (a region that only reads a buffer as an input window leaves it as entered). -/

set_option maxHeartbeats 2000000 in
theorem W7_v3 (m : (ℓ : Loc nD τ sig) → Buf (Elt Ideal) ℓ) (ρ : Dev nD → PrngReg) (c : Dev nD) :
    W7 m ρ c (Proc.devRef .tc main_v3) = W4 m ρ c (Proc.devRef .tc main_v3) := by
  walk_back
  rfl

/-- Region 2 reads `h_se` through its fourth window and leaves it as it found it. -/
theorem W12_v5_step (m : (ℓ : Loc nD τ sig) → Buf (Elt Ideal) ℓ) (ρ : Dev nD → PrngReg) (c : Dev nD) :
    W12 m ρ c (Proc.devRef .tc main_v5) = W11 m ρ c (Proc.devRef .tc main_v5) := by
  have h := W12_arr m ρ c (3 : Fin cfg2.W)
  rw [(dat2 (V11 m ρ) c).arrAt_in 3 rfl cfg2.N, A_eq2] at h
  exact h

set_option maxHeartbeats 2000000 in
theorem W11_v5 (m : (ℓ : Loc nD τ sig) → Buf (Elt Ideal) ℓ) (ρ : Dev nD → PrngReg) (c : Dev nD) :
    W11 m ρ c (Proc.devRef .tc main_v5) = W6 m ρ c (Proc.devRef .tc main_v5) := by
  walk_back
  rfl

set_option maxHeartbeats 4000000 in
theorem W12_v9 (m : (ℓ : Loc nD τ sig) → Buf (Elt Ideal) ℓ) (ρ : Dev nD → PrngReg) (c : Dev nD) :
    W12 m ρ c (Proc.devRef .tc main_v9) = W7 m ρ c (Proc.devRef .tc main_v9) := by
  walk_back
  rfl

set_option maxHeartbeats 4000000 in
theorem W17_v7 (m : (ℓ : Loc nD τ sig) → Buf (Elt Ideal) ℓ) (ρ : Dev nD → PrngReg) (c : Dev nD) :
    W17 m ρ c (Proc.devRef .tc main_v7) = W7 m ρ c (Proc.devRef .tc main_v7) := by
  walk_back
  rfl

/-- Region 4 reads the first layer's side-effect features through its fourth window and leaves them as it found them. -/
theorem W22_v23_step (m : (ℓ : Loc nD τ sig) → Buf (Elt Ideal) ℓ) (ρ : Dev nD → PrngReg) (c : Dev nD) :
    W22 m ρ c (Proc.devRef .tc main_v23) = W21 m ρ c (Proc.devRef .tc main_v23) := by
  have h := W22_arr m ρ c (3 : Fin cfg4.W)
  rw [(dat4 (V21 m ρ) c).arrAt_in 3 rfl cfg4.N, A_eq4] at h
  exact h

set_option maxHeartbeats 4000000 in
theorem W21_v23 (m : (ℓ : Loc nD τ sig) → Buf (Elt Ideal) ℓ) (ρ : Dev nD → PrngReg) (c : Dev nD) :
    W21 m ρ c (Proc.devRef .tc main_v23) = W12 m ρ c (Proc.devRef .tc main_v23) := by
  walk_back
  rfl

set_option maxHeartbeats 4000000 in
theorem W22_v9 (m : (ℓ : Loc nD τ sig) → Buf (Elt Ideal) ℓ) (ρ : Dev nD → PrngReg) (c : Dev nD) :
    W22 m ρ c (Proc.devRef .tc main_v9) = W7 m ρ c (Proc.devRef .tc main_v9) := by
  walk_back
  rfl

end SageTakes

/-- First layer, drugs to side effects: `h_pd[src]`. -/
theorem W8_v10 (m : (ℓ : Loc nD τ sig) → Buf (Elt Ideal) ℓ) (ρ : Dev nD → PrngReg) (c : Dev nD)
    (hr : InRange m c)
    (h3 : W4 m ρ c (Proc.devRef .tc main_v3) = Cert.ReferenceIdeal.Read.val_main_v15 (F := Ideal) (A0 m c) (A3 m c) (A4 m c) (A7 m c) (A21 m c)) :
    W8 m ρ c (Proc.devRef .tc main_v10) = Cert.ReferenceIdeal.Read.val_main_v34 (F := Ideal) (A0 m c) (A3 m c) (A4 m c) (A7 m c) (A21 m c) (A23 m c) := by
  have e7 : W7 m ρ c (Proc.devRef .tc main_v7) = Cert.ReferenceIdeal.Read.val_main_v1 (F := Ideal) (A23 m c) := W7_v7 m ρ c
  have e3 := (SageTakes.W7_v3 m ρ c).trans h3
  show StableHlo.after hostOps2_1 (W7 m ρ c) (Proc.devRef .tc main_v10) = _
  rw [hop_v10, e7, e3]
  -- every source endpoint is a row of `h_pd`: the masked lookup is the gather
  refine (take_eq (n := 100000) hr.src (by decide) _ _).trans ?_
  unfold Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_c_3 Cert.ReferenceIdeal.Read.val_main_c_4
  rfl

/-- First layer, side effects to drugs: `h_se[dst]`. -/
theorem W13_v24 (m : (ℓ : Loc nD τ sig) → Buf (Elt Ideal) ℓ) (ρ : Dev nD → PrngReg) (c : Dev nD)
    (hr : InRange m c)
    (h5 : W6 m ρ c (Proc.devRef .tc main_v5) = Cert.ReferenceIdeal.Read.val_main_v27 (F := Ideal) (A1 m c) (A5 m c) (A6 m c) (A8 m c) (A22 m c)) :
    W13 m ρ c (Proc.devRef .tc main_v24) = Cert.ReferenceIdeal.Read.val_main_v59 (F := Ideal) (A1 m c) (A5 m c) (A6 m c) (A8 m c) (A22 m c) (A23 m c) := by
  have e9 : W12 m ρ c (Proc.devRef .tc main_v9) = Cert.ReferenceIdeal.Read.val_main_v3 (F := Ideal) (A23 m c) :=
    (SageTakes.W12_v9 m ρ c).trans (W7_v9 m ρ c)
  have e5 := ((SageTakes.W12_v5_step m ρ c).trans (SageTakes.W11_v5 m ρ c)).trans h5
  show StableHlo.after hostOps3 (W12 m ρ c) (Proc.devRef .tc main_v24) = _
  rw [hop_v24, e9, e5]
  -- every destination endpoint is a row of `h_se`
  refine (take_eq (n := 10000) hr.dst (by decide) _ _).trans ?_
  unfold Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_v54 Cert.ReferenceIdeal.Read.val_main_v53 Cert.ReferenceIdeal.Read.val_main_c_8 Cert.ReferenceIdeal.Read.val_main_c_9
  rfl

/-- Second layer, drugs to side effects: `pd1[src]`. -/
theorem W18_v38 (m : (ℓ : Loc nD τ sig) → Buf (Elt Ideal) ℓ) (ρ : Dev nD → PrngReg) (c : Dev nD)
    (hr : InRange m c)
    (h37 : W17 m ρ c (Proc.devRef .tc main_v37) = Cert.ReferenceIdeal.Read.val_main_v77 (F := Ideal) (A0 m c) (A1 m c) (A3 m c) (A4 m c) (A5 m c) (A6 m c) (A7 m c) (A8 m c) (A12 m c) (A13 m c) (A14 m c) (A21 m c) (A22 m c) (A23 m c)) :
    W18 m ρ c (Proc.devRef .tc main_v38) = Cert.ReferenceIdeal.Read.val_main_v84 (F := Ideal) (A0 m c) (A1 m c) (A3 m c) (A4 m c) (A5 m c) (A6 m c) (A7 m c) (A8 m c) (A12 m c) (A13 m c) (A14 m c) (A21 m c) (A22 m c) (A23 m c) := by
  have e7 : W17 m ρ c (Proc.devRef .tc main_v7) = Cert.ReferenceIdeal.Read.val_main_v1 (F := Ideal) (A23 m c) :=
    (SageTakes.W17_v7 m ρ c).trans (W7_v7 m ρ c)
  show StableHlo.after hostOps4 (W17 m ρ c) (Proc.devRef .tc main_v38) = _
  rw [hop_v38, e7, h37]
  refine (take_eq (n := 100000) hr.src (by decide) _ _).trans ?_
  unfold Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_c_14 Cert.ReferenceIdeal.Read.val_main_c_15
  rfl

/-- Second layer, side effects to drugs: `se1[dst]`. -/
theorem W23_v52 (m : (ℓ : Loc nD τ sig) → Buf (Elt Ideal) ℓ) (ρ : Dev nD → PrngReg) (c : Dev nD)
    (hr : InRange m c)
    (h23 : W12 m ρ c (Proc.devRef .tc main_v23) = Cert.ReferenceIdeal.Read.val_main_v52 (F := Ideal) (A0 m c) (A1 m c) (A3 m c) (A4 m c) (A5 m c) (A6 m c) (A7 m c) (A8 m c) (A9 m c) (A10 m c) (A11 m c) (A21 m c) (A22 m c) (A23 m c)) :
    W23 m ρ c (Proc.devRef .tc main_v52) = Cert.ReferenceIdeal.Read.val_main_v108 (F := Ideal) (A0 m c) (A1 m c) (A3 m c) (A4 m c) (A5 m c) (A6 m c) (A7 m c) (A8 m c) (A9 m c) (A10 m c) (A11 m c) (A21 m c) (A22 m c) (A23 m c) := by
  have e9 : W22 m ρ c (Proc.devRef .tc main_v9) = Cert.ReferenceIdeal.Read.val_main_v3 (F := Ideal) (A23 m c) :=
    (SageTakes.W22_v9 m ρ c).trans (W7_v9 m ρ c)
  have e23 := ((SageTakes.W22_v23_step m ρ c).trans (SageTakes.W21_v23 m ρ c)).trans h23
  show StableHlo.after hostOps5 (W22 m ρ c) (Proc.devRef .tc main_v52) = _
  rw [hop_v52, e9, e23]
  refine (take_eq (n := 10000) hr.dst (by decide) _ _).trans ?_
  unfold Cert.ReferenceIdeal.Read.val_main_v108 Cert.ReferenceIdeal.Read.val_main_v107 Cert.ReferenceIdeal.Read.val_main_v106 Cert.ReferenceIdeal.Read.val_main_v105 Cert.ReferenceIdeal.Read.val_main_v104 Cert.ReferenceIdeal.Read.val_main_v103 Cert.ReferenceIdeal.Read.val_main_v102 Cert.ReferenceIdeal.Read.val_main_c_20 Cert.ReferenceIdeal.Read.val_main_c_21
  rfl

end Cert.KernelIdeal.Sim

end
-- ==== Proof.PhaseL1a.lean ====
/-
  From region 1's exit to region 2's entry: the mean over incoming edges of the drug features, per side-effect node.
-/
import proofs.«420035_j53996328845374_1_alg».proof.Proof.Prelude
import proofs.«420035_j53996328845374_1_alg».proof.Proof.Take
import proofs.«420035_j53996328845374_1_alg».proof.Proof.SrcDst
import proofs.«420035_j53996328845374_1_alg».proof.Proof.SageTakes

noncomputable section

namespace Cert.KernelIdeal.Sim

open Cert.KernelIdeal Cert.KernelIdeal.Gen Idealize.ShloMosaic Idealize.ShloMosaic.TcCoe Idealize.SL.Sem

namespace PhaseL1a

/-! Each host stretch between the lookup and region 2, as a function of the contents it starts from. -/

/-- The segment sum: the looked-up rows added into a zero table at the destination endpoints. -/
theorem ops2_2_v13 (V : Valuation τ sig (Elt Ideal)) :
    StableHlo.after hostOps2_2 V (Proc.devRef .tc main_v13) =
      Host.scatterAdd scatter_S10000x64_S1600000x1_S1600000x64_1_0_0_1
        (broadcastInDim S10000x64 ![] bcast_S_S10000x64 (constant (F := Ideal) S_ .f32 0x00000000#32))
        (broadcastInDim S1600000x1 ![0] bcast_S1600000_S1600000x1_0 (V (Proc.devRef .tc main_v9)))
        (V (Proc.devRef .tc main_v10)) := by
  after_results

/-- The in-degree: ones added into a zero vector at the destination endpoints. -/
theorem ops2_2_v17 (V : Valuation τ sig (Elt Ideal)) :
    StableHlo.after hostOps2_2 V (Proc.devRef .tc main_v17) =
      Host.scatterAdd scatter_S10000_S1600000x1_S1600000_n_0_0_1
        (broadcastInDim S10000 ![] bcast_S_S10000 (constant (F := Ideal) S_ .f32 0x00000000#32))
        (broadcastInDim S1600000x1 ![0] bcast_S1600000_S1600000x1_0 (V (Proc.devRef .tc main_v9)))
        (broadcastInDim S1600000 ![] bcast_S_S1600000 (constant (F := Ideal) S_ .f32 0x3F800000#32)) := by
  after_results

/-- The clip's lower bound, the constant one. -/
theorem ops2_2_cst_2 (V : Valuation τ sig (Elt Ideal)) :
    StableHlo.after hostOps2_2 V (Proc.devRef .tc main_cst_2) = constant (F := Ideal) S_ .f32 0x3F800000#32 := by
  after_results

/-- The in-degree clipped below at one. -/
theorem ops2_3_v18 (V : Valuation τ sig (Elt Ideal)) :
    StableHlo.after hostOps2_3 V (Proc.devRef .tc main_v18) =
      (maximumf (F := Ideal) (s := S10000) (φ := .f32) (broadcastInDim S10000 ![] bcast_S_S10000 (id (V (Proc.devRef .tc main_cst_2)) : (⟨S_, .f32⟩ : BufTy).Contents (Elt Ideal)))
        (V (Proc.devRef .tc main_v17)) : (⟨S10000, .f32⟩ : BufTy).Contents (Elt Ideal)) := by
  after_results
  rfl

/-- The segment sum divided row by row by the clipped in-degree. -/
theorem ops2_4_v21 (V : Valuation τ sig (Elt Ideal)) :
    StableHlo.after hostOps2_4 V (Proc.devRef .tc main_v21) =
      (Host.divf (F := Ideal) (s := S10000x64) (φ := .f32) (V (Proc.devRef .tc main_v13))
        (broadcastInDim S10000x64 ![0, 1] bcast_S10000x1_S10000x64_0_1
          (broadcastInDim S10000x1 ![0] bcast_S10000_S10000x1_0 (V (Proc.devRef .tc main_v18)))) : (⟨S10000x64, .f32⟩ : BufTy).Contents (Elt Ideal)) := by
  after_results

/-- The bias as a row. -/
theorem ops2_4_v22 (V : Valuation τ sig (Elt Ideal)) :
    StableHlo.after hostOps2_4 V (Proc.devRef .tc main_v22) =
      shapeCast S1x64 (V (Proc.devRef .tc main_arg10)) shapeCasts_S64_S1x64 := by
  after_results
  rfl

/-- The mean, given the looked-up rows. -/
theorem v21_of (m : (ℓ : Loc nD τ sig) → Buf (Elt Ideal) ℓ) (ρ : Dev nD → PrngReg) (c : Dev nD)
    (e10 : W8 m ρ c (Proc.devRef .tc main_v10) = Cert.ReferenceIdeal.Read.val_main_v34 (F := Ideal) (A0 m c) (A3 m c) (A4 m c) (A7 m c) (A21 m c) (A23 m c)) :
    W11 m ρ c (Proc.devRef .tc main_v21) = Cert.ReferenceIdeal.Read.val_main_v45 (F := Ideal) (A0 m c) (A3 m c) (A4 m c) (A7 m c) (A21 m c) (A23 m c) := by
  have e9 : W8 m ρ c (Proc.devRef .tc main_v9) = Cert.ReferenceIdeal.Read.val_main_v3 (F := Ideal) (A23 m c) := by
    walk_back
    exact W7_v9 m ρ c
  have e13 : W9 m ρ c (Proc.devRef .tc main_v13) = Cert.ReferenceIdeal.Read.val_main_v37 (F := Ideal) (A0 m c) (A3 m c) (A4 m c) (A7 m c) (A21 m c) (A23 m c) := by
    show StableHlo.after hostOps2_2 (W8 m ρ c) (Proc.devRef .tc main_v13) = _
    rw [ops2_2_v13, e9, e10]
    unfold Cert.ReferenceIdeal.Read.val_main_v37 Cert.ReferenceIdeal.Read.val_main_v36 Cert.ReferenceIdeal.Read.val_main_v35 Cert.ReferenceIdeal.Read.val_main_cst
    rfl
  have e17 : W9 m ρ c (Proc.devRef .tc main_v17) = Cert.ReferenceIdeal.Read.val_main_v41 (F := Ideal) (A23 m c) := by
    show StableHlo.after hostOps2_2 (W8 m ρ c) (Proc.devRef .tc main_v17) = _
    rw [ops2_2_v17, e9]
    unfold Cert.ReferenceIdeal.Read.val_main_v41 Cert.ReferenceIdeal.Read.val_main_v40 Cert.ReferenceIdeal.Read.val_main_v39 Cert.ReferenceIdeal.Read.val_main_v38 Cert.ReferenceIdeal.Read.val_main_cst_5 Cert.ReferenceIdeal.Read.val_main_cst_6
    rfl
  have ec : W9 m ρ c (Proc.devRef .tc main_cst_2) = constant (F := Ideal) S_ .f32 0x3F800000#32 := by
    show StableHlo.after hostOps2_2 (W8 m ρ c) (Proc.devRef .tc main_cst_2) = _
    rw [ops2_2_cst_2]
  have e18 : W10 m ρ c (Proc.devRef .tc main_v18) = Cert.ReferenceIdeal.Read.val_main_v42 (F := Ideal) (A23 m c) := by
    show StableHlo.after hostOps2_3 (W9 m ρ c) (Proc.devRef .tc main_v18) = _
    rw [ops2_3_v18, e17, ec]
    unfold Cert.ReferenceIdeal.Read.val_main_v42 Cert.ReferenceIdeal.Read.val_main_call0_v1 Cert.ReferenceIdeal.Read.val_main_call0_v0 Cert.ReferenceIdeal.Read.val_main_cst_7
    rfl
  have e13' : W10 m ρ c (Proc.devRef .tc main_v13) = Cert.ReferenceIdeal.Read.val_main_v37 (F := Ideal) (A0 m c) (A3 m c) (A4 m c) (A7 m c) (A21 m c) (A23 m c) := by
    keep_step
    exact e13
  show StableHlo.after hostOps2_4 (W10 m ρ c) (Proc.devRef .tc main_v21) = _
  rw [ops2_4_v21, e13', e18]
  unfold Cert.ReferenceIdeal.Read.val_main_v45 Cert.ReferenceIdeal.Read.val_main_v44 Cert.ReferenceIdeal.Read.val_main_v43
  rfl

end PhaseL1a

/-- `agg / max(deg, 1)` with `agg` the segment sum over edges of the gathered rows: the same host operations in both programs, the kernel's masked lookup being the reference's gather in range. -/
theorem W11_v21 (m : (ℓ : Loc nD τ sig) → Buf (Elt Ideal) ℓ) (ρ : Dev nD → PrngReg) (c : Dev nD)
    (hr : InRange m c)
    (h3 : W4 m ρ c (Proc.devRef .tc main_v3) = Cert.ReferenceIdeal.Read.val_main_v15 (F := Ideal) (A0 m c) (A3 m c) (A4 m c) (A7 m c) (A21 m c)) :
    W11 m ρ c (Proc.devRef .tc main_v21) = Cert.ReferenceIdeal.Read.val_main_v45 (F := Ideal) (A0 m c) (A3 m c) (A4 m c) (A7 m c) (A21 m c) (A23 m c) :=
  PhaseL1a.v21_of m ρ c (W8_v10 m ρ c hr h3)

theorem W11_v22 (m : (ℓ : Loc nD τ sig) → Buf (Elt Ideal) ℓ) (ρ : Dev nD → PrngReg) (c : Dev nD) :
    W11 m ρ c (Proc.devRef .tc main_v22) = shapeCast S1x64 (A10 m c) shapeCasts_S64_S1x64 := by
  have e : W10 m ρ c (Proc.devRef .tc main_arg10) = A10 m c := by
    walk_back
    rfl
  show StableHlo.after hostOps2_4 (W10 m ρ c) (Proc.devRef .tc main_v22) = _
  rw [PhaseL1a.ops2_4_v22, e]

end Cert.KernelIdeal.Sim

end
-- ==== Proof.PhaseL1b.lean ====
/-
  From region 2's exit to region 3's entry: the mean over incoming edges of the side-effect features, per drug node.

  Four host stretches: the lookup of the side-effect rows by the edges' destination endpoints; the segment sum of those rows
  and the count of edges over the source endpoints; the count clipped below by one; the quotient. Each stretch is first read
  over arbitrary entry contents, then the reads are chained from the lookup to the quotient and matched with the
  reference's stages, which apply the same operations to the same operands.
-/
import proofs.«420035_j53996328845374_1_alg».proof.Proof.Prelude
import proofs.«420035_j53996328845374_1_alg».proof.Proof.Take
import proofs.«420035_j53996328845374_1_alg».proof.Proof.SrcDst
import proofs.«420035_j53996328845374_1_alg».proof.Proof.SageTakes

noncomputable section

namespace Cert.KernelIdeal.Sim

open Cert.KernelIdeal Cert.KernelIdeal.Gen Idealize.ShloMosaic Idealize.ShloMosaic.TcCoe Idealize.SL.Sem

namespace PhaseL1b

/-! ## Each host stretch after the lookup, read at the buffers the next one needs, over any entry contents -/

/-- The divide: the sum over the quotient's broadcast of the clipped count. -/
theorem s33_v35 (V : Valuation τ sig (Elt Ideal)) :
    StableHlo.after hostOps3_3 V (Proc.devRef .tc main_v35) =
      (Host.divf (F := Ideal) (φ := .f32) (V (Proc.devRef .tc main_v27) : FVec Ideal S100000x64 .f32)
        (broadcastInDim S100000x64 ![0, 1] bcast_S100000x1_S100000x64_0_1
          (broadcastInDim S100000x1 ![0] bcast_S100000_S100000x1_0 (V (Proc.devRef .tc main_v32) : FVec Ideal S100000 .f32))) :
        (⟨S100000x64, .f32⟩ : BufTy).Contents (Elt Ideal)) := by
  after_results

/-- The bias row as a one-row block. -/
theorem s33_v36 (V : Valuation τ sig (Elt Ideal)) :
    StableHlo.after hostOps3_3 V (Proc.devRef .tc main_v36) = shapeCast S1x64 (V (Proc.devRef .tc main_arg13)) shapeCasts_S64_S1x64 := by
  after_results
  rfl

/-- The clip: the count, at least the literal. -/
theorem s32_v32 (V : Valuation τ sig (Elt Ideal)) :
    StableHlo.after hostOps3_2 V (Proc.devRef .tc main_v32) =
      (maximumf (F := Ideal) (φ := .f32) (broadcastInDim S100000 ![] bcast_S_S100000 (V (Proc.devRef .tc main_cst_6) : FVec Ideal S_ .f32))
        (V (Proc.devRef .tc main_v31) : FVec Ideal S100000 .f32) : (⟨S100000, .f32⟩ : BufTy).Contents (Elt Ideal)) := by
  after_results
  rfl

/-- The segment sum of the looked-up rows over the edges' source endpoints. -/
theorem s31_v27 (V : Valuation τ sig (Elt Ideal)) :
    StableHlo.after hostOps3_1 V (Proc.devRef .tc main_v27) =
      (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (V (Proc.devRef .tc main_v7) : IVec S1600000 32))
        (V (Proc.devRef .tc main_v24) : FVec Ideal S1600000x64 .f32) : (⟨S100000x64, .f32⟩ : BufTy).Contents (Elt Ideal)) := by
  after_results

/-- The count of edges per source endpoint: the segment sum of ones. -/
theorem s31_v31 (V : Valuation τ sig (Elt Ideal)) :
    StableHlo.after hostOps3_1 V (Proc.devRef .tc main_v31) =
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_v7) : IVec S1600000 32))
        (broadcastInDim S1600000 ![] bcast_S_S1600000 (constant (F := Ideal) S_ .f32 0x3F800000#32)) :
        (⟨S100000, .f32⟩ : BufTy).Contents (Elt Ideal)) := by
  after_results

/-- The clip's literal. -/
theorem s31_cst6 (V : Valuation τ sig (Elt Ideal)) :
    StableHlo.after hostOps3_1 V (Proc.devRef .tc main_cst_6) =
      (constant (F := Ideal) S_ .f32 0x3F800000#32 : (⟨S_, .f32⟩ : BufTy).Contents (Elt Ideal)) := by
  after_results

end PhaseL1b

namespace PhaseL1b

/-- `agg / max(deg, 1)` with `agg` the segment sum over edges of the looked-up rows and `deg` the count of edges, per source
    endpoint: the same host operations in both programs. -/
theorem v35_of_lookup (m : (ℓ : Loc nD τ sig) → Buf (Elt Ideal) ℓ) (ρ : Dev nD → PrngReg) (c : Dev nD)
    (a24 : W13 m ρ c (Proc.devRef .tc main_v24) = Cert.ReferenceIdeal.Read.val_main_v59 (F := Ideal) (A1 m c) (A5 m c) (A6 m c) (A8 m c) (A22 m c) (A23 m c)) :
    W16 m ρ c (Proc.devRef .tc main_v35) = Cert.ReferenceIdeal.Read.val_main_v70 (F := Ideal) (A1 m c) (A5 m c) (A6 m c) (A8 m c) (A22 m c) (A23 m c) := by
  -- the source endpoints, sliced out before the first aggregation step and not written since
  have e7 : W13 m ρ c (Proc.devRef .tc main_v7) = Cert.ReferenceIdeal.Read.val_main_v1 (F := Ideal) (A23 m c) := by
    walk_back; exact W7_v7 m ρ c
  -- the segment sum and the count
  have a27 : W14 m ρ c (Proc.devRef .tc main_v27) = Cert.ReferenceIdeal.Read.val_main_v62 (F := Ideal) (A1 m c) (A5 m c) (A6 m c) (A8 m c) (A22 m c) (A23 m c) := by
    show StableHlo.after hostOps3_1 (W13 m ρ c) (Proc.devRef .tc main_v27) = _
    rw [PhaseL1b.s31_v27, e7, a24]
    unfold Cert.ReferenceIdeal.Read.val_main_v62 Cert.ReferenceIdeal.Read.val_main_v61 Cert.ReferenceIdeal.Read.val_main_v60 Cert.ReferenceIdeal.Read.val_main_cst_10
    rfl
  have a31 : W14 m ρ c (Proc.devRef .tc main_v31) = Cert.ReferenceIdeal.Read.val_main_v66 (F := Ideal) (A23 m c) := by
    show StableHlo.after hostOps3_1 (W13 m ρ c) (Proc.devRef .tc main_v31) = _
    rw [PhaseL1b.s31_v31, e7]
    unfold Cert.ReferenceIdeal.Read.val_main_v66 Cert.ReferenceIdeal.Read.val_main_v65 Cert.ReferenceIdeal.Read.val_main_v64 Cert.ReferenceIdeal.Read.val_main_v63
      Cert.ReferenceIdeal.Read.val_main_cst_11 Cert.ReferenceIdeal.Read.val_main_cst_12
    rfl
  have a6 : W14 m ρ c (Proc.devRef .tc main_cst_6) = (constant (F := Ideal) S_ .f32 0x3F800000#32 : (⟨S_, .f32⟩ : BufTy).Contents (Elt Ideal)) :=
    PhaseL1b.s31_cst6 (W13 m ρ c)
  -- the clipped count
  have a32 : W15 m ρ c (Proc.devRef .tc main_v32) = Cert.ReferenceIdeal.Read.val_main_v67 (F := Ideal) (A23 m c) := by
    show StableHlo.after hostOps3_2 (W14 m ρ c) (Proc.devRef .tc main_v32) = _
    rw [PhaseL1b.s32_v32, a6, a31]
    unfold Cert.ReferenceIdeal.Read.val_main_v67 Cert.ReferenceIdeal.Read.val_main_call2_v1 Cert.ReferenceIdeal.Read.val_main_call2_v0 Cert.ReferenceIdeal.Read.val_main_cst_13
    rfl
  have a27' : W15 m ρ c (Proc.devRef .tc main_v27) = Cert.ReferenceIdeal.Read.val_main_v62 (F := Ideal) (A1 m c) (A5 m c) (A6 m c) (A8 m c) (A22 m c) (A23 m c) := by
    keep_step; exact a27
  -- the quotient
  show StableHlo.after hostOps3_3 (W15 m ρ c) (Proc.devRef .tc main_v35) = _
  rw [PhaseL1b.s33_v35, a27', a32]
  unfold Cert.ReferenceIdeal.Read.val_main_v70 Cert.ReferenceIdeal.Read.val_main_v69 Cert.ReferenceIdeal.Read.val_main_v68
  rfl

end PhaseL1b

theorem W16_v35 (m : (ℓ : Loc nD τ sig) → Buf (Elt Ideal) ℓ) (ρ : Dev nD → PrngReg) (c : Dev nD)
    (hr : InRange m c)
    (h5 : W6 m ρ c (Proc.devRef .tc main_v5) = Cert.ReferenceIdeal.Read.val_main_v27 (F := Ideal) (A1 m c) (A5 m c) (A6 m c) (A8 m c) (A22 m c)) :
    W16 m ρ c (Proc.devRef .tc main_v35) = Cert.ReferenceIdeal.Read.val_main_v70 (F := Ideal) (A1 m c) (A5 m c) (A6 m c) (A8 m c) (A22 m c) (A23 m c) :=
  PhaseL1b.v35_of_lookup m ρ c (W13_v24 m ρ c hr h5)

theorem W16_v36 (m : (ℓ : Loc nD τ sig) → Buf (Elt Ideal) ℓ) (ρ : Dev nD → PrngReg) (c : Dev nD) :
    W16 m ρ c (Proc.devRef .tc main_v36) = shapeCast S1x64 (A13 m c) shapeCasts_S64_S1x64 := by
  have e : W15 m ρ c (Proc.devRef .tc main_arg13) = A13 m c := by walk_back; rfl
  show StableHlo.after hostOps3_3 (W15 m ρ c) (Proc.devRef .tc main_v36) = _
  rw [PhaseL1b.s33_v36, e]

end Cert.KernelIdeal.Sim

end
-- ==== Proof.PhaseL2a.lean ====
/-
  From region 3's exit to region 4's entry: the second layer's mean of drug features per side-effect node.
-/
import proofs.«420035_j53996328845374_1_alg».proof.Proof.Prelude
import proofs.«420035_j53996328845374_1_alg».proof.Proof.Take
import proofs.«420035_j53996328845374_1_alg».proof.Proof.SrcDst
import proofs.«420035_j53996328845374_1_alg».proof.Proof.SageTakes

noncomputable section

namespace Cert.KernelIdeal.Sim

open Cert.KernelIdeal Cert.KernelIdeal.Gen Idealize.ShloMosaic Idealize.ShloMosaic.TcCoe Idealize.SL.Sem

namespace PhaseL2a

/-- What the scatter stretch leaves in the sum buffer, from any contents: the rows of the update array added into a zero
    array at the rows the index vector names. -/
theorem agg_of (V : Valuation τ sig (Elt Ideal)) :
    StableHlo.after hostOps4_1 V (Proc.devRef .tc main_v41)
      = Host.scatterAdd scatter_S10000x64_S1600000x1_S1600000x64_1_0_0_1
          (broadcastInDim S10000x64 ![] bcast_S_S10000x64 (constant (F := Ideal) S_ .f32 0x00000000#32))
          (broadcastInDim S1600000x1 ![0] bcast_S1600000_S1600000x1_0 (V (Proc.devRef .tc main_v9)))
          (V (Proc.devRef .tc main_v38)) := by
  after_results_simp <;> rfl

/-- What it leaves in the count buffer: a one added into a zero vector at each entry of the index vector. -/
theorem deg_of (V : Valuation τ sig (Elt Ideal)) :
    StableHlo.after hostOps4_1 V (Proc.devRef .tc main_v45)
      = Host.scatterAdd scatter_S10000_S1600000x1_S1600000_n_0_0_1
          (broadcastInDim S10000 ![] bcast_S_S10000 (constant (F := Ideal) S_ .f32 0x00000000#32))
          (broadcastInDim S1600000x1 ![0] bcast_S1600000_S1600000x1_0 (V (Proc.devRef .tc main_v9)))
          (broadcastInDim S1600000 ![] bcast_S_S1600000 (constant (F := Ideal) S_ .f32 0x3F800000#32)) := by
  after_results_simp <;> rfl

/-- The lower bound of the count, a one, is the stretch's last constant. -/
theorem one_of (V : Valuation τ sig (Elt Ideal)) :
    StableHlo.after hostOps4_1 V (Proc.devRef .tc main_cst_10) = constant (F := Ideal) S_ .f32 0x3F800000#32 := by
  after_results_simp <;> rfl

/-- The clip stretch: the larger of the bound, broadcast, and the count. -/
theorem clip_of (V : Valuation τ sig (Elt Ideal)) :
    StableHlo.after hostOps4_2 V (Proc.devRef .tc main_v46)
      = (maximumf (F := Ideal) (φ := .f32)
          (broadcastInDim S10000 ![] bcast_S_S10000 (id (V (Proc.devRef .tc main_cst_10) : FVec Ideal S_ .f32)))
          (V (Proc.devRef .tc main_v45) : FVec Ideal S10000 .f32) : (⟨S10000, .f32⟩ : BufTy).Contents (Elt Ideal)) := by
  after_results_simp <;> rfl

/-- The last stretch: the sum divided by the count broadcast along the feature axis. -/
theorem div_of (V : Valuation τ sig (Elt Ideal)) :
    StableHlo.after hostOps4_3 V (Proc.devRef .tc main_v49)
      = (Host.divf (F := Ideal) (φ := .f32) (V (Proc.devRef .tc main_v41) : FVec Ideal S10000x64 .f32)
          (broadcastInDim S10000x64 ![0, 1] bcast_S10000x1_S10000x64_0_1
            (broadcastInDim S10000x1 ![0] bcast_S10000_S10000x1_0 (V (Proc.devRef .tc main_v46) : FVec Ideal S10000 .f32))) :
          (⟨S10000x64, .f32⟩ : BufTy).Contents (Elt Ideal)) := by
  after_results_simp <;> rfl

/-- The last stretch also lays the bias out as one row. -/
theorem bias_of (V : Valuation τ sig (Elt Ideal)) :
    StableHlo.after hostOps4_3 V (Proc.devRef .tc main_v50)
      = shapeCast S1x64 (V (Proc.devRef .tc main_arg16) : FVec Ideal S64 .f32) shapeCasts_S64_S1x64 := by
  after_results_simp <;> rfl

set_option maxHeartbeats 2000000 in
/-- Nothing between the slicing of the edge table and the scatter stretch writes the destination endpoints. -/
theorem v9_W18 (m : (ℓ : Loc nD τ sig) → Buf (Elt Ideal) ℓ) (ρ : Dev nD → PrngReg) (c : Dev nD) :
    W18 m ρ c (Proc.devRef .tc main_v9) = Cert.ReferenceIdeal.Read.val_main_v3 (F := Ideal) (A23 m c) := by
  walk_back; exact W7_v9 m ρ c

set_option maxHeartbeats 2000000 in
/-- Nothing writes the bias argument before the stretch that reads it: it still holds what it was launched with. -/
theorem arg16_W20 (m : (ℓ : Loc nD τ sig) → Buf (Elt Ideal) ℓ) (ρ : Dev nD → PrngReg) (c : Dev nD) :
    W20 m ρ c (Proc.devRef .tc main_arg16) = A16 m c := by
  walk_back; rfl

end PhaseL2a

/-- `agg / max(deg, 1)`, with `agg` the sum over the edges into each side-effect node of the drug rows at the edges'
    sources and `deg` the number of those edges: both programs run the same host operations on the same operands. -/
theorem W21_v49 (m : (ℓ : Loc nD τ sig) → Buf (Elt Ideal) ℓ) (ρ : Dev nD → PrngReg) (c : Dev nD)
    (hr : InRange m c)
    (h37 : W17 m ρ c (Proc.devRef .tc main_v37) = Cert.ReferenceIdeal.Read.val_main_v77 (F := Ideal) (A0 m c) (A1 m c) (A3 m c) (A4 m c) (A5 m c) (A6 m c) (A7 m c) (A8 m c) (A12 m c) (A13 m c) (A14 m c) (A21 m c) (A22 m c) (A23 m c)) :
    W21 m ρ c (Proc.devRef .tc main_v49) = Cert.ReferenceIdeal.Read.val_main_v95 (F := Ideal) (A0 m c) (A1 m c) (A3 m c) (A4 m c) (A5 m c) (A6 m c) (A7 m c) (A8 m c) (A12 m c) (A13 m c) (A14 m c) (A21 m c) (A22 m c) (A23 m c) := by
  -- the destination endpoints, unchanged since they were sliced out of the edge table
  have h9 : W18 m ρ c (Proc.devRef .tc main_v9) = Cert.ReferenceIdeal.Read.val_main_v3 (F := Ideal) (A23 m c) :=
    PhaseL2a.v9_W18 m ρ c
  -- the rows of the drug features at the edges' sources
  have e38 : W18 m ρ c (Proc.devRef .tc main_v38) = Cert.ReferenceIdeal.Read.val_main_v84 (F := Ideal) (A0 m c) (A1 m c) (A3 m c) (A4 m c) (A5 m c) (A6 m c) (A7 m c) (A8 m c) (A12 m c) (A13 m c) (A14 m c) (A21 m c) (A22 m c) (A23 m c) :=
    W18_v38 m ρ c hr h37
  -- their sum per destination node
  have e41 : W19 m ρ c (Proc.devRef .tc main_v41) = Cert.ReferenceIdeal.Read.val_main_v87 (F := Ideal) (A0 m c) (A1 m c) (A3 m c) (A4 m c) (A5 m c) (A6 m c) (A7 m c) (A8 m c) (A12 m c) (A13 m c) (A14 m c) (A21 m c) (A22 m c) (A23 m c) := by
    show StableHlo.after hostOps4_1 (W18 m ρ c) (Proc.devRef .tc main_v41) = _
    rw [PhaseL2a.agg_of, e38, h9]
    unfold Cert.ReferenceIdeal.Read.val_main_v87 Cert.ReferenceIdeal.Read.val_main_v86 Cert.ReferenceIdeal.Read.val_main_v85 Cert.ReferenceIdeal.Read.val_main_cst_16
    rfl
  -- the number of edges per destination node
  have e45 : W19 m ρ c (Proc.devRef .tc main_v45) = Cert.ReferenceIdeal.Read.val_main_v91 (F := Ideal) (A23 m c) := by
    show StableHlo.after hostOps4_1 (W18 m ρ c) (Proc.devRef .tc main_v45) = _
    rw [PhaseL2a.deg_of, h9]
    unfold Cert.ReferenceIdeal.Read.val_main_v91 Cert.ReferenceIdeal.Read.val_main_v90 Cert.ReferenceIdeal.Read.val_main_v89 Cert.ReferenceIdeal.Read.val_main_v88 Cert.ReferenceIdeal.Read.val_main_cst_18 Cert.ReferenceIdeal.Read.val_main_cst_17
    rfl
  have ec : W19 m ρ c (Proc.devRef .tc main_cst_10) = Cert.ReferenceIdeal.Read.val_main_cst_19 (F := Ideal) :=
    PhaseL2a.one_of (W18 m ρ c)
  -- the count, at least one
  have e46 : W20 m ρ c (Proc.devRef .tc main_v46) = Cert.ReferenceIdeal.Read.val_main_v92 (F := Ideal) (A23 m c) := by
    show StableHlo.after hostOps4_2 (W19 m ρ c) (Proc.devRef .tc main_v46) = _
    rw [PhaseL2a.clip_of, ec, e45]
    unfold Cert.ReferenceIdeal.Read.val_main_v92 Cert.ReferenceIdeal.Read.val_main_call4_v1 Cert.ReferenceIdeal.Read.val_main_call4_v0
    rfl
  have e41' : W20 m ρ c (Proc.devRef .tc main_v41) = Cert.ReferenceIdeal.Read.val_main_v87 (F := Ideal) (A0 m c) (A1 m c) (A3 m c) (A4 m c) (A5 m c) (A6 m c) (A7 m c) (A8 m c) (A12 m c) (A13 m c) (A14 m c) (A21 m c) (A22 m c) (A23 m c) := by
    keep_step; exact e41
  -- the quotient
  show StableHlo.after hostOps4_3 (W20 m ρ c) (Proc.devRef .tc main_v49) = _
  rw [PhaseL2a.div_of, e41', e46]
  unfold Cert.ReferenceIdeal.Read.val_main_v95 Cert.ReferenceIdeal.Read.val_main_v94 Cert.ReferenceIdeal.Read.val_main_v93
  rfl

/-- The third aggregation's bias laid out as one row. -/
theorem W21_v50 (m : (ℓ : Loc nD τ sig) → Buf (Elt Ideal) ℓ) (ρ : Dev nD → PrngReg) (c : Dev nD) :
    W21 m ρ c (Proc.devRef .tc main_v50) = shapeCast S1x64 (A16 m c) shapeCasts_S64_S1x64 := by
  show StableHlo.after hostOps4_3 (W20 m ρ c) (Proc.devRef .tc main_v50) = _
  rw [PhaseL2a.bias_of, PhaseL2a.arg16_W20]

end Cert.KernelIdeal.Sim

end
-- ==== Proof.PhaseL2b.lean ====
/-
  From region 4's exit to region 5's entry: the second layer's mean of side-effect features per drug node.

  Four host stretches: the lookup of the side-effect rows by the edges' destination endpoints; the segment sum of those rows
  and the count of edges over the source endpoints; the count clipped below by one; the quotient. Each stretch after the
  lookup is first read over arbitrary entry contents, then the reads are chained from the lookup to the quotient and matched
  with the reference's stages, which apply the same operations to the same operands.
-/
import proofs.«420035_j53996328845374_1_alg».proof.Proof.Prelude
import proofs.«420035_j53996328845374_1_alg».proof.Proof.Take
import proofs.«420035_j53996328845374_1_alg».proof.Proof.SrcDst
import proofs.«420035_j53996328845374_1_alg».proof.Proof.SageTakes

noncomputable section

namespace Cert.KernelIdeal.Sim

open Cert.KernelIdeal Cert.KernelIdeal.Gen Idealize.ShloMosaic Idealize.ShloMosaic.TcCoe Idealize.SL.Sem

namespace PhaseL2b

/-! ## Each host stretch after the lookup, read at the buffers the next one needs, over any entry contents -/

/-- The divide: the segment sum over the broadcast of the clipped count. -/
theorem s53_v63 (V : Valuation τ sig (Elt Ideal)) :
    StableHlo.after hostOps5_3 V (Proc.devRef .tc main_v63) =
      (Host.divf (F := Ideal) (φ := .f32) (V (Proc.devRef .tc main_v55) : FVec Ideal S100000x64 .f32)
        (broadcastInDim S100000x64 ![0, 1] bcast_S100000x1_S100000x64_0_1
          (broadcastInDim S100000x1 ![0] bcast_S100000_S100000x1_0 (V (Proc.devRef .tc main_v60) : FVec Ideal S100000 .f32))) :
        (⟨S100000x64, .f32⟩ : BufTy).Contents (Elt Ideal)) := by
  after_results

/-- The bias row as a one-row block. -/
theorem s53_v64 (V : Valuation τ sig (Elt Ideal)) :
    StableHlo.after hostOps5_3 V (Proc.devRef .tc main_v64) = shapeCast S1x64 (V (Proc.devRef .tc main_arg19)) shapeCasts_S64_S1x64 := by
  after_results
  rfl

/-- The clip: the count, at least the literal. -/
theorem s52_v60 (V : Valuation τ sig (Elt Ideal)) :
    StableHlo.after hostOps5_2 V (Proc.devRef .tc main_v60) =
      (maximumf (F := Ideal) (φ := .f32) (broadcastInDim S100000 ![] bcast_S_S100000 (V (Proc.devRef .tc main_cst_14) : FVec Ideal S_ .f32))
        (V (Proc.devRef .tc main_v59) : FVec Ideal S100000 .f32) : (⟨S100000, .f32⟩ : BufTy).Contents (Elt Ideal)) := by
  after_results
  rfl

/-- The segment sum of the looked-up rows over the edges' source endpoints. -/
theorem s51_v55 (V : Valuation τ sig (Elt Ideal)) :
    StableHlo.after hostOps5_1 V (Proc.devRef .tc main_v55) =
      (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (V (Proc.devRef .tc main_v7) : IVec S1600000 32))
        (V (Proc.devRef .tc main_v52) : FVec Ideal S1600000x64 .f32) : (⟨S100000x64, .f32⟩ : BufTy).Contents (Elt Ideal)) := by
  after_results

/-- The count of edges per source endpoint: the segment sum of ones. -/
theorem s51_v59 (V : Valuation τ sig (Elt Ideal)) :
    StableHlo.after hostOps5_1 V (Proc.devRef .tc main_v59) =
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_v7) : IVec S1600000 32))
        (broadcastInDim S1600000 ![] bcast_S_S1600000 (constant (F := Ideal) S_ .f32 0x3F800000#32)) :
        (⟨S100000, .f32⟩ : BufTy).Contents (Elt Ideal)) := by
  after_results

/-- The clip's literal. -/
theorem s51_cst14 (V : Valuation τ sig (Elt Ideal)) :
    StableHlo.after hostOps5_1 V (Proc.devRef .tc main_cst_14) =
      (constant (F := Ideal) S_ .f32 0x3F800000#32 : (⟨S_, .f32⟩ : BufTy).Contents (Elt Ideal)) := by
  after_results

/-! ## Buffers carried to this step unchanged -/

set_option maxHeartbeats 4000000 in
/-- The source endpoints, sliced out before the first aggregation step, are not written up to boundary 23. -/
theorem W23_v7 (m : (ℓ : Loc nD τ sig) → Buf (Elt Ideal) ℓ) (ρ : Dev nD → PrngReg) (c : Dev nD) :
    W23 m ρ c (Proc.devRef .tc main_v7) = Cert.ReferenceIdeal.Read.val_main_v1 (F := Ideal) (A23 m c) := by
  walk_back; exact W7_v7 m ρ c

set_option maxHeartbeats 4000000 in
/-- Argument 19 is untouched up to boundary 25. -/
theorem W25_arg19 (m : (ℓ : Loc nD τ sig) → Buf (Elt Ideal) ℓ) (ρ : Dev nD → PrngReg) (c : Dev nD) :
    W25 m ρ c (Proc.devRef .tc main_arg19) = A19 m c := by
  walk_back; rfl

/-! ## The chain from the lookup to the quotient -/

/-- `agg / max(deg, 1)` with `agg` the segment sum over edges of the looked-up rows and `deg` the count of edges, per source
    endpoint: the same host operations in both programs. -/
theorem v63_of_lookup (m : (ℓ : Loc nD τ sig) → Buf (Elt Ideal) ℓ) (ρ : Dev nD → PrngReg) (c : Dev nD)
    (a52 : W23 m ρ c (Proc.devRef .tc main_v52) = Cert.ReferenceIdeal.Read.val_main_v108 (F := Ideal) (A0 m c) (A1 m c) (A3 m c) (A4 m c) (A5 m c) (A6 m c) (A7 m c) (A8 m c) (A9 m c) (A10 m c) (A11 m c) (A21 m c) (A22 m c) (A23 m c)) :
    W26 m ρ c (Proc.devRef .tc main_v63) = Cert.ReferenceIdeal.Read.val_main_v119 (F := Ideal) (A0 m c) (A1 m c) (A3 m c) (A4 m c) (A5 m c) (A6 m c) (A7 m c) (A8 m c) (A9 m c) (A10 m c) (A11 m c) (A21 m c) (A22 m c) (A23 m c) := by
  have e7 : W23 m ρ c (Proc.devRef .tc main_v7) = Cert.ReferenceIdeal.Read.val_main_v1 (F := Ideal) (A23 m c) := W23_v7 m ρ c
  -- the segment sum and the count
  have a55 : W24 m ρ c (Proc.devRef .tc main_v55) = Cert.ReferenceIdeal.Read.val_main_v111 (F := Ideal) (A0 m c) (A1 m c) (A3 m c) (A4 m c) (A5 m c) (A6 m c) (A7 m c) (A8 m c) (A9 m c) (A10 m c) (A11 m c) (A21 m c) (A22 m c) (A23 m c) := by
    show StableHlo.after hostOps5_1 (W23 m ρ c) (Proc.devRef .tc main_v55) = _
    rw [s51_v55, e7, a52]
    unfold Cert.ReferenceIdeal.Read.val_main_v111 Cert.ReferenceIdeal.Read.val_main_v110 Cert.ReferenceIdeal.Read.val_main_v109 Cert.ReferenceIdeal.Read.val_main_cst_22
    rfl
  have a59 : W24 m ρ c (Proc.devRef .tc main_v59) = Cert.ReferenceIdeal.Read.val_main_v115 (F := Ideal) (A23 m c) := by
    show StableHlo.after hostOps5_1 (W23 m ρ c) (Proc.devRef .tc main_v59) = _
    rw [s51_v59, e7]
    unfold Cert.ReferenceIdeal.Read.val_main_v115 Cert.ReferenceIdeal.Read.val_main_v114 Cert.ReferenceIdeal.Read.val_main_v113 Cert.ReferenceIdeal.Read.val_main_v112
      Cert.ReferenceIdeal.Read.val_main_cst_23 Cert.ReferenceIdeal.Read.val_main_cst_24
    rfl
  have a14 : W24 m ρ c (Proc.devRef .tc main_cst_14) = (constant (F := Ideal) S_ .f32 0x3F800000#32 : (⟨S_, .f32⟩ : BufTy).Contents (Elt Ideal)) :=
    s51_cst14 (W23 m ρ c)
  -- the clipped count
  have a60 : W25 m ρ c (Proc.devRef .tc main_v60) = Cert.ReferenceIdeal.Read.val_main_v116 (F := Ideal) (A23 m c) := by
    show StableHlo.after hostOps5_2 (W24 m ρ c) (Proc.devRef .tc main_v60) = _
    rw [s52_v60, a14, a59]
    unfold Cert.ReferenceIdeal.Read.val_main_v116 Cert.ReferenceIdeal.Read.val_main_call5_v1 Cert.ReferenceIdeal.Read.val_main_call5_v0 Cert.ReferenceIdeal.Read.val_main_cst_25
    rfl
  have a55' : W25 m ρ c (Proc.devRef .tc main_v55) = Cert.ReferenceIdeal.Read.val_main_v111 (F := Ideal) (A0 m c) (A1 m c) (A3 m c) (A4 m c) (A5 m c) (A6 m c) (A7 m c) (A8 m c) (A9 m c) (A10 m c) (A11 m c) (A21 m c) (A22 m c) (A23 m c) := by
    keep_step; exact a55
  -- the quotient
  show StableHlo.after hostOps5_3 (W25 m ρ c) (Proc.devRef .tc main_v63) = _
  rw [s53_v63, a55', a60]
  unfold Cert.ReferenceIdeal.Read.val_main_v119 Cert.ReferenceIdeal.Read.val_main_v118 Cert.ReferenceIdeal.Read.val_main_v117
  rfl

end PhaseL2b

theorem W26_v63 (m : (ℓ : Loc nD τ sig) → Buf (Elt Ideal) ℓ) (ρ : Dev nD → PrngReg) (c : Dev nD)
    (hr : InRange m c)
    (h23 : W12 m ρ c (Proc.devRef .tc main_v23) = Cert.ReferenceIdeal.Read.val_main_v52 (F := Ideal) (A0 m c) (A1 m c) (A3 m c) (A4 m c) (A5 m c) (A6 m c) (A7 m c) (A8 m c) (A9 m c) (A10 m c) (A11 m c) (A21 m c) (A22 m c) (A23 m c)) :
    W26 m ρ c (Proc.devRef .tc main_v63) = Cert.ReferenceIdeal.Read.val_main_v119 (F := Ideal) (A0 m c) (A1 m c) (A3 m c) (A4 m c) (A5 m c) (A6 m c) (A7 m c) (A8 m c) (A9 m c) (A10 m c) (A11 m c) (A21 m c) (A22 m c) (A23 m c) :=
  PhaseL2b.v63_of_lookup m ρ c (W23_v52 m ρ c hr h23)

theorem W26_v64 (m : (ℓ : Loc nD τ sig) → Buf (Elt Ideal) ℓ) (ρ : Dev nD → PrngReg) (c : Dev nD) :
    W26 m ρ c (Proc.devRef .tc main_v64) = shapeCast S1x64 (A19 m c) shapeCasts_S64_S1x64 := by
  show StableHlo.after hostOps5_3 (W25 m ρ c) (Proc.devRef .tc main_v64) = _
  rw [PhaseL2b.s53_v64, PhaseL2b.W25_arg19]

end Cert.KernelIdeal.Sim

end
-- ==== Proof.PhaseClsTakes.lean ====
/-
  The labelled edges' endpoint rows: the two row lookups before the classifier, each the reference's gather when the endpoints are in range.
-/
import proofs.«420035_j53996328845374_1_alg».proof.Proof.Prelude
import proofs.«420035_j53996328845374_1_alg».proof.Proof.Take
import proofs.«420035_j53996328845374_1_alg».proof.Proof.TakeHops

noncomputable section

namespace Cert.KernelIdeal.Sim

open Cert.KernelIdeal Cert.KernelIdeal.Gen Idealize.ShloMosaic Idealize.ShloMosaic.TcCoe Idealize.SL.Sem

namespace PhaseClsTakes

/-! ## What the two lookups read, carried to where they read it -/

set_option maxHeartbeats 2000000 in
/-- The labelled-edge index table is as launched when region 5 has run: no segment of @main writes an argument. -/
theorem W27_arg24 (m : (ℓ : Loc nD τ sig) → Buf (Elt Ideal) ℓ) (ρ : Dev nD → PrngReg) (c : Dev nD) :
    W27 m ρ c (Proc.devRef .tc main_arg24) = A24 m c := by
  walk_back
  rfl

/-- The first endpoints of the labelled edges, sliced out of the index table and flattened. -/
theorem W28_v67 (m : (ℓ : Loc nD τ sig) → Buf (Elt Ideal) ℓ) (ρ : Dev nD → PrngReg) (c : Dev nD) :
    W28 m ρ c (Proc.devRef .tc main_v67) = eli0Idx m c := by
  have e24 := W27_arg24 m ρ c
  show StableHlo.after hostOps6 (W27 m ρ c) (Proc.devRef .tc main_v67) = _
  after_results
  rw [e24]
  rfl

/-- The second endpoints of the labelled edges, likewise. -/
theorem W28_v69 (m : (ℓ : Loc nD τ sig) → Buf (Elt Ideal) ℓ) (ρ : Dev nD → PrngReg) (c : Dev nD) :
    W28 m ρ c (Proc.devRef .tc main_v69) = eli1Idx m c := by
  have e24 := W27_arg24 m ρ c
  show StableHlo.after hostOps6 (W27 m ρ c) (Proc.devRef .tc main_v69) = _
  after_results
  rw [e24]
  rfl

/-- The slicing stretch does not write region 5's output. -/
theorem W28_v65 (m : (ℓ : Loc nD τ sig) → Buf (Elt Ideal) ℓ) (ρ : Dev nD → PrngReg) (c : Dev nD) :
    W28 m ρ c (Proc.devRef .tc main_v65) = W27 m ρ c (Proc.devRef .tc main_v65) := by
  keep_step
  rfl

/-- The first lookup does not write the second endpoints. -/
theorem W29_v69 (m : (ℓ : Loc nD τ sig) → Buf (Elt Ideal) ℓ) (ρ : Dev nD → PrngReg) (c : Dev nD) :
    W29 m ρ c (Proc.devRef .tc main_v69) = W28 m ρ c (Proc.devRef .tc main_v69) := by
  keep_step
  rfl

set_option maxHeartbeats 2000000 in
/-- Region 4's output is still what region 4 left when the first lookup has run: nothing in between writes it. -/
theorem W29_v51 (m : (ℓ : Loc nD τ sig) → Buf (Elt Ideal) ℓ) (ρ : Dev nD → PrngReg) (c : Dev nD) :
    W29 m ρ c (Proc.devRef .tc main_v51) = W22 m ρ c (Proc.devRef .tc main_v51) := by
  walk_back
  rfl

/-! ## The masked lookups as functions of the index vector and the table -/

/-- An index vector with its negative entries moved up by the table's height (the word `nw`). -/
abbrev wrapBy (nw : BitVec 32) (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 nw))) idx

/-- The masked row lookup of the 100000-row table, as one function of the index vector and the table: wrap, test
    against [0, 99999], gather, and fill the rows whose test fails. -/
def lookupPd (idx : IVec S1000000 32) (tbl : Vec Ideal S100000x64 .f32) : Vec Ideal S1000000x64 .f32 :=
  select
    (broadcastInDim S1000000x64 ![0] bcast_S1000000_S1000000x64_0
      (Host.reduce IntOp.andi
        (andi
          (cmpi .sge (broadcastInDim S1000000x1 ![0] bcast_S1000000_S1000000x1_0 (wrapBy 100000#32 idx))
            (broadcastInDim S1000000x1 ![] bcast_S_S1000000x1 (constantI S_ 32 0#32)))
          (cmpi .sle (broadcastInDim S1000000x1 ![0] bcast_S1000000_S1000000x1_0 (wrapBy 100000#32 idx))
            (broadcastInDim S1000000x1 ![0, 1] bcast_S1x1_S1000000x1_0_1 (broadcastInDim S1x1 ![1] bcast_S1_S1x1_1 (constantI S1 32 99999#32)))))
        (constantI S_ 1 1#1) reducesTo_S1000000x1_S1000000_d1 h_S_))
    (Host.gather gather_S100000x64_S1000000x1_S1000000x64_1_0_n_n_0_1_164 tbl
      (broadcastInDim S1000000x1 ![0] bcast_S1000000_S1000000x1_0 (wrapBy 100000#32 idx)))
    (broadcastInDim S1000000x64 ![] bcast_S_S1000000x64 (constant (F := Ideal) S_ .f32 0x7FC00000#32))

/-- With every index a row of the table the masked lookup is the gather. -/
theorem lookupPd_eq (idx : IVec S1000000 32) (tbl : Vec Ideal S100000x64 .f32)
    (hidx : ∀ i, 0 ≤ (idx i).toInt ∧ (idx i).toInt < 100000) :
    lookupPd idx tbl = Host.gather gather_S100000x64_S1000000x1_S1000000x64_1_0_n_n_0_1_164 tbl
      (broadcastInDim S1000000x1 ![0] bcast_S1000000_S1000000x1_0 (wrapBy 100000#32 idx)) := by
  unfold lookupPd
  exact take_eq (n := 100000) hidx (by decide) _ _

/-- The reference's drug-side lookup is the gather of its table by its wrapped first endpoints. -/
theorem ref134_eq (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x18 : (⟨Cert.ReferenceIdeal.S64x64, .f32⟩ : BufTy).Contents (Elt Ideal)) (x19 : (⟨Cert.ReferenceIdeal.S64, .f32⟩ : BufTy).Contents (Elt Ideal)) (x20 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal)) (x24 : (⟨Cert.ReferenceIdeal.S2x1000000, .i32⟩ : BufTy).Contents (Elt Ideal)) :
    Cert.ReferenceIdeal.Read.val_main_v134 (F := Ideal) x0 x1 x3 x4 x5 x6 x7 x8 x9 x10 x11 x12 x13 x14 x18 x19 x20 x21 x22 x23 x24
      = Host.gather gather_S100000x64_S1000000x1_S1000000x64_1_0_n_n_0_1_164
          (Cert.ReferenceIdeal.Read.val_main_v125 (F := Ideal) x0 x1 x3 x4 x5 x6 x7 x8 x9 x10 x11 x12 x13 x14 x18 x19 x20 x21 x22 x23)
          (broadcastInDim S1000000x1 ![0] bcast_S1000000_S1000000x1_0 (wrapBy 100000#32 (Cert.ReferenceIdeal.Read.val_main_v127 (F := Ideal) x24))) := by
  unfold Cert.ReferenceIdeal.Read.val_main_v134 Cert.ReferenceIdeal.Read.val_main_v133 Cert.ReferenceIdeal.Read.val_main_v132 Cert.ReferenceIdeal.Read.val_main_v131 Cert.ReferenceIdeal.Read.val_main_v130
    Cert.ReferenceIdeal.Read.val_main_v129 Cert.ReferenceIdeal.Read.val_main_v128 Cert.ReferenceIdeal.Read.val_main_c_26 Cert.ReferenceIdeal.Read.val_main_c_27
  rfl

/-- The masked row lookup of the 10000-row table, likewise: the test is against [0, 9999]. -/
def lookupSe (idx : IVec S1000000 32) (tbl : Vec Ideal S10000x64 .f32) : Vec Ideal S1000000x64 .f32 :=
  select
    (broadcastInDim S1000000x64 ![0] bcast_S1000000_S1000000x64_0
      (Host.reduce IntOp.andi
        (andi
          (cmpi .sge (broadcastInDim S1000000x1 ![0] bcast_S1000000_S1000000x1_0 (wrapBy 10000#32 idx))
            (broadcastInDim S1000000x1 ![] bcast_S_S1000000x1 (constantI S_ 32 0#32)))
          (cmpi .sle (broadcastInDim S1000000x1 ![0] bcast_S1000000_S1000000x1_0 (wrapBy 10000#32 idx))
            (broadcastInDim S1000000x1 ![0, 1] bcast_S1x1_S1000000x1_0_1 (broadcastInDim S1x1 ![1] bcast_S1_S1x1_1 (constantI S1 32 9999#32)))))
        (constantI S_ 1 1#1) reducesTo_S1000000x1_S1000000_d1 h_S_))
    (Host.gather gather_S10000x64_S1000000x1_S1000000x64_1_0_n_n_0_1_164 tbl
      (broadcastInDim S1000000x1 ![0] bcast_S1000000_S1000000x1_0 (wrapBy 10000#32 idx)))
    (broadcastInDim S1000000x64 ![] bcast_S_S1000000x64 (constant (F := Ideal) S_ .f32 0x7FC00000#32))

/-- With every index a row of the table the masked lookup is the gather. -/
theorem lookupSe_eq (idx : IVec S1000000 32) (tbl : Vec Ideal S10000x64 .f32)
    (hidx : ∀ i, 0 ≤ (idx i).toInt ∧ (idx i).toInt < 10000) :
    lookupSe idx tbl = Host.gather gather_S10000x64_S1000000x1_S1000000x64_1_0_n_n_0_1_164 tbl
      (broadcastInDim S1000000x1 ![0] bcast_S1000000_S1000000x1_0 (wrapBy 10000#32 idx)) := by
  unfold lookupSe
  exact take_eq (n := 10000) hidx (by decide) _ _

/-- The reference's side-effect-side lookup is the gather of its table by its wrapped second endpoints. -/
theorem ref143_eq (x0 : (⟨Cert.ReferenceIdeal.S100000x512, .f32⟩ : BufTy).Contents (Elt Ideal)) (x1 : (⟨Cert.ReferenceIdeal.S10000x768, .f32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S768x64, .f32⟩ : BufTy).Contents (Elt Ideal)) (x6 : (⟨Cert.ReferenceIdeal.S64, .f32⟩ : BufTy).Contents (Elt Ideal)) (x7 : (⟨Cert.ReferenceIdeal.S100000x64, .f32⟩ : BufTy).Contents (Elt Ideal)) (x8 : (⟨Cert.ReferenceIdeal.S10000x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64x64, .f32⟩ : BufTy).Contents (Elt Ideal)) (x16 : (⟨Cert.ReferenceIdeal.S64, .f32⟩ : BufTy).Contents (Elt Ideal)) (x17 : (⟨Cert.ReferenceIdeal.S64x64, .f32⟩ : BufTy).Contents (Elt Ideal)) (x21 : (⟨Cert.ReferenceIdeal.S100000, .i32⟩ : BufTy).Contents (Elt Ideal)) (x22 : (⟨Cert.ReferenceIdeal.S10000, .i32⟩ : BufTy).Contents (Elt Ideal)) (x23 : (⟨Cert.ReferenceIdeal.S2x1600000, .i32⟩ : BufTy).Contents (Elt Ideal)) (x24 : (⟨Cert.ReferenceIdeal.S2x1000000, .i32⟩ : BufTy).Contents (Elt Ideal)) :
    Cert.ReferenceIdeal.Read.val_main_v143 (F := Ideal) x0 x1 x3 x4 x5 x6 x7 x8 x9 x10 x11 x12 x13 x14 x15 x16 x17 x21 x22 x23 x24
      = Host.gather gather_S10000x64_S1000000x1_S1000000x64_1_0_n_n_0_1_164
          (Cert.ReferenceIdeal.Read.val_main_v101 (F := Ideal) x0 x1 x3 x4 x5 x6 x7 x8 x9 x10 x11 x12 x13 x14 x15 x16 x17 x21 x22 x23)
          (broadcastInDim S1000000x1 ![0] bcast_S1000000_S1000000x1_0 (wrapBy 10000#32 (Cert.ReferenceIdeal.Read.val_main_v136 (F := Ideal) x24))) := by
  unfold Cert.ReferenceIdeal.Read.val_main_v143 Cert.ReferenceIdeal.Read.val_main_v142 Cert.ReferenceIdeal.Read.val_main_v141 Cert.ReferenceIdeal.Read.val_main_v140 Cert.ReferenceIdeal.Read.val_main_v139
    Cert.ReferenceIdeal.Read.val_main_v138 Cert.ReferenceIdeal.Read.val_main_v137 Cert.ReferenceIdeal.Read.val_main_c_28 Cert.ReferenceIdeal.Read.val_main_c_29
  rfl

end PhaseClsTakes

/-- The drug-side rows `pd2[edge_label_index[0]]`. -/
theorem W29_v70 (m : (ℓ : Loc nD τ sig) → Buf (Elt Ideal) ℓ) (ρ : Dev nD → PrngReg) (c : Dev nD)
    (hr : InRange m c)
    (h65 : W27 m ρ c (Proc.devRef .tc main_v65) = Cert.ReferenceIdeal.Read.val_main_v125 (F := Ideal) (A0 m c) (A1 m c) (A3 m c) (A4 m c) (A5 m c) (A6 m c) (A7 m c) (A8 m c) (A9 m c) (A10 m c) (A11 m c) (A12 m c) (A13 m c) (A14 m c) (A18 m c) (A19 m c) (A20 m c) (A21 m c) (A22 m c) (A23 m c)) :
    W29 m ρ c (Proc.devRef .tc main_v70) = Cert.ReferenceIdeal.Read.val_main_v134 (F := Ideal) (A0 m c) (A1 m c) (A3 m c) (A4 m c) (A5 m c) (A6 m c) (A7 m c) (A8 m c) (A9 m c) (A10 m c) (A11 m c) (A12 m c) (A13 m c) (A14 m c) (A18 m c) (A19 m c) (A20 m c) (A21 m c) (A22 m c) (A23 m c) (A24 m c) := by
  -- the 23 operations of the lookup, composed
  have hstep : W29 m ρ c (Proc.devRef .tc main_v70)
      = PhaseClsTakes.lookupPd (W28 m ρ c (Proc.devRef .tc main_v67)) (W28 m ρ c (Proc.devRef .tc main_v65)) := by
    unfold PhaseClsTakes.lookupPd
    exact hop_v70 (W28 m ρ c)
  -- every first endpoint is a row of the table: the mask is all ones and the masked lookup is the gather
  rw [hstep, PhaseClsTakes.W28_v67, PhaseClsTakes.W28_v65, h65, PhaseClsTakes.lookupPd_eq _ _ hr.eli0, PhaseClsTakes.ref134_eq]

/-- The side-effect-side rows `se2[edge_label_index[1]]`. -/
theorem W30_v71 (m : (ℓ : Loc nD τ sig) → Buf (Elt Ideal) ℓ) (ρ : Dev nD → PrngReg) (c : Dev nD)
    (hr : InRange m c)
    (h51 : W22 m ρ c (Proc.devRef .tc main_v51) = Cert.ReferenceIdeal.Read.val_main_v101 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A21 m c) (A22 m c) (A23 m c)) :
    W30 m ρ c (Proc.devRef .tc main_v71) = Cert.ReferenceIdeal.Read.val_main_v143 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A21 m c) (A22 m c) (A23 m c) (A24 m c) := by
  -- the 23 operations of the lookup, composed
  have hstep : W30 m ρ c (Proc.devRef .tc main_v71)
      = PhaseClsTakes.lookupSe (W29 m ρ c (Proc.devRef .tc main_v69)) (W29 m ρ c (Proc.devRef .tc main_v51)) := by
    unfold PhaseClsTakes.lookupSe
    exact hop_v71 (W29 m ρ c)
  -- every second endpoint is a row of the table: the mask is all ones and the masked lookup is the gather
  rw [hstep, PhaseClsTakes.W29_v69, PhaseClsTakes.W28_v69, PhaseClsTakes.W29_v51, h51, PhaseClsTakes.lookupSe_eq _ _ hr.eli1, PhaseClsTakes.ref143_eq]

end Cert.KernelIdeal.Sim

end
-- ==== Proof.Reg6.lean ====
/-
  Region 6 of the idealized kernel as a whole-array function: each output entry is the inner product of the two operands' rows.
-/
import proofs.«420035_j53996328845374_1_alg».proof.Proof.Prelude
import Idealize.ShloMosaic.Lib.ValueIdx
import Idealize.ShloMosaic.Lib.Pipeline.Value
import Idealize.ShloMosaic.PureOps.Ideal.Laws

noncomputable section

namespace Cert.KernelIdeal.Sim

open Cert.KernelIdeal Cert.KernelIdeal.Gen Idealize.ShloMosaic Idealize.ShloMosaic.TcCoe Idealize.SL.Sem

namespace Reg6

open Idealize.ShloMosaic.ValueIdx
open Idealize.ShloMosaic.Pipeline (Dat)

/-! ## The body's value at a row of a block -/

/-- The index the lane reduction inserts column `k` at, in row `r`, is `(r, k)`. -/
theorem lift_row (r : Fin 4096) (k : Fin 64) :
    reduces_S4096x64_S4096.lift (ix1 r) k = ix2 r k := by
  funext a
  apply Fin.ext
  match a with
  | ⟨0, _⟩ => rfl
  | ⟨1, _⟩ => rfl

/-- The body's value at row `r` of a block: the sum over the 64 columns of the products of the two loaded blocks'
    entries in that row. -/
theorem pay_apply (x0 x1 : FVec Ideal S4096x64 .f32) (r : Fin 4096) :
    k6_pay1 (F := Ideal) x0 x1 (ix1 r) = ∑ k : Fin 64, x0 (ix2 r k) * x1 (ix2 r k) := by
  unfold k6_pay1
  refine (Ideal.multiReduction_add_single _ 0x00000000#32 reduces_S4096x64_S4096 _ _ (ix1 r)).trans ?_
  refine Finset.sum_congr rfl ?_
  intro (k : Fin 64) _
  rw [shapeCast_self, shapeCast_self]
  show x0 (reduces_S4096x64_S4096.lift (ix1 r) k) * x1 (reduces_S4096x64_S4096.lift (ix1 r) k) = _
  rw [lift_row r k]

/-! ## The whole-array function -/

/-- Row by row, the inner product of two 1003520 × 64 arrays. -/
def rowDot (a b : S1003520x64.Idx → EReal) : S1003520.Idx → EReal :=
  fun i => ∑ k : Fin 64, a (ix2 (n0 := 1003520) (i 0) k) * b (ix2 (n0 := 1003520) (i 0) k)

theorem hz1 : (![0] : Fin 1 → Nat) = fun _ => 0 := funext fun a => by fin_cases a; rfl
theorem hz2 : (![0, 0] : Fin 2 → Nat) = fun _ => 0 := funext fun a => by fin_cases a <;> rfl

/-! ## Where each point's blocks sit -/

/-- The printed index maps over the 245 points: point `t` reads row block `t` (column block 0) of both operands and
    writes block `t` of the output. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 1) = t.val :=
  (by decide +kernel : ∀ t : Fin grid6.N, _)

/-- Entry `(r, k)` of the first operand's block at point `t` is entry `(4096 t + r, k)` of the operand. -/
theorem iblk0_apply (V : (c : Dev nD) → (b : Ref sig .tc) → Buf (Elt Ideal) ((c : Thread nD τ).loc b)) (c : Dev nD)
    (t : Fin cfg6.N) (r : Fin 4096) (k : Fin 64) (i : S1003520x64.Idx)
    (hi0 : (i 0).val = t.val * 4096 + r.val) (hi1 : (i 1).val = k.val) :
    (iblk6 V c 0 t : Vec Ideal S4096x64 .f32) (ix2 r k) = (V c main_v72 : S1003520x64.Idx → EReal) i := by
  obtain ⟨e0, e1, -, -, -⟩ := idx_facts t
  unfold iblk6
  rw [View.read_apply]
  show V c main_v72 _ = V c main_v72 _
  congr 1
  funext a
  apply Fin.ext
  match a with
  | ⟨0, _⟩ => show win6_0.index t (0 : Fin 2) * 4096 + 1 * r.val = (i 0).val; rw [e0, hi0]; omega
  | ⟨1, _⟩ => show win6_0.index t (1 : Fin 2) * 64 + 1 * k.val = (i 1).val; rw [e1, hi1]; omega

/-- Entry `(r, k)` of the second operand's block at point `t` is entry `(4096 t + r, k)` of the operand. -/
theorem iblk1_apply (V : (c : Dev nD) → (b : Ref sig .tc) → Buf (Elt Ideal) ((c : Thread nD τ).loc b)) (c : Dev nD)
    (t : Fin cfg6.N) (r : Fin 4096) (k : Fin 64) (i : S1003520x64.Idx)
    (hi0 : (i 0).val = t.val * 4096 + r.val) (hi1 : (i 1).val = k.val) :
    (iblk6 V c 1 t : Vec Ideal S4096x64 .f32) (ix2 r k) = (V c main_v73 : S1003520x64.Idx → EReal) i := by
  obtain ⟨-, -, e0, e1, -⟩ := idx_facts t
  unfold iblk6
  rw [View.read_apply]
  show V c main_v73 _ = V c main_v73 _
  congr 1
  funext a
  apply Fin.ext
  match a with
  | ⟨0, _⟩ => show win6_1.index t (0 : Fin 2) * 4096 + 1 * r.val = (i 0).val; rw [e0, hi0]; omega
  | ⟨1, _⟩ => show win6_1.index t (1 : Fin 2) * 64 + 1 * k.val = (i 1).val; rw [e1, hi1]; omega

/-! ## What each point writes back, and the array -/

/-- WHAT POINT `t` WRITES BACK is block `t` of the row-by-row inner product of the two operands as the region finds
    them: the body's one store through the whole output buffer leaves its value, whose row `r` is the sum over the
    columns of the products of the loaded blocks' rows `r`, which are the operands' rows `4096 t + r`. -/
theorem flushed_eq (V : (c : Dev nD) → (b : Ref sig .tc) → Buf (Elt Ideal) ((c : Thread nD τ).loc b)) (c : Dev nD)
    (t : Fin cfg6.N) :
    (dat6 (F := Ideal) V c).flushed 2 t
      = ((cfg6.win 2).blk t).view.read (Elt Ideal) (rowDot (V c main_v72) (V c main_v73)) := by
  show (cfg6.win 2).cut (grid6.coords t) ((dat6 (F := Ideal) V c).after 2 t) = _
  rw [after6_2]
  unfold out6_2
  rw [View.canon_unit_zero hz1]
  simp only [View.ld_unit_zero (S := S4096x64) hz2]
  obtain ⟨-, -, -, -, e2⟩ := idx_facts t
  funext j
  have hj : (j 0).val < 4096 := (j 0).isLt
  have hx : (cfg6.win 2).xinj (grid6.coords t) j = ix1 (⟨(j 0).val, hj⟩ : Fin 4096) :=
    funext fun a => by match a with | ⟨0, _⟩ => rfl
  show k6_pay1 (F := Ideal) (iblk6 V c 0 t) (iblk6 V c 1 t) ((cfg6.win 2).xinj (grid6.coords t) j)
    = rowDot (V c main_v72) (V c main_v73) (((cfg6.win 2).blk t).view.emb j)
  refine (congrArg (k6_pay1 (F := Ideal) (iblk6 V c 0 t) (iblk6 V c 1 t)) hx).trans ?_
  rw [pay_apply]
  unfold rowDot
  have h0 : ((((cfg6.win 2).blk t).view.emb j) 0).val = t.val * 4096 + (j 0).val := by
    show win6_2.index t (0 : Fin 1) * 4096 + 1 * (j 0).val = _
    rw [e2]; omega
  refine Finset.sum_congr rfl fun k _ => ?_
  rw [iblk0_apply V c t ⟨(j 0).val, hj⟩ k (ix2 (n0 := 1003520) ((((cfg6.win 2).blk t).view.emb j) 0) k) h0 rfl,
    iblk1_apply V c t ⟨(j 0).val, hj⟩ k (ix2 (n0 := 1003520) ((((cfg6.win 2).blk t).view.emb j) 0) k) h0 rfl]

/-- A row of the output array is in point `t`'s block iff it lies among the 4096 rows from `4096 t` on. -/
theorem mem_blk (t : Fin cfg6.N) (i : S1003520.Idx) :
    i ∈ ((cfg6.win 2).blk t).view.set ↔ ∀ a : Fin 1, win6_2.index t a * S4096.size a ≤ (i a).val ∧ (i a).val < win6_2.index t a * S4096.size a + S4096.size a := by
  show i ∈ ((View.whole main_v74).slice (win6_2.rect t)).set ↔ _
  rw [View.set_slice_whole, Rect.mem_set_unit]
  exact Iff.rfl

/-- Every row is in some point's block: row `r` in that of point `r / 4096` (245 · 4096 = 1003520). -/
theorem cover (i : S1003520.Idx) :
    ∃ t : Fin cfg6.N, (cfg6.win 2).flush t = true ∧ i ∈ ((cfg6.win 2).blk t).view.set := by
  have hi : (i 0).val < 1003520 := (i 0).isLt
  have hN : cfg6.N = 245 := N_6
  have ht : (i 0).val / 4096 < cfg6.N := by rw [hN]; omega
  refine ⟨⟨(i 0).val / 4096, ht⟩, flush6_2 _, ?_⟩
  obtain ⟨-, -, -, -, e2⟩ := idx_facts ⟨(i 0).val / 4096, ht⟩
  rw [mem_blk]
  intro a
  match a with
  | ⟨0, _⟩ =>
    show win6_2.index ⟨(i 0).val / 4096, ht⟩ (0 : Fin 1) * 4096 ≤ (i 0).val ∧ (i 0).val < win6_2.index ⟨(i 0).val / 4096, ht⟩ (0 : Fin 1) * 4096 + 4096
    rw [e2]
    show (i 0).val / 4096 * 4096 ≤ (i 0).val ∧ (i 0).val < (i 0).val / 4096 * 4096 + 4096
    omega

/-- THE ARRAY after the region: the row-by-row inner product of the two operands as the region finds them. -/
theorem final (V : (c : Dev nD) → (b : Ref sig .tc) → Buf (Elt Ideal) ((c : Thread nD τ).loc b)) (c : Dev nD) :
    (dat6 (F := Ideal) V c).arrAt 2 cfg6.N = rowDot (V c main_v72) (V c main_v73) :=
  (dat6 (F := Ideal) V c).arrAt_eq_of_cover 2 (rowDot (V c main_v72) (V c main_v73)) (fun t _ => flushed_eq V c t) cover

end Reg6

/-- Entry `p` of region 6's output array, once every grid point has written its block back, is the sum over the 64
    columns of the products of the two operands' entries in row `p`. -/
theorem arr6_apply (V : (c : Dev nD) → (b : Ref sig .tc) → Buf (Elt Ideal) ((c : Thread nD τ).loc b)) (c : Dev nD) (p : Fin 1003520) :
    ((Gen.dat6 (F := Ideal) V c).arrAt 2 cfg6.N : S1003520.Idx → EReal) (ValueIdx.ix1 p)
      = ∑ k : Fin 64, HMul.hMul (α := EReal) (β := EReal) ((V c main_v72 : S1003520x64.Idx → EReal) (ValueIdx.ix2 p k)) ((V c main_v73 : S1003520x64.Idx → EReal) (ValueIdx.ix2 p k)) := by
  rw [Reg6.final V c]
  rfl

end Cert.KernelIdeal.Sim

end
-- ==== Proof.PhaseCls.lean ====
/-
  From region 5's exit to the return: the labelled edges' endpoint rows, padded to whole blocks, their row-wise inner products in region 6, and the padding sliced off.
-/
import proofs.«420035_j53996328845374_1_alg».proof.Proof.Prelude
import proofs.«420035_j53996328845374_1_alg».proof.Proof.PhaseClsTakes
import proofs.«420035_j53996328845374_1_alg».proof.Proof.Reg6
import Idealize.ShloMosaic.Lib.ValueIdx
import Idealize.ShloMosaic.Lib.KernelVsHost
import Idealize.ShloMosaic.Lib.Pipeline.Value
import Idealize.ShloMosaic.PureOps.Ideal.Laws

noncomputable section

namespace Cert.KernelIdeal.Sim

open Cert.KernelIdeal Cert.KernelIdeal.Gen Idealize.ShloMosaic Idealize.ShloMosaic.TcCoe Idealize.SL.Sem
open Idealize.ShloMosaic.ValueIdx

namespace PhaseCls

section Reference

/-- The reference's result at edge `p`: the sum over the 64 columns of the products of the two gathered rows' entries
    (the reduction starts from zero, and a product of arrays is the product of the entries). -/
theorem ref_v145_apply (x0 : (⟨S100000x512, .f32⟩ : BufTy).Contents (Elt Ideal)) (x1 : (⟨S10000x768, .f32⟩ : BufTy).Contents (Elt Ideal)) (x3 : (⟨S512x64, .f32⟩ : BufTy).Contents (Elt Ideal)) (x4 : (⟨S64, .f32⟩ : BufTy).Contents (Elt Ideal)) (x5 : (⟨S768x64, .f32⟩ : BufTy).Contents (Elt Ideal)) (x6 : (⟨S64, .f32⟩ : BufTy).Contents (Elt Ideal)) (x7 : (⟨S100000x64, .f32⟩ : BufTy).Contents (Elt Ideal)) (x8 : (⟨S10000x64, .f32⟩ : BufTy).Contents (Elt Ideal)) (x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 x18 : (⟨S64x64, .f32⟩ : BufTy).Contents (Elt Ideal)) (x19 : (⟨S64, .f32⟩ : BufTy).Contents (Elt Ideal)) (x20 : (⟨S64x64, .f32⟩ : BufTy).Contents (Elt Ideal)) (x21 : (⟨S100000, .i32⟩ : BufTy).Contents (Elt Ideal)) (x22 : (⟨S10000, .i32⟩ : BufTy).Contents (Elt Ideal)) (x23 : (⟨S2x1600000, .i32⟩ : BufTy).Contents (Elt Ideal)) (x24 : (⟨S2x1000000, .i32⟩ : BufTy).Contents (Elt Ideal)) (p : Fin 1000000) :
    Cert.ReferenceIdeal.Read.val_main_v145 (F := Ideal) x0 x1 x3 x4 x5 x6 x7 x8 x9 x10 x11 x12 x13 x14 x15 x16 x17 x18 x19 x20 x21 x22 x23 x24 (ix1 p)
      = ∑ k : Fin 64, Cert.ReferenceIdeal.Read.val_main_v134 (F := Ideal) x0 x1 x3 x4 x5 x6 x7 x8 x9 x10 x11 x12 x13 x14 x18 x19 x20 x21 x22 x23 x24 (ix2 p k) * Cert.ReferenceIdeal.Read.val_main_v143 (F := Ideal) x0 x1 x3 x4 x5 x6 x7 x8 x9 x10 x11 x12 x13 x14 x15 x16 x17 x21 x22 x23 x24 (ix2 p k) := by
  rw [Cert.ReferenceIdeal.Read.val_main_v145_apply]
  have h0 : (Cert.ReferenceIdeal.Read.val_main_cst_30 (F := Ideal)) (Shape.Idx.first Cert.ReferenceIdeal.Gen.h_S_) = 0 := by
    rw [Cert.ReferenceIdeal.Read.val_main_cst_30_apply]
    exact Ideal.ofBits_zero_f32
  rw [h0, zero_add]
  refine Finset.sum_congr rfl fun k _ => ?_
  have hidx : Cert.ReferenceIdeal.Read.idx_main_v145 (ix1 p) k = ix2 p k := by
    funext a
    match a with
    | ⟨0, _⟩ => rfl
    | ⟨1, _⟩ => rfl
  rw [hidx, Cert.ReferenceIdeal.Read.val_main_v144_apply]
  exact Ideal.mulf_def _ _

end Reference

variable (m : (ℓ : Loc nD τ sig) → Buf (Elt Ideal) ℓ) (ρ : Dev nD → PrngReg) (c : Dev nD)

/-- The sliced result at entry `p` is region 6's output array at `p`. -/
theorem W36_v75_apply (p : Fin 1000000) :
    (W36 m ρ c (Proc.devRef .tc main_v75) : S1000000.Idx → EReal) (ix1 p)
      = ((Gen.dat6 (F := Ideal) (V34 m ρ) c).arrAt 2 cfg6.N : S1003520.Idx → EReal) (ix1 ⟨p.val, by omega⟩) := by
  have h : W36 m ρ c (Proc.devRef .tc main_v75)
      = extractStridedSlice S1000000 ![0] (W35 m ρ c (Proc.devRef .tc main_v74)) slices_S1003520_S1000000_0 := by
    show StableHlo.after hostOps7 (W35 m ρ c) (Proc.devRef .tc main_v75) = _
    after_results
  rw [h, show W35 m ρ c (Proc.devRef .tc main_v74) = _ from W35_arr m ρ c 2]
  exact extractStridedSlice_apply ![0] _ slices_S1003520_S1000000_0 (ix1 p) (ix1 ⟨p.val, by omega⟩) (fun a => match a with
    | ⟨0, _⟩ => by show p.val = 0 + p.val; omega)

/-- The first pad, from any contents: the padded array is `stablehlo.pad` of what `main_v70` holds, by some scalar. -/
theorem pad_v72 (V : Valuation τ sig (Elt Ideal)) :
    ∃ v : S_.Idx → EReal, StableHlo.after hostOps6_4 V (Proc.devRef .tc main_v72)
      = pad S1003520x64 ![0, 0] ![3520, 0] ![0, 0] (V (Proc.devRef .tc main_v70)) v
          pads_S1000000x64_S1003520x64_035200_000 h_S_ := by
  refine ⟨?v, ?h⟩
  case h =>
    after_results_simp
    simp only [cast_eq]
    rfl

/-- The second pad, from any contents: the padded array is `stablehlo.pad` of what `main_v71` holds, by some scalar. -/
theorem pad_v73 (V : Valuation τ sig (Elt Ideal)) :
    ∃ v : S_.Idx → EReal, StableHlo.after hostOps6_6 V (Proc.devRef .tc main_v73)
      = pad S1003520x64 ![0, 0] ![3520, 0] ![0, 0] (V (Proc.devRef .tc main_v71)) v
          pads_S1000000x64_S1003520x64_035200_000 h_S_ := by
  refine ⟨?v, ?h⟩
  case h =>
    after_results_simp
    simp only [cast_eq]
    rfl

/-- A row below the padding of an array padded with 3520 rows at the end is the operand's row. -/
theorem pad_row (x : S1000000x64.Idx → EReal) (v : S_.Idx → EReal) (p : Fin 1000000) (k : Fin 64) :
    pad S1003520x64 ![0, 0] ![3520, 0] ![0, 0] x v pads_S1000000x64_S1003520x64_035200_000 h_S_
        (ix2 ⟨p.val, by omega⟩ k) = x (ix2 p k) :=
  pad_apply_of_inside ![0, 0] ![3520, 0] ![0, 0] x v pads_S1000000x64_S1003520x64_035200_000 h_S_
    (ix2 ⟨p.val, by omega⟩ k) (ix2 p k) (fun a => match a with
      | ⟨0, _⟩ => by show p.val = 0 + p.val * (0 + 1); omega
      | ⟨1, _⟩ => by show k.val = 0 + k.val * (0 + 1); omega)

/-- Row `p` of the first padded operand, for `p` below the padding, is row `p` of the first gathered array. -/
theorem W34_v72_apply (p : Fin 1000000) (k : Fin 64) :
    (W34 m ρ c (Proc.devRef .tc main_v72) : S1003520x64.Idx → EReal) (ix2 ⟨p.val, by omega⟩ k)
      = (W29 m ρ c (Proc.devRef .tc main_v70) : S1000000x64.Idx → EReal) (ix2 p k) := by
  have h70 : W31 m ρ c (Proc.devRef .tc main_v70) = W29 m ρ c (Proc.devRef .tc main_v70) := by
    keep_step
    keep_step
    rfl
  obtain ⟨v, hv⟩ := pad_v72 (W31 m ρ c)
  have h : W34 m ρ c (Proc.devRef .tc main_v72)
      = pad S1003520x64 ![0, 0] ![3520, 0] ![0, 0] (W29 m ρ c (Proc.devRef .tc main_v70)) v
          pads_S1000000x64_S1003520x64_035200_000 h_S_ := by
    keep_step
    keep_step
    rw [← h70]
    exact hv
  rw [h]
  exact pad_row _ v p k

/-- Row `p` of the second padded operand, for `p` below the padding, is row `p` of the second gathered array. -/
theorem W34_v73_apply (p : Fin 1000000) (k : Fin 64) :
    (W34 m ρ c (Proc.devRef .tc main_v73) : S1003520x64.Idx → EReal) (ix2 ⟨p.val, by omega⟩ k)
      = (W30 m ρ c (Proc.devRef .tc main_v71) : S1000000x64.Idx → EReal) (ix2 p k) := by
  have h71 : W33 m ρ c (Proc.devRef .tc main_v71) = W30 m ρ c (Proc.devRef .tc main_v71) := by
    keep_step
    keep_step
    keep_step
    rfl
  obtain ⟨v, hv⟩ := pad_v73 (W33 m ρ c)
  have h : W34 m ρ c (Proc.devRef .tc main_v73)
      = pad S1003520x64 ![0, 0] ![3520, 0] ![0, 0] (W30 m ρ c (Proc.devRef .tc main_v71)) v
          pads_S1000000x64_S1003520x64_035200_000 h_S_ := by
    rw [← h71]
    exact hv
  rw [h]
  exact pad_row _ v p k

end PhaseCls

/-- The kernel's result: per labelled edge, the inner product of the two endpoint rows. -/
theorem W36_v75 (m : (ℓ : Loc nD τ sig) → Buf (Elt Ideal) ℓ) (ρ : Dev nD → PrngReg) (c : Dev nD)
    (hr : InRange m c)
    (h65 : W27 m ρ c (Proc.devRef .tc main_v65) = Cert.ReferenceIdeal.Read.val_main_v125 (F := Ideal) (A0 m c) (A1 m c) (A3 m c) (A4 m c) (A5 m c) (A6 m c) (A7 m c) (A8 m c) (A9 m c) (A10 m c) (A11 m c) (A12 m c) (A13 m c) (A14 m c) (A18 m c) (A19 m c) (A20 m c) (A21 m c) (A22 m c) (A23 m c))
    (h51 : W22 m ρ c (Proc.devRef .tc main_v51) = Cert.ReferenceIdeal.Read.val_main_v101 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A21 m c) (A22 m c) (A23 m c)) :
    W36 m ρ c (Proc.devRef .tc main_v75) = Cert.ReferenceIdeal.Read.val_main_v145 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) := by
  funext i
  obtain ⟨p, rfl⟩ : ∃ p, i = ix1 p := ⟨i 0, eq_ix1 i⟩
  rw [PhaseCls.ref_v145_apply, PhaseCls.W36_v75_apply, arr6_apply]
  change (_ : EReal) = (_ : EReal)
  refine Finset.sum_congr rfl fun k _ => ?_
  show HMul.hMul (α := EReal) (β := EReal) (γ := EReal)
      ((W34 m ρ c (Proc.devRef .tc main_v72) : S1003520x64.Idx → EReal) (ix2 ⟨p.val, by omega⟩ k))
      ((W34 m ρ c (Proc.devRef .tc main_v73) : S1003520x64.Idx → EReal) (ix2 ⟨p.val, by omega⟩ k)) = _
  rw [PhaseCls.W34_v72_apply, PhaseCls.W34_v73_apply, W29_v70 m ρ c hr h65, W30_v71 m ρ c hr h51]

end Cert.KernelIdeal.Sim

end
-- ==== Proof.Assemble.lean ====
/-
  The idealized kernel's run, boundary by boundary: each region's output and each aggregation step's mean is the reference's stage of the arguments, so the result buffer ends at the reference's result term.
-/
import proofs.«420035_j53996328845374_1_alg».proof.Proof.Prelude
import proofs.«420035_j53996328845374_1_alg».proof.Proof.Carry
import proofs.«420035_j53996328845374_1_alg».proof.Proof.Reg0
import proofs.«420035_j53996328845374_1_alg».proof.Proof.Reg1
import proofs.«420035_j53996328845374_1_alg».proof.Proof.Reg2
import proofs.«420035_j53996328845374_1_alg».proof.Proof.Reg3
import proofs.«420035_j53996328845374_1_alg».proof.Proof.Reg4
import proofs.«420035_j53996328845374_1_alg».proof.Proof.Reg5
import proofs.«420035_j53996328845374_1_alg».proof.Proof.Phase0
import proofs.«420035_j53996328845374_1_alg».proof.Proof.PhaseL1a
import proofs.«420035_j53996328845374_1_alg».proof.Proof.PhaseL1b
import proofs.«420035_j53996328845374_1_alg».proof.Proof.PhaseL2a
import proofs.«420035_j53996328845374_1_alg».proof.Proof.PhaseL2b
import proofs.«420035_j53996328845374_1_alg».proof.Proof.PhaseCls

noncomputable section

namespace Cert.KernelIdeal.Sim

open Cert.KernelIdeal Cert.KernelIdeal.Gen Idealize.ShloMosaic Idealize.ShloMosaic.TcCoe Idealize.SL.Sem

/-- Region 0's output array in the run: its inputs at the region's entry are the stages the earlier steps left. -/
theorem W4_v3 (m : (ℓ : Loc nD τ sig) → Buf (Elt Ideal) ℓ) (ρ : Dev nD → PrngReg) (c : Dev nD) (hr : InRange m c) :
    W4 m ρ c (Proc.devRef .tc main_v3) = Cert.ReferenceIdeal.Read.val_main_v15 (F := Ideal) (A0 m c) (A3 m c) (A4 m c) (A7 m c) (A21 m c) :=
  (W4_arr m ρ c 4).trans
    (arr0_stage (V3 m ρ) c (A0 m c) (A3 m c) (A4 m c) (A7 m c) (A21 m c)
      (W3_arg0 m ρ c) (W3_arg3 m ρ c) (W3_v2 m ρ c) (W3_v0_of m ρ c _ (W1_v0 m ρ c hr)))

/-- Region 1's output array in the run: its inputs at the region's entry are the stages the earlier steps left. -/
theorem W6_v5 (m : (ℓ : Loc nD τ sig) → Buf (Elt Ideal) ℓ) (ρ : Dev nD → PrngReg) (c : Dev nD) (hr : InRange m c) :
    W6 m ρ c (Proc.devRef .tc main_v5) = Cert.ReferenceIdeal.Read.val_main_v27 (F := Ideal) (A1 m c) (A5 m c) (A6 m c) (A8 m c) (A22 m c) :=
  (W6_arr m ρ c 4).trans
    (arr1_stage (V5 m ρ) c (A1 m c) (A5 m c) (A6 m c) (A8 m c) (A22 m c)
      (W5_arg1 m ρ c) (W5_arg5 m ρ c) (W5_v4 m ρ c) (W5_v1_of m ρ c _ (W2_v1 m ρ c hr)))

/-- Region 2's output array in the run: its inputs at the region's entry are the stages the earlier steps left. -/
theorem W12_v23 (m : (ℓ : Loc nD τ sig) → Buf (Elt Ideal) ℓ) (ρ : Dev nD → PrngReg) (c : Dev nD) (hr : InRange m c)
    (h21 : W11 m ρ c (Proc.devRef .tc main_v21) = Cert.ReferenceIdeal.Read.val_main_v45 (F := Ideal) (A0 m c) (A3 m c) (A4 m c) (A7 m c) (A21 m c) (A23 m c))
    (h5 : W6 m ρ c (Proc.devRef .tc main_v5) = Cert.ReferenceIdeal.Read.val_main_v27 (F := Ideal) (A1 m c) (A5 m c) (A6 m c) (A8 m c) (A22 m c)) :
    W12 m ρ c (Proc.devRef .tc main_v23) = Cert.ReferenceIdeal.Read.val_main_v52 (F := Ideal) (A0 m c) (A1 m c) (A3 m c) (A4 m c) (A5 m c) (A6 m c) (A7 m c) (A8 m c) (A9 m c) (A10 m c) (A11 m c) (A21 m c) (A22 m c) (A23 m c) :=
  (W12_arr m ρ c 5).trans
    (arr2_stage (V11 m ρ) c (A0 m c) (A1 m c) (A3 m c) (A4 m c) (A5 m c) (A6 m c) (A7 m c) (A8 m c) (A9 m c) (A10 m c) (A11 m c) (A21 m c) (A22 m c) (A23 m c)
      h21 (W11_arg9 m ρ c) (W11_v22 m ρ c) (W11_v5_of m ρ c _ h5) (W11_arg11 m ρ c))

/-- Region 3's output array in the run: its inputs at the region's entry are the stages the earlier steps left. -/
theorem W17_v37 (m : (ℓ : Loc nD τ sig) → Buf (Elt Ideal) ℓ) (ρ : Dev nD → PrngReg) (c : Dev nD) (hr : InRange m c)
    (h35 : W16 m ρ c (Proc.devRef .tc main_v35) = Cert.ReferenceIdeal.Read.val_main_v70 (F := Ideal) (A1 m c) (A5 m c) (A6 m c) (A8 m c) (A22 m c) (A23 m c))
    (h3 : W4 m ρ c (Proc.devRef .tc main_v3) = Cert.ReferenceIdeal.Read.val_main_v15 (F := Ideal) (A0 m c) (A3 m c) (A4 m c) (A7 m c) (A21 m c)) :
    W17 m ρ c (Proc.devRef .tc main_v37) = Cert.ReferenceIdeal.Read.val_main_v77 (F := Ideal) (A0 m c) (A1 m c) (A3 m c) (A4 m c) (A5 m c) (A6 m c) (A7 m c) (A8 m c) (A12 m c) (A13 m c) (A14 m c) (A21 m c) (A22 m c) (A23 m c) :=
  (W17_arr m ρ c 5).trans
    (arr3_stage (V16 m ρ) c (A0 m c) (A1 m c) (A3 m c) (A4 m c) (A5 m c) (A6 m c) (A7 m c) (A8 m c) (A12 m c) (A13 m c) (A14 m c) (A21 m c) (A22 m c) (A23 m c)
      h35 (W16_arg12 m ρ c) (W16_v36 m ρ c) (W16_v3_of m ρ c _ h3) (W16_arg14 m ρ c))

/-- Region 4's output array in the run: its inputs at the region's entry are the stages the earlier steps left. -/
theorem W22_v51 (m : (ℓ : Loc nD τ sig) → Buf (Elt Ideal) ℓ) (ρ : Dev nD → PrngReg) (c : Dev nD) (hr : InRange m c)
    (h49 : W21 m ρ c (Proc.devRef .tc main_v49) = Cert.ReferenceIdeal.Read.val_main_v95 (F := Ideal) (A0 m c) (A1 m c) (A3 m c) (A4 m c) (A5 m c) (A6 m c) (A7 m c) (A8 m c) (A12 m c) (A13 m c) (A14 m c) (A21 m c) (A22 m c) (A23 m c))
    (h23 : W12 m ρ c (Proc.devRef .tc main_v23) = Cert.ReferenceIdeal.Read.val_main_v52 (F := Ideal) (A0 m c) (A1 m c) (A3 m c) (A4 m c) (A5 m c) (A6 m c) (A7 m c) (A8 m c) (A9 m c) (A10 m c) (A11 m c) (A21 m c) (A22 m c) (A23 m c)) :
    W22 m ρ c (Proc.devRef .tc main_v51) = Cert.ReferenceIdeal.Read.val_main_v101 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A21 m c) (A22 m c) (A23 m c) :=
  (W22_arr m ρ c 5).trans
    (arr4_stage (V21 m ρ) c (A0 m c) (A1 m c) (A3 m c) (A4 m c) (A5 m c) (A6 m c) (A7 m c) (A8 m c) (A9 m c) (A10 m c) (A11 m c) (A12 m c) (A13 m c) (A14 m c) (A15 m c) (A16 m c) (A17 m c) (A21 m c) (A22 m c) (A23 m c)
      h49 (W21_arg15 m ρ c) (W21_v50 m ρ c) (W21_v23_of m ρ c _ h23) (W21_arg17 m ρ c))

/-- Region 5's output array in the run: its inputs at the region's entry are the stages the earlier steps left. -/
theorem W27_v65 (m : (ℓ : Loc nD τ sig) → Buf (Elt Ideal) ℓ) (ρ : Dev nD → PrngReg) (c : Dev nD) (hr : InRange m c)
    (h63 : W26 m ρ c (Proc.devRef .tc main_v63) = Cert.ReferenceIdeal.Read.val_main_v119 (F := Ideal) (A0 m c) (A1 m c) (A3 m c) (A4 m c) (A5 m c) (A6 m c) (A7 m c) (A8 m c) (A9 m c) (A10 m c) (A11 m c) (A21 m c) (A22 m c) (A23 m c))
    (h37 : W17 m ρ c (Proc.devRef .tc main_v37) = Cert.ReferenceIdeal.Read.val_main_v77 (F := Ideal) (A0 m c) (A1 m c) (A3 m c) (A4 m c) (A5 m c) (A6 m c) (A7 m c) (A8 m c) (A12 m c) (A13 m c) (A14 m c) (A21 m c) (A22 m c) (A23 m c)) :
    W27 m ρ c (Proc.devRef .tc main_v65) = Cert.ReferenceIdeal.Read.val_main_v125 (F := Ideal) (A0 m c) (A1 m c) (A3 m c) (A4 m c) (A5 m c) (A6 m c) (A7 m c) (A8 m c) (A9 m c) (A10 m c) (A11 m c) (A12 m c) (A13 m c) (A14 m c) (A18 m c) (A19 m c) (A20 m c) (A21 m c) (A22 m c) (A23 m c) :=
  (W27_arr m ρ c 5).trans
    (arr5_stage (V26 m ρ) c (A0 m c) (A1 m c) (A3 m c) (A4 m c) (A5 m c) (A6 m c) (A7 m c) (A8 m c) (A9 m c) (A10 m c) (A11 m c) (A12 m c) (A13 m c) (A14 m c) (A18 m c) (A19 m c) (A20 m c) (A21 m c) (A22 m c) (A23 m c)
      h63 (W26_arg18 m ρ c) (W26_v64 m ρ c) (W26_v37_of m ρ c _ h37) (W26_arg20 m ρ c))

/-- The result buffer at the last boundary is the reference's result term of the arguments, when the index arrays are in range. -/
theorem result_eq (m : (ℓ : Loc nD τ sig) → Buf (Elt Ideal) ℓ) (ρ : Dev nD → PrngReg) (c : Dev nD) (hr : InRange m c) :
    W36 m ρ c (Proc.devRef .tc main_v75) = Cert.ReferenceIdeal.Read.val_main_v145 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) := by
  have h3 := W4_v3 m ρ c hr
  have h5 := W6_v5 m ρ c hr
  have h21 := W11_v21 m ρ c hr h3
  have h23 := W12_v23 m ρ c hr h21 h5
  have h35 := W16_v35 m ρ c hr h5
  have h37 := W17_v37 m ρ c hr h35 h3
  have h49 := W21_v49 m ρ c hr h37
  have h51 := W22_v51 m ρ c hr h49 h23
  have h63 := W26_v63 m ρ c hr h23
  have h65 := W27_v65 m ρ c hr h63 h37
  exact W36_v75 m ρ c hr h65 h51

end Cert.KernelIdeal.Sim

end
-- ==== Proof.lean ====
/-
  The certificate: the kernel (a hetero GNN's two embed-and-project layers, four mean-aggregate-and-combine steps and an
  edge classifier, the dense parts as seven tiled TensorCore regions) against its jnp reference, over the extended reals.
  The three frames are the generated ones (the reference's from its generated run). `preserves` is trivial: the ideal
  pass rewrote nothing. `algebraic`: the kernel's run ends with its result buffer at the last boundary's contents
  (Proof/KRun.lean), which is the reference's result term of the arguments (Proof/Assemble.lean: region by region and
  aggregation step by aggregation step, each intermediate array is the reference's stage), given that every index array
  is in range of the axis it indexes (Proof/PreFacts.lean reads that off the precondition): there the kernel's masked row
  lookups are the reference's plain gathers, a region's blocked matrix products and bias adds are the whole-array
  `dot_general`s and adds, and zero padding rows of the classifier's operands only produce outputs that are sliced off.
-/
import proofs.«420035_j53996328845374_1_alg».proof.Defs
import proofs.«420035_j53996328845374_1_alg».proof.Proof.Gen.Kernel
import proofs.«420035_j53996328845374_1_alg».proof.Proof.Gen.Kernel.Frame
import proofs.«420035_j53996328845374_1_alg».proof.Proof.Gen.KernelIdeal
import proofs.«420035_j53996328845374_1_alg».proof.Proof.Gen.KernelIdeal.Frame
import proofs.«420035_j53996328845374_1_alg».proof.Proof.Gen.ReferenceIdeal
import proofs.«420035_j53996328845374_1_alg».proof.Proof.Gen.ReferenceIdeal.Run
import proofs.«420035_j53996328845374_1_alg».proof.Proof.Gen.ReferenceIdeal.Read
import proofs.«420035_j53996328845374_1_alg».proof.Proof.Gen.Pre_finite_inputs
import proofs.«420035_j53996328845374_1_alg».proof.Proof.KRun
import proofs.«420035_j53996328845374_1_alg».proof.Proof.PreFacts
import proofs.«420035_j53996328845374_1_alg».proof.Proof.Assemble

noncomputable section

namespace Cert.Proof

open Idealize.ShloMosaic Idealize.SL.Sem

/-- The two idealized programs, from memories agreeing on the arguments, both end with the same result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W36 m ρ c (Proc.devRef .tc Cert.KernelIdeal.main_v75),
    fun c => m ((c.tc : Thread Cert.KernelIdeal.nD Cert.KernelIdeal.τ).loc Cert.KernelIdeal.main_arg2), ?_, ?_⟩
  · exact (θ_run Cert.KernelIdeal.defs _ _).mono (fun r h c => ⟨(h c).1, (h c).2.2.2.1, (h c).2⟩)
      (Cert.KernelIdeal.Gen.run_final (F := Ideal) m ρ)
  · refine (θ_run Cert.ReferenceIdeal.defs _ _).mono (fun r h c => ⟨(h c).1.trans ?_, (h c).2.1.trans (hagree c).2.2.1, (h c).2.2⟩)
      (Cert.ReferenceIdeal.Value.run (F := Ideal) m' ρ')
    obtain ⟨e0, e1, e2, e3, e4, e5, e6, e7, e8, e9, e10, e11, e12, e13, e14, e15, e16, e17, e18, e19, e20, e21, e22, e23, e24⟩ := hagree c
    rw [Cert.ReferenceIdeal.Read.val_main_v145_eq, e0, e1, e3, e4, e5, e6, e7, e8, e9, e10, e11, e12, e13, e14, e15, e16, e17, e18, e19, e20, e21, e22, e23, e24]
    exact (Cert.KernelIdeal.Sim.result_eq m ρ c (Cert.KernelIdeal.Sim.inRange_of_pre m hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
